-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S5000x128 : Shape := ⟨2, ![5000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S2x1600000 : Shape := ⟨2, ![2, 1600000]⟩
abbrev S200000 : Shape := ⟨1, ![200000]⟩
abbrev S_ : Shape := ⟨0, ![]⟩
abbrev S1x1600000 : Shape := ⟨2, ![1, 1600000]⟩
abbrev S1600000 : Shape := ⟨1, ![1600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5000x128 : S_.BroadcastsInDim S5000x128 (![] : Fin 0 → Fin S5000x128.rank)
  reducesTo_S5000x128_S_d0_1 : S5000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_
  bcast_S_S200000 : S_.BroadcastsInDim S200000 (![] : Fin 0 → Fin S200000.rank)
  reducesTo_S200000_S_d0 : S200000.ReducesTo [0] S_

variable [Facts]

def fn_part3 {F : FTy → Type} [FloatOps F] (main_arg10 : IVec S200000 32) (main_arg11 : IVec S200000 32) (main_v43 : IVec S_ 1) (main_v47 : IVec S1600000 1) (main_v51 : IVec S1600000 1) : IVec S_ 1 :=
  let main_v52 : IVec S1600000 1 := andi main_v47 main_v51
  let main_c_18 : IVec S_ 1 := constantI S_ 1 1#1
  let main_v53 : IVec S_ 1 := (fun x v => Host.reduce IntOp.andi x v reducesTo_S1600000_S_d0 h_S_) main_v52 main_c_18
  let main_v54 : IVec S_ 1 := andi main_v43 main_v53
  let main_c_19 : IVec S_ 32 := constantI S_ 32 4294917296#32
  let main_v55 : IVec S200000 32 := broadcastInDim S200000 ![] bcast_S_S200000 main_c_19
  let main_v56 : IVec S200000 1 := cmpi .sge main_arg10 main_v55
  let main_c_20 : IVec S_ 32 := constantI S_ 32 50000#32
  let main_v57 : IVec S200000 32 := broadcastInDim S200000 ![] bcast_S_S200000 main_c_20
  let main_v58 : IVec S200000 1 := cmpi .slt main_arg10 main_v57
  let main_v59 : IVec S200000 1 := andi main_v56 main_v58
  let main_c_21 : IVec S_ 1 := constantI S_ 1 1#1
  let main_v60 : IVec S_ 1 := (fun x v => Host.reduce IntOp.andi x v reducesTo_S200000_S_d0 h_S_) main_v59 main_c_21
  let main_v61 : IVec S_ 1 := andi main_v54 main_v60
  let main_c_22 : IVec S_ 32 := constantI S_ 32 0#32
  let main_v62 : IVec S200000 32 := broadcastInDim S200000 ![] bcast_S_S200000 main_c_22
  let main_v63 : IVec S200000 1 := cmpi .sge main_arg11 main_v62
  let main_c_23 : IVec S_ 1 := constantI S_ 1 1#1
  let main_v64 : IVec S_ 1 := (fun x v => Host.reduce IntOp.andi x v reducesTo_S200000_S_d0 h_S_) main_v63 main_c_23
  let main_v65 : IVec S_ 1 := andi main_v61 main_v64
  main_v65

def fn_part2 {F : FTy → Type} [FloatOps F] (main_arg7 : FVec F S64 .f32) (main_arg8 : FVec F S128x64 .f32) (main_arg9 : IVec S2x1600000 32) (main_arg10 : IVec S200000 32) (main_arg11 : IVec S200000 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : IVec S1x1600000 32 := (extractStridedSlice S1x1600000 ![0, 0] · slices_S2x1600000_S1x1600000_0_0) main_arg9
  let main_v45 : IVec S1600000 32 := shapeCast S1600000 main_v44 shapeCasts_S1x1600000_S1600000
  let main_c_16 : IVec S_ 32 := constantI S_ 32 4294917296#32
  let main_v46 : IVec S1600000 32 := broadcastInDim S1600000 ![] bcast_S_S1600000 main_c_16
  let main_v47 : IVec S1600000 1 := cmpi .sge main_v45 main_v46
  let main_v48 : IVec S1x1600000 32 := (extractStridedSlice S1x1600000 ![0, 0] · slices_S2x1600000_S1x1600000_0_0) main_arg9
  let main_v49 : IVec S1600000 32 := shapeCast S1600000 main_v48 shapeCasts_S1x1600000_S1600000
  let main_c_17 : IVec S_ 32 := constantI S_ 32 50000#32
  let main_v50 : IVec S1600000 32 := broadcastInDim S1600000 ![] bcast_S_S1600000 main_c_17
  let main_v51 : IVec S1600000 1 := cmpi .slt main_v49 main_v50
  fn_part3 (F := F) main_arg10 main_arg11 main_v43 main_v47 main_v51

def fn_part1 {F : FTy → Type} [FloatOps F] (main_arg4 : FVec F S64x32 .f32) (main_arg5 : FVec F S32 .f32) (main_arg6 : FVec F S32x64 .f32) (main_arg7 : FVec F S64 .f32) (main_arg8 : FVec F S128x64 .f32) (main_arg9 : IVec S2x1600000 32) (main_arg10 : IVec S200000 32) (main_arg11 : IVec S200000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S5000x128 .f32) (main_arg2 : FVec F S128x64 .f32) (main_arg3 : FVec F S64 .f32) (main_arg4 : FVec F S64x32 .f32) (main_arg5 : FVec F S32 .f32) (main_arg6 : FVec F S32x64 .f32) (main_arg7 : FVec F S64 .f32) (main_arg8 : FVec F S128x64 .f32) (main_arg9 : IVec S2x1600000 32) (main_arg10 : IVec S200000 32) (main_arg11 : IVec S200000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5000x128 .f32 := Host.absf main_arg1
  let main_cst_0 : FVec F S_ .f32 := constant S_ .f32 0x7F800000#32
  let main_v5 : FVec F S5000x128 .f32 := broadcastInDim S5000x128 ![] bcast_S_S5000x128 main_cst_0
  let main_v6 : IVec S5000x128 1 := cmpf .olt main_v4 main_v5
  let main_c_1 : IVec S_ 1 := constantI S_ 1 1#1
  let main_v7 : IVec S_ 1 := (fun x v => Host.reduce IntOp.andi x v reducesTo_S5000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S5000x128 : Shape := ⟨2, ![5000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S2x1600000 : Shape := ⟨2, ![2, 1600000]⟩
abbrev S200000 : Shape := ⟨1, ![200000]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S5000x64 : Shape := ⟨2, ![5000, 64]⟩
abbrev S1 : Shape := ⟨1, ![1]⟩
abbrev S1x1 : Shape := ⟨2, ![1, 1]⟩
abbrev S1650000x64 : Shape := ⟨2, ![1650000, 64]⟩
abbrev S1x64 : Shape := ⟨2, ![1, 64]⟩
abbrev S50000x32 : Shape := ⟨2, ![50000, 32]⟩
abbrev S5000x32 : Shape := ⟨2, ![5000, 32]⟩
abbrev S1650000x32 : Shape := ⟨2, ![1650000, 32]⟩
abbrev S1x32 : Shape := ⟨2, ![1, 32]⟩
abbrev S200000x1 : Shape := ⟨2, ![200000, 1]⟩
abbrev S200000x32 : Shape := ⟨2, ![200000, 32]⟩
abbrev S5000 : Shape := ⟨1, ![5000]⟩
abbrev S5000x1 : Shape := ⟨2, ![5000, 1]⟩
abbrev S1000x32 : Shape := ⟨2, ![1000, 32]⟩
abbrev S1000x128 : Shape := ⟨2, ![1000, 128]⟩
abbrev S1000x64 : Shape := ⟨2, ![1000, 64]⟩

abbrev nBuf : Space → Nat
  | .hbm => 187
  | .vmem => 29
  | .smem => 0
  | _ => 0

abbrev hbmTy0_0 (i : Nat) : BufTy := match i % 128 with
  | 0 => ⟨S50000x128, .f32⟩
  | 1 => ⟨S5000x128, .f32⟩
  | 2 => ⟨S128x64, .f32⟩
  | 3 => ⟨S64, .f32⟩
  | 4 => ⟨S64x32, .f32⟩
  | 5 => ⟨S32, .f32⟩
  | 6 => ⟨S32x64, .f32⟩
  | 7 => ⟨S64, .f32⟩
  | 8 => ⟨S128x64, .f32⟩
  | 9 => ⟨S2x1600000, .i32⟩
  | 10 => ⟨S200000, .i32⟩
  | 11 => ⟨S200000, .i32⟩
  | 12 => ⟨S1x1600000, .i32⟩
  | 13 => ⟨S1600000, .i32⟩
  | 14 => ⟨S1x1600000, .i32⟩
  | 15 => ⟨S1600000, .i32⟩
  | 16 => ⟨S50000, .i32⟩
  | 17 => ⟨S1650000, .i32⟩
  | 18 => ⟨S1650000, .i32⟩
  | 19 => ⟨S_, .f32⟩
  | 20 => ⟨S50000, .f32⟩
  | 21 => ⟨S_, .i32⟩
  | 22 => ⟨S1650000, .i32⟩
  | 23 => ⟨S1650000, .i1⟩
  | 24 => ⟨S_, .i32⟩
  | 25 => ⟨S1650000, .i32⟩
  | 26 => ⟨S1650000, .i32⟩
  | 27 => ⟨S1650000, .i32⟩
  | 28 => ⟨S1650000x1, .i32⟩
  | 29 => ⟨S_, .f32⟩
  | 30 => ⟨S1650000, .f32⟩
  | 31 => ⟨S50000, .f32⟩
  | 32 => ⟨S50000, .f32⟩
  | 33 => ⟨S_, .i32⟩
  | 34 => ⟨S1650000, .i32⟩
  | 35 => ⟨S1650000, .i1⟩
  | 36 => ⟨S_, .i32⟩
  | 37 => ⟨S1650000, .i32⟩
  | 38 => ⟨S1650000, .i32⟩
  | 39 => ⟨S1650000, .i32⟩
  | 40 => ⟨S1650000x1, .i32⟩
  | 41 => ⟨S1650000, .f32⟩
  | 42 => ⟨S_, .i32⟩
  | 43 => ⟨S1650000, .i32⟩
  | 44 => ⟨S1650000, .i1⟩
  | 45 => ⟨S_, .i32⟩
  | 46 => ⟨S1650000, .i32⟩
  | 47 => ⟨S1650000, .i32⟩
  | 48 => ⟨S1650000, .i32⟩
  | 49 => ⟨S1650000x1, .i32⟩
  | 50 => ⟨S1650000, .f32⟩
  | 51 => ⟨S1650000, .f32⟩
  | 52 => ⟨S50000x64, .f32⟩
  | 53 => ⟨S_, .i32⟩
  | 54 => ⟨S1650000, .i32⟩
  | 55 => ⟨S1650000, .i1⟩
  | 56 => ⟨S_, .i32⟩
  | 57 => ⟨S1650000, .i32⟩
  | 58 => ⟨S1650000, .i32⟩
  | 59 => ⟨S1650000, .i32⟩
  | 60 => ⟨S1650000x1, .i32⟩
  | 61 => ⟨S1, .i32⟩
  | 62 => ⟨S_, .i32⟩
  | 63 => ⟨S1650000x1, .i32⟩
  | 64 => ⟨S1650000x1, .i1⟩
  | 65 => ⟨S1x1, .i32⟩
  | 66 => ⟨S1650000x1, .i32⟩
  | 67 => ⟨S1650000x1, .i1⟩
  | 68 => ⟨S1650000x1, .i1⟩
  | 69 => ⟨S_, .i1⟩
  | 70 => ⟨S1650000, .i1⟩
  | 71 => ⟨S1650000x64, .f32⟩
  | 72 => ⟨S1650000x64, .i1⟩
  | 73 => ⟨S_, .f32⟩
  | 74 => ⟨S1650000x64, .f32⟩
  | 75 => ⟨S1650000x64, .f32⟩
  | 76 => ⟨S1650000x1, .f32⟩
  | 77 => ⟨S1650000x64, .f32⟩
  | 78 => ⟨S1650000x64, .f32⟩
  | 79 => ⟨S_, .f32⟩
  | 80 => ⟨S50000x64, .f32⟩
  | 81 => ⟨S_, .i32⟩
  | 82 => ⟨S1650000, .i32⟩
  | 83 => ⟨S1650000, .i1⟩
  | 84 => ⟨S_, .i32⟩
  | 85 => ⟨S1650000, .i32⟩
  | 86 => ⟨S1650000, .i32⟩
  | 87 => ⟨S1650000, .i32⟩
  | 88 => ⟨S1650000x1, .i32⟩
  | 89 => ⟨S50000x64, .f32⟩
  | 90 => ⟨S1x64, .f32⟩
  | 91 => ⟨S50000x64, .f32⟩
  | 92 => ⟨S50000x32, .f32⟩
  | 93 => ⟨S_, .i32⟩
  | 94 => ⟨S1650000, .i32⟩
  | 95 => ⟨S1650000, .i1⟩
  | 96 => ⟨S_, .i32⟩
  | 97 => ⟨S1650000, .i32⟩
  | 98 => ⟨S1650000, .i32⟩
  | 99 => ⟨S1650000, .i32⟩
  | 100 => ⟨S1650000x1, .i32⟩
  | 101 => ⟨S1, .i32⟩
  | 102 => ⟨S_, .i32⟩
  | 103 => ⟨S1650000x1, .i32⟩
  | 104 => ⟨S1650000x1, .i1⟩
  | 105 => ⟨S1x1, .i32⟩
  | 106 => ⟨S1650000x1, .i32⟩
  | 107 => ⟨S1650000x1, .i1⟩
  | 108 => ⟨S1650000x1, .i1⟩
  | 109 => ⟨S_, .i1⟩
  | 110 => ⟨S1650000, .i1⟩
  | 111 => ⟨S1650000x32, .f32⟩
  | 112 => ⟨S1650000x32, .i1⟩
  | 113 => ⟨S_, .f32⟩
  | 114 => ⟨S1650000x32, .f32⟩
  | 115 => ⟨S1650000x32, .f32⟩
  | 116 => ⟨S1650000x1, .f32⟩
  | 117 => ⟨S1650000x32, .f32⟩
  | 118 => ⟨S1650000x32, .f32⟩
  | 119 => ⟨S_, .f32⟩
  | 120 => ⟨S50000x32, .f32⟩
  | 121 => ⟨S_, .i32⟩
  | 122 => ⟨S1650000, .i32⟩
  | 123 => ⟨S1650000, .i1⟩
  | 124 => ⟨S_, .i32⟩
  | 125 => ⟨S1650000, .i32⟩
  | 126 => ⟨S1650000, .i32⟩
  | 127 => ⟨S1650000, .i32⟩
  | _ => ⟨S50000x128, .f32⟩

abbrev hbmTy0_1 (i : Nat) : BufTy := match i % 128 with
  | 0 => ⟨S1650000x1, .i32⟩
  | 1 => ⟨S50000x32, .f32⟩
  | 2 => ⟨S1x32, .f32⟩
  | 3 => ⟨S50000x32, .f32⟩
  | 4 => ⟨S_, .i32⟩
  | 5 => ⟨S200000, .i32⟩
  | 6 => ⟨S200000, .i1⟩
  | 7 => ⟨S_, .i32⟩
  | 8 => ⟨S200000, .i32⟩
  | 9 => ⟨S200000, .i32⟩
  | 10 => ⟨S200000, .i32⟩
  | 11 => ⟨S200000x1, .i32⟩
  | 12 => ⟨S1, .i32⟩
  | 13 => ⟨S_, .i32⟩
  | 14 => ⟨S200000x1, .i32⟩
  | 15 => ⟨S200000x1, .i1⟩
  | 16 => ⟨S1x1, .i32⟩
  | 17 => ⟨S200000x1, .i32⟩
  | 18 => ⟨S200000x1, .i1⟩
  | 19 => ⟨S200000x1, .i1⟩
  | 20 => ⟨S_, .i1⟩
  | 21 => ⟨S200000, .i1⟩
  | 22 => ⟨S200000x32, .f32⟩
  | 23 => ⟨S200000x32, .i1⟩
  | 24 => ⟨S_, .f32⟩
  | 25 => ⟨S200000x32, .f32⟩
  | 26 => ⟨S200000x32, .f32⟩
  | 27 => ⟨S_, .f32⟩
  | 28 => ⟨S5000x32, .f32⟩
  | 29 => ⟨S_, .i32⟩
  | 30 => ⟨S200000, .i32⟩
  | 31 => ⟨S200000, .i1⟩
  | 32 => ⟨S_, .i32⟩
  | 33 => ⟨S200000, .i32⟩
  | 34 => ⟨S200000, .i32⟩
  | 35 => ⟨S200000, .i32⟩
  | 36 => ⟨S200000x1, .i32⟩
  | 37 => ⟨S5000x32, .f32⟩
  | 38 => ⟨S_, .f32⟩
  | 39 => ⟨S5000, .f32⟩
  | 40 => ⟨S_, .i32⟩
  | 41 => ⟨S200000, .i32⟩
  | 42 => ⟨S200000, .i1⟩
  | 43 => ⟨S_, .i32⟩
  | 44 => ⟨S200000, .i32⟩
  | 45 => ⟨S200000, .i32⟩
  | 46 => ⟨S200000, .i32⟩
  | 47 => ⟨S200000x1, .i32⟩
  | 48 => ⟨S_, .f32⟩
  | 49 => ⟨S200000, .f32⟩
  | 50 => ⟨S5000, .f32⟩
  | 51 => ⟨S_, .f32⟩
  | 52 => ⟨S5000, .f32⟩
  | 53 => ⟨S5000, .f32⟩
  | 54 => ⟨S5000x1, .f32⟩
  | 55 => ⟨S5000x32, .f32⟩
  | 56 => ⟨S5000x32, .f32⟩
  | 57 => ⟨S1x64, .f32⟩
  | 58 => ⟨S5000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S1000x32, .f32⟩
  | .local _ .vmem, ⟨21, _⟩ => ⟨S1000x32, .f32⟩
  | .local _ .vmem, ⟨22, _⟩ => ⟨S1000x128, .f32⟩
  | .local _ .vmem, ⟨23, _⟩ => ⟨S1000x128, .f32⟩
  | .local _ .vmem, ⟨24, _⟩ => ⟨S32x64, .f32⟩
  | .local _ .vmem, ⟨25, _⟩ => ⟨S1x64, .f32⟩
  | .local _ .vmem, ⟨26, _⟩ => ⟨S128x64, .f32⟩
  | .local _ .vmem, ⟨27, _⟩ => ⟨S1000x64, .f32⟩
  | .local _ .vmem, ⟨28, _⟩ => ⟨S1000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_c : Ref sig .tc := ⟨.hbm, 53, rfl⟩
abbrev main_call0_v0 : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_c_1 : Ref sig .tc := ⟨.hbm, 61, rfl⟩
abbrev main_call0_c_2 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_3 : Ref sig .tc := ⟨.hbm, 69, rfl⟩
abbrev main_call0_v12 : Ref sig .tc := ⟨.hbm, 70, rfl⟩
abbrev main_call0_v13 : Ref sig .tc := ⟨.hbm, 71, rfl⟩
abbrev main_call0_v14 : Ref sig .tc := ⟨.hbm, 72, rfl⟩
abbrev main_call0_cst : Ref sig .tc := ⟨.hbm, 73, rfl⟩
abbrev main_call0_v15 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_6 : Ref sig .tc := ⟨.hbm, 79, rfl⟩
abbrev main_v37 : Ref sig .tc := ⟨.hbm, 80, rfl⟩
abbrev main_c_7 : Ref sig .tc := ⟨.hbm, 81, rfl⟩
abbrev main_v38 : Ref sig .tc := ⟨.hbm, 82, rfl⟩
abbrev main_v39 : Ref sig .tc := ⟨.hbm, 83, rfl⟩
abbrev main_c_8 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_call1_c : Ref sig .tc := ⟨.hbm, 93, rfl⟩
abbrev main_call1_v0 : Ref sig .tc := ⟨.hbm, 94, rfl⟩
abbrev main_call1_v1 : Ref sig .tc := ⟨.hbm, 95, rfl⟩
abbrev main_call1_c_0 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_c_1 : Ref sig .tc := ⟨.hbm, 101, rfl⟩
abbrev main_call1_c_2 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_c_3 : Ref sig .tc := ⟨.hbm, 109, rfl⟩
abbrev main_call1_v12 : Ref sig .tc := ⟨.hbm, 110, rfl⟩
abbrev main_call1_v13 : Ref sig .tc := ⟨.hbm, 111, rfl⟩
abbrev main_call1_v14 : Ref sig .tc := ⟨.hbm, 112, rfl⟩
abbrev main_call1_cst : Ref sig .tc := ⟨.hbm, 113, rfl⟩
abbrev main_call1_v15 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_cst_9 : Ref sig .tc := ⟨.hbm, 119, rfl⟩
abbrev main_v52 : Ref sig .tc := ⟨.hbm, 120, rfl⟩
abbrev main_c_10 : Ref sig .tc := ⟨.hbm, 121, rfl⟩
abbrev main_v53 : Ref sig .tc := ⟨.hbm, 122, rfl⟩
abbrev main_v54 : Ref sig .tc := ⟨.hbm, 123, rfl⟩
abbrev main_c_11 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_call2_c : Ref sig .tc := ⟨.hbm, 132, rfl⟩
abbrev main_call2_v0 : Ref sig .tc := ⟨.hbm, 133, rfl⟩
abbrev main_call2_v1 : Ref sig .tc := ⟨.hbm, 134, rfl⟩
abbrev main_call2_c_0 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_v5 : Ref sig .tc := ⟨.hbm, 139, rfl⟩
abbrev main_call2_c_1 : Ref sig .tc := ⟨.hbm, 140, rfl⟩
abbrev main_call2_c_2 : Ref sig .tc := ⟨.hbm, 141, rfl⟩
abbrev main_call2_v6 : Ref sig .tc := ⟨.hbm, 142, rfl⟩
abbrev main_call2_v7 : Ref sig .tc := ⟨.hbm, 143, rfl⟩
abbrev main_call2_v8 : Ref sig .tc := ⟨.hbm, 144, rfl⟩
abbrev main_call2_v9 : Ref sig .tc := ⟨.hbm, 145, rfl⟩
abbrev main_call2_v10 : Ref sig .tc := ⟨.hbm, 146, rfl⟩
abbrev main_call2_v11 : Ref sig .tc := ⟨.hbm, 147, rfl⟩
abbrev main_call2_c_3 : Ref sig .tc := ⟨.hbm, 148, rfl⟩
abbrev main_call2_v12 : Ref sig .tc := ⟨.hbm, 149, rfl⟩
abbrev main_call2_v13 : Ref sig .tc := ⟨.hbm, 150, rfl⟩
abbrev main_call2_v14 : Ref sig .tc := ⟨.hbm, 151, rfl⟩
abbrev main_call2_cst : Ref sig .tc := ⟨.hbm, 152, rfl⟩
abbrev main_call2_v15 : Ref sig .tc := ⟨.hbm, 153, rfl⟩
abbrev main_v62 : Ref sig .tc := ⟨.hbm, 154, rfl⟩
abbrev main_cst_12 : Ref sig .tc := ⟨.hbm, 155, rfl⟩
abbrev main_v63 : Ref sig .tc := ⟨.hbm, 156, rfl⟩
abbrev main_c_13 : Ref sig .tc := ⟨.hbm, 157, rfl⟩
abbrev main_v64 : Ref sig .tc := ⟨.hbm, 158, rfl⟩
abbrev main_v65 : Ref sig .tc := ⟨.hbm, 159, rfl⟩
abbrev main_c_14 : Ref sig .tc := ⟨.hbm, 160, rfl⟩
abbrev main_v66 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_cst_15 : Ref sig .tc := ⟨.hbm, 166, rfl⟩
abbrev main_v71 : Ref sig .tc := ⟨.hbm, 167, rfl⟩
abbrev main_c_16 : Ref sig .tc := ⟨.hbm, 168, rfl⟩
abbrev main_v72 : Ref sig .tc := ⟨.hbm, 169, rfl⟩
abbrev main_v73 : Ref sig .tc := ⟨.hbm, 170, rfl⟩
abbrev main_c_17 : Ref sig .tc := ⟨.hbm, 171, rfl⟩
abbrev main_v74 : Ref sig .tc := ⟨.hbm, 172, rfl⟩
abbrev main_v75 : Ref sig .tc := ⟨.hbm, 173, rfl⟩
abbrev main_v76 : Ref sig .tc := ⟨.hbm, 174, rfl⟩
abbrev main_v77 : Ref sig .tc := ⟨.hbm, 175, rfl⟩
abbrev main_cst_18 : Ref sig .tc := ⟨.hbm, 176, rfl⟩
abbrev main_v78 : Ref sig .tc := ⟨.hbm, 177, rfl⟩
abbrev main_v79 : Ref sig .tc := ⟨.hbm, 178, rfl⟩
abbrev main_cst_19 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc4_stg5_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem5_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S_S1650000 : S_.BroadcastsInDim S1650000 (![] : Fin 0 → Fin S1650000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1650000x1 : S_.BroadcastsInDim S1650000x1 (![] : Fin 0 → Fin S1650000x1.rank)
  bcast_S1_S1x1_1 : S1.BroadcastsInDim S1x1 (![1] : Fin 1 → Fin S1x1.rank)
  bcast_S1x1_S1650000x1_0_1 : S1x1.BroadcastsInDim S1650000x1 (![0, 1] : Fin 2 → Fin S1650000x1.rank)
  reducesTo_S1650000x1_S1650000_d1 : S1650000x1.ReducesTo [1] S1650000
  h_S_ : 0 < S_.numel
  bcast_S1650000_S1650000x64_0 : S1650000.BroadcastsInDim S1650000x64 (![0] : Fin 1 → Fin S1650000x64.rank)
  bcast_S_S1650000x64 : S_.BroadcastsInDim S1650000x64 (![] : Fin 0 → Fin S1650000x64.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1650000_S1650000x32_0 : S1650000.BroadcastsInDim S1650000x32 (![0] : Fin 1 → Fin S1650000x32.rank)
  bcast_S_S1650000x32 : S_.BroadcastsInDim S1650000x32 (![] : Fin 0 → Fin S1650000x32.rank)
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x32_0 : S200000.BroadcastsInDim S200000x32 (![0] : Fin 1 → Fin S200000x32.rank)
  bcast_S_S200000x32 : S_.BroadcastsInDim S200000x32 (![] : Fin 0 → Fin S200000x32.rank)
  bcast_S_S5000x32 : S_.BroadcastsInDim S5000x32 (![] : Fin 0 → Fin S5000x32.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x32_0_1 : S5000x1.BroadcastsInDim S5000x32 (![0, 1] : Fin 2 → Fin S5000x32.rank)
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  inb_S32x64_S32x64_0_0 : ∀ a, (![0, 0] : Fin 2 → Nat) a + S32x64.size a ≤ S32x64.size a
  h_S32x64 : 0 < S32x64.numel
  inb_S1000x128_S1000x128_0_0 : ∀ a, (![0, 0] : Fin 2 → Nat) a + S1000x128.size a ≤ S1000x128.size a
  h_S1000x128 : 0 < S1000x128.numel
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x32_S5000x32_1_0_0_1_n_n_wf : DotDims.WF S5000x64 S64x32 S5000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  gather_S50000x32_S200000x1_S200000x32_1_0_n_n_0_1_132_wf : GatherDims.WF S50000x32 S200000x1 S200000x32 [1] [0] [] [0] [] 1 ![1, 32]
  scatter_S5000x32_S200000x1_S200000x32_1_0_0_1_wf : ScatterDims.WF S5000x32 S200000x1 S200000x32 [1] [0] [0] 1
  scatter_S5000_S200000x1_S200000_n_0_0_1_wf : ScatterDims.WF S5000 S200000x1 S200000 [] [0] [0] 1
  dot_S1000x32_S32x64_S1000x64_1_0_0_1_n_n_wf : DotDims.WF S1000x32 S32x64 S1000x64 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S50000x32.size a
  hwx3_0 : ∀ i : grid3.Coords, EltTy.bits .f32 = 32 ∨ (Rect.block (s := S50000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S50000x32.size a
  hwx3_2 : ∀ i : grid3.Coords, EltTy.bits .f32 = 32 ∨ (Rect.block (s := S50000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x32.size a ≤ S5000x32.size a
  hwx4_0 : ∀ i : grid4.Coords, EltTy.bits .f32 = 32 ∨ (Rect.block (s := S5000x32) S1000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x128.size a ≤ S5000x128.size a
  hwx4_1 : ∀ i : grid4.Coords, EltTy.bits .f32 = 32 ∨ (Rect.block (s := S5000x128) S1000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x64.size a ≤ S32x64.size a
  hwx4_2 : ∀ i : grid4.Coords, EltTy.bits .f32 = 32 ∨ (Rect.block (s := S32x64) S32x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x64.size a ≤ S128x64.size a
  hwx4_4 : ∀ i : grid4.Coords, EltTy.bits .f32 = 32 ∨ (Rect.block (s := S128x64) S128x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x64.size a ≤ S5000x64.size a
  hwx4_5 : ∀ i : grid4.Coords, EltTy.bits .f32 = 32 ∨ (Rect.block (s := S5000x64) S1000x64.size (cc4_transform_5 i) (hinb4_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def gather_S50000x32_S200000x1_S200000x32_1_0_n_n_0_1_132 : GatherDims S50000x32 S200000x1 S200000x32 where
  offsetDims := [1]
  collapsedSliceDims := [0]
  operandBatchingDims := []
  startIndicesBatchingDims := []
  startIndexMap := [0]
  indexVectorDim := 1
  sliceSizes := ![1, 32]
  wf := gather_S50000x32_S200000x1_S200000x32_1_0_n_n_0_1_132_wf
def scatter_S5000x32_S200000x1_S200000x32_1_0_0_1 : ScatterDims S5000x32 S200000x1 S200000x32 where
  updateWindowDims := [1]
  insertedWindowDims := [0]
  scatterDimsToOperandDims := [0]
  indexVectorDim := 1
  wf := scatter_S5000x32_S200000x1_S200000x32_1_0_0_1_wf
def scatter_S5000_S200000x1_S200000_n_0_0_1 : ScatterDims S5000 S200000x1 S200000 where
  updateWindowDims := []
  insertedWindowDims := [0]
  scatterDimsToOperandDims := [0]
  indexVectorDim := 1
  wf := scatter_S5000_S200000x1_S200000_n_0_0_1_wf
def dot_S1000x32_S32x64_S1000x64_1_0_0_1_n_n : DotDims S1000x32 S32x64 S1000x64 where
  lhsContracting := [1]
  rhsContracting := [0]
  lhsNonContracting := [0]
  rhsNonContracting := [1]
  lhsBatch := []
  rhsBatch := []
  wf := dot_S1000x32_S32x64_S1000x64_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v84) S1000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S1000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S32x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S128x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v86) S1000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S5000x128 : Shape := ⟨2, ![5000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S2x1600000 : Shape := ⟨2, ![2, 1600000]⟩
abbrev S200000 : Shape := ⟨1, ![200000]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1650000x64 : Shape := ⟨2, ![1650000, 64]⟩
abbrev S1x64 : Shape := ⟨2, ![1, 64]⟩
abbrev S50000x32 : Shape := ⟨2, ![50000, 32]⟩
abbrev S1650000x32 : Shape := ⟨2, ![1650000, 32]⟩
abbrev S1x32 : Shape := ⟨2, ![1, 32]⟩
abbrev S200000x1 : Shape := ⟨2, ![200000, 1]⟩
abbrev S200000x32 : Shape := ⟨2, ![200000, 32]⟩
abbrev S5000x32 : Shape := ⟨2, ![5000, 32]⟩
abbrev S5000 : Shape := ⟨1, ![5000]⟩
abbrev S5000x1 : Shape := ⟨2, ![5000, 1]⟩
abbrev S5000x64 : Shape := ⟨2, ![5000, 64]⟩

abbrev nBuf : Space → Nat
  | .hbm => 180
  | .vmem => 0
  | .smem => 0
  | _ => 0

abbrev hbmTy0_0 (i : Nat) : BufTy := match i % 128 with
  | 0 => ⟨S50000x128, .f32⟩
  | 1 => ⟨S5000x128, .f32⟩
  | 2 => ⟨S128x64, .f32⟩
  | 3 => ⟨S64, .f32⟩
  | 4 => ⟨S64x32, .f32⟩
  | 5 => ⟨S32, .f32⟩
  | 6 => ⟨S32x64, .f32⟩
  | 7 => ⟨S64, .f32⟩
  | 8 => ⟨S128x64, .f32⟩
  | 9 => ⟨S2x1600000, .i32⟩
  | 10 => ⟨S200000, .i32⟩
  | 11 => ⟨S200000, .i32⟩
  | 12 => ⟨S50000, .i32⟩
  | 13 => ⟨S1x1600000, .i32⟩
  | 14 => ⟨S1600000, .i32⟩
  | 15 => ⟨S1650000, .i32⟩
  | 16 => ⟨S1x1600000, .i32⟩
  | 17 => ⟨S1600000, .i32⟩
  | 18 => ⟨S1650000, .i32⟩
  | 19 => ⟨S_, .f32⟩
  | 20 => ⟨S50000, .f32⟩
  | 21 => ⟨S_, .i32⟩
  | 22 => ⟨S1650000, .i32⟩
  | 23 => ⟨S1650000, .i1⟩
  | 24 => ⟨S_, .i32⟩
  | 25 => ⟨S1650000, .i32⟩
  | 26 => ⟨S1650000, .i32⟩
  | 27 => ⟨S1650000, .i32⟩
  | 28 => ⟨S1650000x1, .i32⟩
  | 29 => ⟨S_, .f32⟩
  | 30 => ⟨S1650000, .f32⟩
  | 31 => ⟨S50000, .f32⟩
  | 32 => ⟨S50000, .f32⟩
  | 33 => ⟨S_, .i32⟩
  | 34 => ⟨S1650000, .i32⟩
  | 35 => ⟨S1650000, .i1⟩
  | 36 => ⟨S_, .i32⟩
  | 37 => ⟨S1650000, .i32⟩
  | 38 => ⟨S1650000, .i32⟩
  | 39 => ⟨S1650000, .i32⟩
  | 40 => ⟨S1650000x1, .i32⟩
  | 41 => ⟨S1650000, .f32⟩
  | 42 => ⟨S_, .i32⟩
  | 43 => ⟨S1650000, .i32⟩
  | 44 => ⟨S1650000, .i1⟩
  | 45 => ⟨S_, .i32⟩
  | 46 => ⟨S1650000, .i32⟩
  | 47 => ⟨S1650000, .i32⟩
  | 48 => ⟨S1650000, .i32⟩
  | 49 => ⟨S1650000x1, .i32⟩
  | 50 => ⟨S1650000, .f32⟩
  | 51 => ⟨S1650000, .f32⟩
  | 52 => ⟨S50000x64, .f32⟩
  | 53 => ⟨S_, .f32⟩
  | 54 => ⟨S50000x64, .f32⟩
  | 55 => ⟨S1650000x1, .f32⟩
  | 56 => ⟨S_, .i32⟩
  | 57 => ⟨S1650000, .i32⟩
  | 58 => ⟨S1650000, .i1⟩
  | 59 => ⟨S_, .i32⟩
  | 60 => ⟨S1650000, .i32⟩
  | 61 => ⟨S1650000, .i32⟩
  | 62 => ⟨S1650000, .i32⟩
  | 63 => ⟨S1650000x1, .i32⟩
  | 64 => ⟨S1650000x64, .f32⟩
  | 65 => ⟨S1650000x64, .f32⟩
  | 66 => ⟨S1650000x64, .f32⟩
  | 67 => ⟨S_, .i32⟩
  | 68 => ⟨S1650000, .i32⟩
  | 69 => ⟨S1650000, .i1⟩
  | 70 => ⟨S_, .i32⟩
  | 71 => ⟨S1650000, .i32⟩
  | 72 => ⟨S1650000, .i32⟩
  | 73 => ⟨S1650000, .i32⟩
  | 74 => ⟨S1650000x1, .i32⟩
  | 75 => ⟨S50000x64, .f32⟩
  | 76 => ⟨S1x64, .f32⟩
  | 77 => ⟨S50000x64, .f32⟩
  | 78 => ⟨S50000x64, .f32⟩
  | 79 => ⟨S_, .f32⟩
  | 80 => ⟨S50000x64, .f32⟩
  | 81 => ⟨S50000x64, .f32⟩
  | 82 => ⟨S50000, .i32⟩
  | 83 => ⟨S1x1600000, .i32⟩
  | 84 => ⟨S1600000, .i32⟩
  | 85 => ⟨S1650000, .i32⟩
  | 86 => ⟨S1x1600000, .i32⟩
  | 87 => ⟨S1600000, .i32⟩
  | 88 => ⟨S1650000, .i32⟩
  | 89 => ⟨S_, .f32⟩
  | 90 => ⟨S50000, .f32⟩
  | 91 => ⟨S_, .i32⟩
  | 92 => ⟨S1650000, .i32⟩
  | 93 => ⟨S1650000, .i1⟩
  | 94 => ⟨S_, .i32⟩
  | 95 => ⟨S1650000, .i32⟩
  | 96 => ⟨S1650000, .i32⟩
  | 97 => ⟨S1650000, .i32⟩
  | 98 => ⟨S1650000x1, .i32⟩
  | 99 => ⟨S_, .f32⟩
  | 100 => ⟨S1650000, .f32⟩
  | 101 => ⟨S50000, .f32⟩
  | 102 => ⟨S50000, .f32⟩
  | 103 => ⟨S_, .i32⟩
  | 104 => ⟨S1650000, .i32⟩
  | 105 => ⟨S1650000, .i1⟩
  | 106 => ⟨S_, .i32⟩
  | 107 => ⟨S1650000, .i32⟩
  | 108 => ⟨S1650000, .i32⟩
  | 109 => ⟨S1650000, .i32⟩
  | 110 => ⟨S1650000x1, .i32⟩
  | 111 => ⟨S1650000, .f32⟩
  | 112 => ⟨S_, .i32⟩
  | 113 => ⟨S1650000, .i32⟩
  | 114 => ⟨S1650000, .i1⟩
  | 115 => ⟨S_, .i32⟩
  | 116 => ⟨S1650000, .i32⟩
  | 117 => ⟨S1650000, .i32⟩
  | 118 => ⟨S1650000, .i32⟩
  | 119 => ⟨S1650000x1, .i32⟩
  | 120 => ⟨S1650000, .f32⟩
  | 121 => ⟨S1650000, .f32⟩
  | 122 => ⟨S50000x32, .f32⟩
  | 123 => ⟨S_, .f32⟩
  | 124 => ⟨S50000x32, .f32⟩
  | 125 => ⟨S1650000x1, .f32⟩
  | 126 => ⟨S_, .i32⟩
  | 127 => ⟨S1650000, .i32⟩
  | _ => ⟨S50000x128, .f32⟩

abbrev hbmTy0_1 (i : Nat) : BufTy := match i % 128 with
  | 0 => ⟨S1650000, .i1⟩
  | 1 => ⟨S_, .i32⟩
  | 2 => ⟨S1650000, .i32⟩
  | 3 => ⟨S1650000, .i32⟩
  | 4 => ⟨S1650000, .i32⟩
  | 5 => ⟨S1650000x1, .i32⟩
  | 6 => ⟨S1650000x32, .f32⟩
  | 7 => ⟨S1650000x32, .f32⟩
  | 8 => ⟨S1650000x32, .f32⟩
  | 9 => ⟨S_, .i32⟩
  | 10 => ⟨S1650000, .i32⟩
  | 11 => ⟨S1650000, .i1⟩
  | 12 => ⟨S_, .i32⟩
  | 13 => ⟨S1650000, .i32⟩
  | 14 => ⟨S1650000, .i32⟩
  | 15 => ⟨S1650000, .i32⟩
  | 16 => ⟨S1650000x1, .i32⟩
  | 17 => ⟨S50000x32, .f32⟩
  | 18 => ⟨S1x32, .f32⟩
  | 19 => ⟨S50000x32, .f32⟩
  | 20 => ⟨S50000x32, .f32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S200000x32, .f32⟩
  | 30 => ⟨S_, .f32⟩
  | 31 => ⟨S5000x32, .f32⟩
  | 32 => ⟨S200000x1, .i32⟩
  | 33 => ⟨S5000x32, .f32⟩
  | 34 => ⟨S_, .f32⟩
  | 35 => ⟨S200000, .f32⟩
  | 36 => ⟨S_, .f32⟩
  | 37 => ⟨S5000, .f32⟩
  | 38 => ⟨S200000x1, .i32⟩
  | 39 => ⟨S5000, .f32⟩
  | 40 => ⟨S_, .f32⟩
  | 41 => ⟨S5000, .f32⟩
  | 42 => ⟨S5000, .f32⟩
  | 43 => ⟨S5000x1, .f32⟩
  | 44 => ⟨S5000x32, .f32⟩
  | 45 => ⟨S5000x32, .f32⟩
  | 46 => ⟨S5000x64, .f32⟩
  | 47 => ⟨S1x64, .f32⟩
  | 48 => ⟨S5000x64, .f32⟩
  | 49 => ⟨S5000x64, .f32⟩
  | 50 => ⟨S5000x64, .f32⟩
  | 51 => ⟨S5000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call0_cst : Ref sig .tc := ⟨.hbm, 79, rfl⟩
abbrev main_call0_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_15 : Ref sig .tc := ⟨.hbm, 103, rfl⟩
abbrev main_v72 : Ref sig .tc := ⟨.hbm, 104, rfl⟩
abbrev main_v73 : Ref sig .tc := ⟨.hbm, 105, rfl⟩
abbrev main_c_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_19 : Ref sig .tc := ⟨.hbm, 123, rfl⟩
abbrev main_v88 : Ref sig .tc := ⟨.hbm, 124, rfl⟩
abbrev main_v89 : Ref sig .tc := ⟨.hbm, 125, rfl⟩
abbrev main_c_20 : Ref sig .tc := ⟨.hbm, 126, rfl⟩
abbrev main_v90 : Ref sig .tc := ⟨.hbm, 127, rfl⟩
abbrev main_v91 : Ref sig .tc := ⟨.hbm, 128, rfl⟩
abbrev main_c_21 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_22 : Ref sig .tc := ⟨.hbm, 137, rfl⟩
abbrev main_v99 : Ref sig .tc := ⟨.hbm, 138, rfl⟩
abbrev main_v100 : Ref sig .tc := ⟨.hbm, 139, rfl⟩
abbrev main_c_23 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_24 : Ref sig .tc := ⟨.hbm, 149, rfl⟩
abbrev main_v109 : Ref sig .tc := ⟨.hbm, 150, rfl⟩
abbrev main_v110 : Ref sig .tc := ⟨.hbm, 151, rfl⟩
abbrev main_c_25 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_26 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_27 : Ref sig .tc := ⟨.hbm, 162, rfl⟩
abbrev main_v119 : Ref sig .tc := ⟨.hbm, 163, rfl⟩
abbrev main_cst_28 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_29 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S_S1650000 : S_.BroadcastsInDim S1650000 (![] : Fin 0 → Fin S1650000.rank)
  bcast_S1650000_S1650000x1_0 : S1650000.BroadcastsInDim S1650000x1 (![0] : Fin 1 → Fin S1650000x1.rank)
  bcast_S_S50000x64 : S_.BroadcastsInDim S50000x64 (![] : Fin 0 → Fin S50000x64.rank)
  bcast_S1650000x1_S1650000x64_0_1 : S1650000x1.BroadcastsInDim S1650000x64 (![0, 1] : Fin 2 → Fin S1650000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x32 : S_.BroadcastsInDim S50000x32 (![] : Fin 0 → Fin S50000x32.rank)
  bcast_S1650000x1_S1650000x32_0_1 : S1650000x1.BroadcastsInDim S1650000x32 (![0, 1] : Fin 2 → Fin S1650000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S5000x32 : S_.BroadcastsInDim S5000x32 (![] : Fin 0 → Fin S5000x32.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x32_0_1 : S5000x1.BroadcastsInDim S5000x32 (![0, 1] : Fin 2 → Fin S5000x32.rank)
  bcast_S1x64_S5000x64_0_1 : S1x64.BroadcastsInDim S5000x64 (![0, 1] : Fin 2 → Fin S5000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x32_S50000x32_1_0_0_1_n_n_wf : DotDims.WF S50000x64 S64x32 S50000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  gather_S50000x32_S200000x1_S200000x32_1_0_n_n_0_1_132_wf : GatherDims.WF S50000x32 S200000x1 S200000x32 [1] [0] [] [0] [] 1 ![1, 32]
  scatter_S5000x32_S200000x1_S200000x32_1_0_0_1_wf : ScatterDims.WF S5000x32 S200000x1 S200000x32 [1] [0] [0] 1
  scatter_S5000_S200000x1_S200000_n_0_0_1_wf : ScatterDims.WF S5000 S200000x1 S200000 [] [0] [0] 1
  dot_S5000x32_S32x64_S5000x64_1_0_0_1_n_n_wf : DotDims.WF S5000x32 S32x64 S5000x64 [1] [0] [0] [1] [] []
  dot_S5000x128_S128x64_S5000x64_1_0_0_1_n_n_wf : DotDims.WF S5000x128 S128x64 S5000x64 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def gather_S50000x32_S200000x1_S200000x32_1_0_n_n_0_1_132 : GatherDims S50000x32 S200000x1 S200000x32 where
  offsetDims := [1]
  collapsedSliceDims := [0]
  operandBatchingDims := []
  startIndicesBatchingDims := []
  startIndexMap := [0]
  indexVectorDim := 1
  sliceSizes := ![1, 32]
  wf := gather_S50000x32_S200000x1_S200000x32_1_0_n_n_0_1_132_wf
def scatter_S5000x32_S200000x1_S200000x32_1_0_0_1 : ScatterDims S5000x32 S200000x1 S200000x32 where
  updateWindowDims := [1]
  insertedWindowDims := [0]
  scatterDimsToOperandDims := [0]
  indexVectorDim := 1
  wf := scatter_S5000x32_S200000x1_S200000x32_1_0_0_1_wf
def scatter_S5000_S200000x1_S200000_n_0_0_1 : ScatterDims S5000 S200000x1 S200000 where
  updateWindowDims := []
  insertedWindowDims := [0]
  scatterDimsToOperandDims := [0]
  indexVectorDim := 1
  wf := scatter_S5000_S200000x1_S200000_n_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

class Facts : Prop extends Facts₀ where

variable [Facts]
-- ==== Proof.Spec.lean ====
/-
  The pointwise mathematics of the five dense stages of the two-layer graph convolution with a bipartite mean
  aggregation, over the extended reals, and the index-range predicates of its integer inputs. No program is
  imported here: these are the functions both programs are shown to compute, index by index.

  * `matProd x w`      : the matrix product, entry (p, q) the sum over k of x(p, k) · w(k, q);
  * `addRow a b`       : a row vector b (kept as a 1 × n array) added to every row of a;
  * `addRowRelu a b`   : the same followed by the positive part, max(·, 0);
  * `combine μ xd wl bl wr` : (μ · wl + bl) + xd · wr, the bipartite layer's two linear maps and its bias, in
    that association.
  * `WithinWrap n a`   : every entry of the integer array a is a valid numpy index into an axis of extent n,
    that is −n ≤ a i < n as a signed number;
  * `NonNeg a`         : every entry is non-negative as a signed number.
-/
import Idealize.ShloMosaic.PureOps.Ideal
import Idealize.ShloMosaic.Lib.ValueIdx

noncomputable section

namespace Cert.Spec

open Idealize.ShloMosaic Idealize.ShloMosaic.ValueIdx

/-- The matrix product of an M × K and a K × N array of extended reals. -/
def matProd {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A 1 × N row added to every row of an M × N array. -/
def addRow {M N : Nat} (a : (⟨2, ![M, N]⟩ : Shape).Idx → EReal) (b : (⟨2, ![1, N]⟩ : Shape).Idx → EReal) :
    (⟨2, ![M, N]⟩ : Shape).Idx → EReal :=
  fun i => a i + b (ix2 0 (i 1))

/-- A 1 × N row added to every row, then the positive part. -/
def addRowRelu {M N : Nat} (a : (⟨2, ![M, N]⟩ : Shape).Idx → EReal) (b : (⟨2, ![1, N]⟩ : Shape).Idx → EReal) :
    (⟨2, ![M, N]⟩ : Shape).Idx → EReal :=
  fun i => max (a i + b (ix2 0 (i 1))) 0

/-- The bipartite layer: (μ · wl + bl) + xd · wr. -/
def combine {M K₁ K₂ N : Nat} (μ : (⟨2, ![M, K₁]⟩ : Shape).Idx → EReal) (xd : (⟨2, ![M, K₂]⟩ : Shape).Idx → EReal)
    (wl : (⟨2, ![K₁, N]⟩ : Shape).Idx → EReal) (bl : (⟨2, ![1, N]⟩ : Shape).Idx → EReal)
    (wr : (⟨2, ![K₂, N]⟩ : Shape).Idx → EReal) : (⟨2, ![M, N]⟩ : Shape).Idx → EReal :=
  fun i => (∑ k : Fin K₁, μ (ix2 (i 0) k) * wl (ix2 k (i 1))) + bl (ix2 0 (i 1))
    + ∑ k : Fin K₂, xd (ix2 (i 0) k) * wr (ix2 k (i 1))

/-- Every entry is a valid numpy index into an axis of extent `n`: −n ≤ a i < n, read signed. -/
def WithinWrap {s : Shape} (n : Nat) (a : s.Idx → BitVec 32) : Prop :=
  ∀ i, -(n : Int) ≤ (a i).toInt ∧ (a i).toInt < (n : Int)

/-- Every entry is non-negative, read signed. -/
def NonNeg {s : Shape} (a : s.Idx → BitVec 32) : Prop :=
  ∀ i, 0 ≤ (a i).toInt

end Cert.Spec

end
-- ==== Proof.IndexFacts.lean ====
/-
  Index-range facts of the integer inputs, read out of the precondition, and the word arithmetic of numpy's
  index wrap.

  The precondition's last three conjuncts say, entry by entry and signed: the first row of the edge list lies in
  [−50000, 50000), so does `pd_src`, and `pd_dst` is non-negative. Both programs wrap an index `v` into an axis of
  extent 50000 as `if v < 0 then v + 50000 else v`: for `v` in [−50000, 50000) the wrapped word lies in [0, 49999]
  (so the clamp and the out-of-range mask that follow are the identity), and for `v ≥ 0` the wrap is the identity.
  The edge list's first row extended by the self loops 0, 1, …, 49999 is again within [−50000, 50000).
-/
import proofs.«415556_j15367392985223_2_alg».proof.Pre_finite_inputs
import proofs.«415556_j15367392985223_2_alg».proof.Proof.Gen.Pre_finite_inputs
import proofs.«415556_j15367392985223_2_alg».proof.Proof.Spec
import Idealize.ShloMosaic.Lib.ReduceAll
import Idealize.ShloMosaic.Lib.Affine
import Idealize.ShloMosaic.Lib.Pipeline.Value
import Idealize.ShloMosaic.Lib.ValueIdx

noncomputable section

namespace Cert.IndexFacts

open Idealize.ShloMosaic Idealize.ShloMosaic.ValueIdx
open Cert.Pre_finite_inputs

attribute [local instance] Cert.Pre_finite_inputs.Gen.facts

/-! ## Words -/

theorem toInt_zero : (0#32 : BitVec 32).toInt = 0 := by decide
theorem toInt_50000 : (50000#32 : BitVec 32).toInt = 50000 := by decide
theorem toInt_49999 : (49999#32 : BitVec 32).toInt = 49999 := by decide
/-- The word printed for −50000 reads −50000 signed. -/
theorem toInt_neg_50000 : (4294917296#32 : BitVec 32).toInt = -50000 := by decide

/-- A negative word no less than −50000 plus 50000 does not overflow. -/
theorem toInt_add_50000 (v : BitVec 32) (h : -(50000 : Int) ≤ v.toInt) (hn : v.toInt < 0) :
    (IntOp.addi v 50000#32).toInt = v.toInt + 50000 := by
  unfold IntOp.addi
  rw [BitVec.toInt_add, toInt_50000, Int.bmod_def]
  split <;> omega

/-- numpy's wrap of an index in [−50000, 50000) lies in [0, 49999]: both range tests that follow it pass. -/
theorem wrapped_in_range (v : BitVec 32) (h : -(50000 : Int) ≤ v.toInt ∧ v.toInt < 50000) :
    IntOp.andi (IntOp.cmpi .sge (Scalar.select (IntOp.cmpi .slt v 0#32) (IntOp.addi v 50000#32) v) 0#32)
               (IntOp.cmpi .sle (Scalar.select (IntOp.cmpi .slt v 0#32) (IntOp.addi v 50000#32) v) 49999#32) = 1#1 := by
  rw [IntOp.andi_eq_one, IntOp.cmpi_sge, IntOp.cmpi_sle, toInt_zero, toInt_49999]
  by_cases hv : v.toInt < 0
  · have hc : IntOp.cmpi .slt v 0#32 = 1#1 := IntOp.cmpi_slt.2 (by rw [toInt_zero]; exact hv)
    rw [hc, select_one, toInt_add_50000 v h.1 hv]
    omega
  · have hc : IntOp.cmpi .slt v 0#32 = 0#1 :=
      eq_zero_of_ne_one fun e => hv (by have := IntOp.cmpi_slt.1 e; rwa [toInt_zero] at this)
    rw [hc, select_zero]
    omega

/-- The wrap of a non-negative index is the index. -/
theorem wrap_of_nonneg (v k : BitVec 32) (h : 0 ≤ v.toInt) :
    Scalar.select (IntOp.cmpi .slt v 0#32) (IntOp.addi v k) v = v := by
  have hc : IntOp.cmpi .slt v 0#32 = 0#1 :=
    eq_zero_of_ne_one fun e => by have := IntOp.cmpi_slt.1 e; rw [toInt_zero] at this; omega
  rw [hc, select_zero]

/-! ## Arrays -/

/-- A select under a mask that is 1 everywhere is its first branch. -/
theorem select_of_all_ones {s : Shape} {α : Type} (mask : IVec s 1) (h : ∀ i, mask i = 1#1) (a b : s.Idx → α) :
    select mask a b = a := by
  funext i
  rw [select_apply, h i, select_one]

/-- The wrap of an array of non-negative indices is the array. -/
theorem wrap_array_of_nonneg {s : Shape} (a z k : IVec s 32) (hz : ∀ i, z i = 0#32) (h : Cert.Spec.NonNeg a) :
    select (cmpi .slt a z) (addi a k) a = a := by
  funext i
  show Scalar.select (IntOp.cmpi .slt (a i) (z i)) (IntOp.addi (a i) (k i)) (a i) = a i
  rw [hz i]
  exact wrap_of_nonneg _ _ (h i)

/-- The first row of the 2 × 1600000 edge list, as a flat array. -/
def firstRow (x9 : IVec S2x1600000 32) : IVec S1600000 32 :=
  shapeCast S1600000 (extractStridedSlice S1x1600000 ![0, 0] x9 Facts.slices_S2x1600000_S1x1600000_0_0)
    Facts.shapeCasts_S1x1600000_S1600000

/-! ## The precondition read back -/

local instance : Subsingleton S_.Idx := ⟨fun a b => funext fun d => d.elim0⟩

/-- `all(lo ≤ a)` that came out 1 gives the bound at every entry. -/
theorem all_sge {s : Shape} {axes : List (Fin s.rank)} (a lo : IVec s 32) (l : BitVec 32) (hlo : ∀ i, lo i = l)
    (init : IVec S_ 1) (hr : s.ReducesTo axes S_) (hu : 0 < S_.numel)
    (e : Host.reduce IntOp.andi (cmpi .sge a lo) init hr hu ix0 = 1#1) (i : s.Idx) : l.toInt ≤ (a i).toInt := by
  have e1 : IntOp.cmpi .sge (a i) (lo i) = 1#1 := Host.reduce_andi_all _ init hr hu ix0 e i
  rw [hlo i] at e1
  exact IntOp.cmpi_sge.1 e1

/-- `all((lo ≤ a) and (a' < hi))` that came out 1 gives both bounds at every entry. -/
theorem all_range {s : Shape} {axes : List (Fin s.rank)} (a a' lo hi : IVec s 32) (l u : BitVec 32)
    (hlo : ∀ i, lo i = l) (hhi : ∀ i, hi i = u) (init : IVec S_ 1) (hr : s.ReducesTo axes S_) (hu : 0 < S_.numel)
    (e : Host.reduce IntOp.andi (andi (cmpi .sge a lo) (cmpi .slt a' hi)) init hr hu ix0 = 1#1) (i : s.Idx) :
    l.toInt ≤ (a i).toInt ∧ (a' i).toInt < u.toInt := by
  have e1 : IntOp.andi (IntOp.cmpi .sge (a i) (lo i)) (IntOp.cmpi .slt (a' i) (hi i)) = 1#1 :=
    Host.reduce_andi_all _ init hr hu ix0 e i
  rw [hlo i, hhi i, IntOp.andi_eq_one] at e1
  exact ⟨IntOp.cmpi_sge.1 e1.1, IntOp.cmpi_slt.1 e1.2⟩

/-- The precondition's three integer conjuncts, entry by entry. -/
theorem of_pre (x0 : FVec Ideal S50000x128 .f32) (x1 : FVec Ideal S5000x128 .f32) (x2 : FVec Ideal S128x64 .f32)
    (x3 : FVec Ideal S64 .f32) (x4 : FVec Ideal S64x32 .f32) (x5 : FVec Ideal S32 .f32) (x6 : FVec Ideal S32x64 .f32)
    (x7 : FVec Ideal S64 .f32) (x8 : FVec Ideal S128x64 .f32) (x9 : IVec S2x1600000 32) (x10 : IVec S200000 32)
    (x11 : IVec S200000 32)
    (h : Cert.Pre_finite_inputs.fn (F := Ideal) x0 x1 x2 x3 x4 x5 x6 x7 x8 x9 x10 x11 = fun _ => 1#1) :
    Cert.Spec.WithinWrap 50000 (firstRow x9) ∧ Cert.Spec.WithinWrap 50000 x10 ∧ Cert.Spec.NonNeg x11 := by
  have e := congrFun h ix0
  dsimp only [fn, fn_part1, fn_part2, fn_part3] at e
  obtain ⟨e1, e64⟩ := IntOp.andi_eq_one.1 e
  obtain ⟨e2, e60⟩ := IntOp.andi_eq_one.1 e1
  obtain ⟨-, e53⟩ := IntOp.andi_eq_one.1 e2
  refine ⟨fun i => ?_, fun i => ?_, fun i => ?_⟩
  · have := all_range _ _ _ _ 4294917296#32 50000#32 (fun _ => rfl) (fun _ => rfl) _ _ _ e53 i
    rw [toInt_neg_50000, toInt_50000] at this
    exact this
  · have := all_range _ _ _ _ 4294917296#32 50000#32 (fun _ => rfl) (fun _ => rfl) _ _ _ e60 i
    rw [toInt_neg_50000, toInt_50000] at this
    exact this
  · have := all_sge _ _ 0#32 (fun _ => rfl) _ _ _ e64 i
    rw [toInt_zero] at this
    exact this

/-! ## The edge list's first row extended by the self loops -/

/-- A natural below 50000 as a 32-bit word reads itself signed. -/
theorem toInt_ofNat_small (n : Nat) (hn : n < 50000) : (BitVec.ofNat 32 n).toInt = (n : Int) := by
  rw [BitVec.toInt_ofNat', Int.bmod_def]
  split <;> omega

/-- The first row followed by 0, 1, …, 49999 is within [−50000, 50000). -/
theorem concat_within (x9 : IVec S2x1600000 32)
    (hc : Shape.Concatenates [S1600000, (⟨1, ![50000]⟩ : Shape)] (⟨1, ![1650000]⟩ : Shape) 0)
    (h : Cert.Spec.WithinWrap 50000 (firstRow x9)) :
    Cert.Spec.WithinWrap 50000
      (concatenate (⟨1, ![1650000]⟩ : Shape) 0
        [⟨S1600000, firstRow x9⟩, ⟨(⟨1, ![50000]⟩ : Shape), iotaInDim (⟨1, ![50000]⟩ : Shape) 32 0⟩] hc) := by
  intro j
  have hlt : (j 0).val < 1650000 := (j 0).isLt
  by_cases hj : (j 0).val < 1600000
  · rw [concatenate_pair_apply_left 0 (firstRow x9) (iotaInDim (⟨1, ![50000]⟩ : Shape) 32 0) hc j rfl
      (ix1 ⟨(j 0).val, hj⟩) (fun b => match b with | ⟨0, _⟩ => rfl)]
    exact h _
  · have hk : (j 0).val - 1600000 < 50000 := by omega
    rw [concatenate_pair_apply_right 0 (firstRow x9) (iotaInDim (⟨1, ![50000]⟩ : Shape) 32 0) hc j rfl rfl
      (ix1 ⟨(j 0).val - 1600000, hk⟩) (fun b hb => absurd (Subsingleton.elim _ _) hb)
      (by show (j 0).val - 1600000 + 1600000 = (j 0).val; omega)]
    show -((50000 : Nat) : Int) ≤ (BitVec.ofNat 32 ((j 0).val - 1600000)).toInt
      ∧ (BitVec.ofNat 32 ((j 0).val - 1600000)).toInt < ((50000 : Nat) : Int)
    rw [toInt_ofNat_small _ hk]
    omega

end Cert.IndexFacts

end
-- ==== Proof.RefRead.lean ====
/-
  The reference program's five dense stages, each read as one of the specification's whole-array functions of the
  arrays it is applied to, and the three stages its second graph convolution computes a second time (the edge list's
  source and destination columns with the self loops appended, and the symmetric edge normalisation), each shown to be
  the first convolution's stage of the same operations.

  * the two feature products and the bipartite layer's two products are sums over the contracted axis;
  * a bias vector b enters as b(q) broadcast along the rows, which is the entry (0, q) of b reshaped to a 1 × n row;
  * the positive part is the maximum with the broadcast zero word, which is the extended real 0.
-/
import proofs.«415556_j15367392985223_2_alg».proof.Proof.Gen.ReferenceIdeal.Read
import proofs.«415556_j15367392985223_2_alg».proof.Proof.Spec
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.Read
open Idealize.ShloMosaic Idealize.ShloMosaic.ValueIdx

/-- A vector of n entries reshaped to a 1 × n row has the vector's entry q at (0, q). -/
theorem row_apply {n : Nat} (b : (⟨1, ![n]⟩ : Shape).Idx → EReal) (hsc : (⟨1, ![n]⟩ : Shape).ShapeCasts ⟨2, ![1, n]⟩)
    (q : Fin n) : shapeCast (⟨2, ![1, n]⟩ : Shape) b hsc (ix2 0 q) = b (ix1 q) := by
  refine shapeCast_apply b hsc (ix2 0 q) (ix1 q) ?_
  rw [Shape.rowMajor_val_two, Shape.rowMajor_val_one]
  show q.val = 0 * n + q.val
  omega

/-- The first layer's feature product: X · W₁. -/
theorem v32_eq (x0 : (⟨S50000x128, .f32⟩ : BufTy).Contents (Elt Ideal)) (x2 : (⟨S128x64, .f32⟩ : BufTy).Contents (Elt Ideal)) :
    val_main_v32 (F := Ideal) x0 x2 = Cert.Spec.matProd (M := 50000) (K := 128) (N := 64) x0 x2 := by
  funext i
  obtain ⟨p, q, rfl⟩ : ∃ (p : Fin 50000) (q : Fin 64), i = ix2 p q := ⟨i 0, i 1, eq_ix2 i⟩
  show val_main_v32 (F := Ideal) x0 x2 (ix2 p q) = ∑ k : Fin 128, x0 (ix2 p k) * x2 (ix2 k q)
  rw [val_main_v32_apply]
  refine Finset.sum_congr rfl fun k _ => ?_
  have el : lidx_main_v32 (ix2 p q) k = ix2 p k :=
    funext fun a => Fin.ext (by match a with | ⟨0, _⟩ => rfl | ⟨1, _⟩ => rfl)
  have er : ridx_main_v32 (ix2 p q) k = ix2 k q :=
    funext fun a => Fin.ext (by match a with | ⟨0, _⟩ => rfl | ⟨1, _⟩ => rfl)
  rw [el, er]

/-- The first layer's bias and positive part: max(aggregate + b₁ broadcast along the rows, 0). -/
theorem v54_eq (x0 : (⟨S50000x128, .f32⟩ : BufTy).Contents (Elt Ideal)) (x2 : (⟨S128x64, .f32⟩ : BufTy).Contents (Elt Ideal))
    (x3 : (⟨S64, .f32⟩ : BufTy).Contents (Elt Ideal)) (x9 : (⟨S2x1600000, .i32⟩ : BufTy).Contents (Elt Ideal))
    (hsc : (⟨1, ![64]⟩ : Shape).ShapeCasts ⟨2, ![1, 64]⟩) :
    val_main_v54 (F := Ideal) x0 x2 x3 x9
      = Cert.Spec.addRowRelu (M := 50000) (N := 64) (val_main_v50 (F := Ideal) x0 x2 x9) (shapeCast _ x3 hsc) := by
  funext i
  obtain ⟨p, q, rfl⟩ : ∃ (p : Fin 50000) (q : Fin 64), i = ix2 p q := ⟨i 0, i 1, eq_ix2 i⟩
  show val_main_v54 (F := Ideal) x0 x2 x3 x9 (ix2 p q)
    = max (val_main_v50 (F := Ideal) x0 x2 x9 (ix2 p q) + shapeCast (⟨2, ![1, 64]⟩ : Shape) x3 hsc (ix2 0 q)) 0
  rw [val_main_v54_apply, val_main_v53_apply, val_main_v52_apply, val_main_v51_apply, val_main_call0_v0_apply,
    val_main_call0_cst_apply, row_apply x3 hsc q]
  have e : idx_main_v51 (idx_main_v52 (ix2 p q)) = ix1 q :=
    funext fun a => Fin.ext (by match a with | ⟨0, _⟩ => rfl)
  rw [e, Ideal.maximumf_def, Ideal.addf_def, Ideal.ofBits_def, Ideal.ofBits_zero_f32]

/-- The second layer's feature product: H · W₂, H the first layer's output. -/
theorem v87_eq (x0 : (⟨S50000x128, .f32⟩ : BufTy).Contents (Elt Ideal)) (x2 : (⟨S128x64, .f32⟩ : BufTy).Contents (Elt Ideal))
    (x3 : (⟨S64, .f32⟩ : BufTy).Contents (Elt Ideal)) (x4 : (⟨S64x32, .f32⟩ : BufTy).Contents (Elt Ideal))
    (x9 : (⟨S2x1600000, .i32⟩ : BufTy).Contents (Elt Ideal)) :
    val_main_v87 (F := Ideal) x0 x2 x3 x4 x9
      = Cert.Spec.matProd (M := 50000) (K := 64) (N := 32) (val_main_v54 (F := Ideal) x0 x2 x3 x9) x4 := by
  funext i
  obtain ⟨p, q, rfl⟩ : ∃ (p : Fin 50000) (q : Fin 32), i = ix2 p q := ⟨i 0, i 1, eq_ix2 i⟩
  show val_main_v87 (F := Ideal) x0 x2 x3 x4 x9 (ix2 p q)
    = ∑ k : Fin 64, val_main_v54 (F := Ideal) x0 x2 x3 x9 (ix2 p k) * x4 (ix2 k q)
  rw [val_main_v87_apply]
  refine Finset.sum_congr rfl fun k _ => ?_
  have el : lidx_main_v87 (ix2 p q) k = ix2 p k :=
    funext fun a => Fin.ext (by match a with | ⟨0, _⟩ => rfl | ⟨1, _⟩ => rfl)
  have er : ridx_main_v87 (ix2 p q) k = ix2 k q :=
    funext fun a => Fin.ext (by match a with | ⟨0, _⟩ => rfl | ⟨1, _⟩ => rfl)
  rw [el, er]

/-- The second layer's bias: aggregate + b₂ broadcast along the rows. -/
theorem v108_eq (x0 : (⟨S50000x128, .f32⟩ : BufTy).Contents (Elt Ideal)) (x2 : (⟨S128x64, .f32⟩ : BufTy).Contents (Elt Ideal))
    (x3 : (⟨S64, .f32⟩ : BufTy).Contents (Elt Ideal)) (x4 : (⟨S64x32, .f32⟩ : BufTy).Contents (Elt Ideal))
    (x5 : (⟨S32, .f32⟩ : BufTy).Contents (Elt Ideal)) (x9 : (⟨S2x1600000, .i32⟩ : BufTy).Contents (Elt Ideal))
    (hsc : (⟨1, ![32]⟩ : Shape).ShapeCasts ⟨2, ![1, 32]⟩) :
    val_main_v108 (F := Ideal) x0 x2 x3 x4 x5 x9
      = Cert.Spec.addRow (M := 50000) (N := 32) (val_main_v105 (F := Ideal) x0 x2 x3 x4 x9) (shapeCast _ x5 hsc) := by
  funext i
  obtain ⟨p, q, rfl⟩ : ∃ (p : Fin 50000) (q : Fin 32), i = ix2 p q := ⟨i 0, i 1, eq_ix2 i⟩
  show val_main_v108 (F := Ideal) x0 x2 x3 x4 x5 x9 (ix2 p q)
    = val_main_v105 (F := Ideal) x0 x2 x3 x4 x9 (ix2 p q) + shapeCast (⟨2, ![1, 32]⟩ : Shape) x5 hsc (ix2 0 q)
  rw [val_main_v108_apply, val_main_v107_apply, val_main_v106_apply, row_apply x5 hsc q]
  have e : idx_main_v106 (idx_main_v107 (ix2 p q)) = ix1 q :=
    funext fun a => Fin.ext (by match a with | ⟨0, _⟩ => rfl)
  rw [e, Ideal.addf_def]

/-- The bipartite layer: (μ · W_l + b_l broadcast along the rows) + X_d · W_r, μ the mean aggregate. -/
theorem v133_eq (x0 : (⟨S50000x128, .f32⟩ : BufTy).Contents (Elt Ideal)) (x1 : (⟨S5000x128, .f32⟩ : BufTy).Contents (Elt Ideal))
    (x2 : (⟨S128x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal))
    (x6 : (⟨S32x64, .f32⟩ : BufTy).Contents (Elt Ideal)) (x7 : (⟨S64, .f32⟩ : BufTy).Contents (Elt Ideal))
    (x8 : (⟨S128x64, .f32⟩ : BufTy).Contents (Elt Ideal)) (x9 : (⟨S2x1600000, .i32⟩ : BufTy).Contents (Elt Ideal))
    (x10 x11 : (⟨S200000, .i32⟩ : BufTy).Contents (Elt Ideal))
    (hsc : (⟨1, ![64]⟩ : Shape).ShapeCasts ⟨2, ![1, 64]⟩) :
    val_main_v133 (F := Ideal) x0 x1 x2 x3 x4 x5 x6 x7 x8 x9 x10 x11
      = Cert.Spec.combine (M := 5000) (K₁ := 32) (K₂ := 128) (N := 64)
          (val_main_v127 (F := Ideal) x0 x2 x3 x4 x5 x9 x10 x11) x1 x6 (shapeCast _ x7 hsc) x8 := by
  funext i
  obtain ⟨p, q, rfl⟩ : ∃ (p : Fin 5000) (q : Fin 64), i = ix2 p q := ⟨i 0, i 1, eq_ix2 i⟩
  show val_main_v133 (F := Ideal) x0 x1 x2 x3 x4 x5 x6 x7 x8 x9 x10 x11 (ix2 p q)
    = (∑ k : Fin 32, val_main_v127 (F := Ideal) x0 x2 x3 x4 x5 x9 x10 x11 (ix2 p k) * x6 (ix2 k q))
        + shapeCast (⟨2, ![1, 64]⟩ : Shape) x7 hsc (ix2 0 q)
      + ∑ k : Fin 128, x1 (ix2 p k) * x8 (ix2 k q)
  rw [val_main_v133_apply, val_main_v131_apply, val_main_v128_apply, val_main_v130_apply, val_main_v129_apply,
    val_main_v132_apply, row_apply x7 hsc q]
  have e : idx_main_v129 (idx_main_v130 (ix2 p q)) = ix1 q :=
    funext fun a => Fin.ext (by match a with | ⟨0, _⟩ => rfl)
  have el : ∀ k, lidx_main_v128 (ix2 p q) k = ix2 p k := fun k =>
    funext fun a => Fin.ext (by match a with | ⟨0, _⟩ => rfl | ⟨1, _⟩ => rfl)
  have er : ∀ k, ridx_main_v128 (ix2 p q) k = ix2 k q := fun k =>
    funext fun a => Fin.ext (by match a with | ⟨0, _⟩ => rfl | ⟨1, _⟩ => rfl)
  have el' : ∀ k, lidx_main_v132 (ix2 p q) k = ix2 p k := fun k =>
    funext fun a => Fin.ext (by match a with | ⟨0, _⟩ => rfl | ⟨1, _⟩ => rfl)
  have er' : ∀ k, ridx_main_v132 (ix2 p q) k = ix2 k q := fun k =>
    funext fun a => Fin.ext (by match a with | ⟨0, _⟩ => rfl | ⟨1, _⟩ => rfl)
  simp only [e, el, er, el', er', Ideal.addf_def]

/-! The second convolution prints the first one's index arrays and edge normalisation again, operation for
    operation; each pair of stages is the same term once both are written out in the arguments. -/

/-- The source column with the self loops appended, printed a second time. -/
theorem v58_eq (x9 : (⟨S2x1600000, .i32⟩ : BufTy).Contents (Elt Ideal)) :
    val_main_v58 (F := Ideal) x9 = val_main_v3 (F := Ideal) x9 := by
  unfold val_main_v58 val_main_v57 val_main_v56 val_main_v55 val_main_v3 val_main_v2 val_main_v1 val_main_v0
  rfl

/-- The destination column with the self loops appended, printed a second time. -/
theorem v61_eq (x9 : (⟨S2x1600000, .i32⟩ : BufTy).Contents (Elt Ideal)) :
    val_main_v61 (F := Ideal) x9 = val_main_v6 (F := Ideal) x9 := by
  unfold val_main_v61 val_main_v60 val_main_v59 val_main_v55 val_main_v6 val_main_v5 val_main_v4 val_main_v0
  rfl

/-- The wrapped destination column as a column of scatter positions, printed a second time. -/
theorem v68_eq (x9 : (⟨S2x1600000, .i32⟩ : BufTy).Contents (Elt Ideal)) :
    val_main_v68 (F := Ideal) x9 = val_main_v13 (F := Ideal) x9 := by
  unfold val_main_v68 val_main_v67 val_main_v66 val_main_v65 val_main_c_13 val_main_v64 val_main_v63 val_main_c_12
    val_main_v13 val_main_v12 val_main_v11 val_main_v10 val_main_c_0 val_main_v9 val_main_v8 val_main_c
  rw [v61_eq]

/-- The inverse square root of the degrees, printed a second time. -/
theorem v71_eq (x9 : (⟨S2x1600000, .i32⟩ : BufTy).Contents (Elt Ideal)) :
    val_main_v71 (F := Ideal) x9 = val_main_v16 (F := Ideal) x9 := by
  unfold val_main_v71 val_main_v70 val_main_v69 val_main_cst_14 val_main_v62 val_main_cst_11
    val_main_v16 val_main_v15 val_main_v14 val_main_cst_1 val_main_v7 val_main_cst
  rw [v68_eq]

/-- The wrapped source column as a column of gather positions, printed a second time. -/
theorem v77_eq (x9 : (⟨S2x1600000, .i32⟩ : BufTy).Contents (Elt Ideal)) :
    val_main_v77 (F := Ideal) x9 = val_main_v22 (F := Ideal) x9 := by
  unfold val_main_v77 val_main_v76 val_main_v75 val_main_v74 val_main_c_16 val_main_v73 val_main_v72 val_main_c_15
    val_main_v22 val_main_v21 val_main_v20 val_main_v19 val_main_c_3 val_main_v18 val_main_v17 val_main_c_2
  rw [v58_eq]

/-- The wrapped destination column as a column of gather positions, printed a second time. -/
theorem v84_eq (x9 : (⟨S2x1600000, .i32⟩ : BufTy).Contents (Elt Ideal)) :
    val_main_v84 (F := Ideal) x9 = val_main_v29 (F := Ideal) x9 := by
  unfold val_main_v84 val_main_v83 val_main_v82 val_main_v81 val_main_c_18 val_main_v80 val_main_v79 val_main_c_17
    val_main_v29 val_main_v28 val_main_v27 val_main_v26 val_main_c_5 val_main_v25 val_main_v24 val_main_c_4
  rw [v61_eq]

/-- The symmetric edge normalisation d(src)^(-1/2) · d(dst)^(-1/2), printed a second time. -/
theorem v86_eq (x9 : (⟨S2x1600000, .i32⟩ : BufTy).Contents (Elt Ideal)) :
    val_main_v86 (F := Ideal) x9 = val_main_v31 (F := Ideal) x9 := by
  unfold val_main_v86 val_main_v85 val_main_v78 val_main_v31 val_main_v30 val_main_v23
  rw [v71_eq, v77_eq, v84_eq]

end Cert.ReferenceIdeal.RefRead

end
-- ==== Proof.Carry.lean ====
/-
  What each host stretch of the kernel program leaves untouched: the argument arrays, and the index arrays, the edge norm and
  the first result while later stages still read them. A host operation writes only its own result buffer, so a buffer
  that is no operation's result holds after the stretch what it held before. (A region's counterpart is the frame's own
  lemma that a buffer which is none of the region's arrays is left as entered.)
-/
import proofs.«415556_j15367392985223_2_alg».proof.Proof.Gen.KernelIdeal.Frame
import proofs.«415556_j15367392985223_2_alg».proof.Proof.Spec
import Idealize.ShloMosaic.Lib.StableHlo.Run
set_option maxRecDepth 16384

noncomputable section

namespace Cert.KernelIdeal.Carry

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- A host stretch leaves a buffer none of its operations writes as it found it. -/
macro "keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The operations before the first region write no argument array. -/
theorem keeps0 (c : Dev nD) : ∀ b ∈ ([main_arg0, main_arg1, main_arg2, main_arg3, main_arg4, main_arg5, main_arg6, main_arg7, main_arg8, main_arg9, main_arg10, main_arg11] : List (Ref sig .tc)),
    W1 (F := Ideal) m ρ c (Proc.devRef .tc b) = W0 (F := Ideal) m ρ c (Proc.devRef .tc b) := by
  intro b hb
  simp only [List.mem_cons, List.not_mem_nil, or_false] at hb
  rcases hb with rfl | rfl | rfl | rfl | rfl | rfl | rfl | rfl | rfl | rfl | rfl | rfl
  all_goals keeps hostOps0

/-- The first layer's fill-mode take writes neither a later argument nor the index arrays and norm. -/
theorem keeps1 (c : Dev nD) : ∀ b ∈ ([main_arg1, main_arg4, main_arg5, main_arg6, main_arg7, main_arg8, main_arg10, main_arg11, main_v5, main_v6, main_v31] : List (Ref sig .tc)),
    W3 (F := Ideal) m ρ c (Proc.devRef .tc b) = W2 (F := Ideal) m ρ c (Proc.devRef .tc b) := by
  intro b hb
  simp only [List.mem_cons, List.not_mem_nil, or_false] at hb
  rcases hb with rfl | rfl | rfl | rfl | rfl | rfl | rfl | rfl | rfl | rfl | rfl
  all_goals keeps hostOps1

/-- Nor does the first layer's aggregation. -/
theorem keeps1_1 (c : Dev nD) : ∀ b ∈ ([main_arg1, main_arg4, main_arg5, main_arg6, main_arg7, main_arg8, main_arg10, main_arg11, main_v5, main_v6, main_v31] : List (Ref sig .tc)),
    W4 (F := Ideal) m ρ c (Proc.devRef .tc b) = W3 (F := Ideal) m ρ c (Proc.devRef .tc b) := by
  intro b hb
  simp only [List.mem_cons, List.not_mem_nil, or_false] at hb
  rcases hb with rfl | rfl | rfl | rfl | rfl | rfl | rfl | rfl | rfl | rfl | rfl
  all_goals keeps hostOps1_1

/-- The second layer's take writes no later argument. -/
theorem keeps3 (c : Dev nD) : ∀ b ∈ ([main_arg1, main_arg6, main_arg7, main_arg8, main_arg10, main_arg11] : List (Ref sig .tc)),
    W7 (F := Ideal) m ρ c (Proc.devRef .tc b) = W6 (F := Ideal) m ρ c (Proc.devRef .tc b) := by
  intro b hb
  simp only [List.mem_cons, List.not_mem_nil, or_false] at hb
  rcases hb with rfl | rfl | rfl | rfl | rfl | rfl
  all_goals keeps hostOps3

/-- Nor does the second layer's aggregation. -/
theorem keeps3_1 (c : Dev nD) : ∀ b ∈ ([main_arg1, main_arg6, main_arg7, main_arg8, main_arg10, main_arg11] : List (Ref sig .tc)),
    W8 (F := Ideal) m ρ c (Proc.devRef .tc b) = W7 (F := Ideal) m ρ c (Proc.devRef .tc b) := by
  intro b hb
  simp only [List.mem_cons, List.not_mem_nil, or_false] at hb
  rcases hb with rfl | rfl | rfl | rfl | rfl | rfl
  all_goals keeps hostOps3_1

/-- The bipartite take writes neither the last region's arguments nor the first result. -/
theorem keeps4 (c : Dev nD) : ∀ b ∈ ([main_arg1, main_arg6, main_arg8, main_v61] : List (Ref sig .tc)),
    W10 (F := Ideal) m ρ c (Proc.devRef .tc b) = W9 (F := Ideal) m ρ c (Proc.devRef .tc b) := by
  intro b hb
  simp only [List.mem_cons, List.not_mem_nil, or_false] at hb
  rcases hb with rfl | rfl | rfl | rfl
  all_goals keeps hostOps4

/-- Nor does the mean aggregation. -/
theorem keeps4_1 (c : Dev nD) : ∀ b ∈ ([main_arg1, main_arg6, main_arg8, main_v61] : List (Ref sig .tc)),
    W11 (F := Ideal) m ρ c (Proc.devRef .tc b) = W10 (F := Ideal) m ρ c (Proc.devRef .tc b) := by
  intro b hb
  simp only [List.mem_cons, List.not_mem_nil, or_false] at hb
  rcases hb with rfl | rfl | rfl | rfl
  all_goals keeps hostOps4_1

end Cert.KernelIdeal.Carry

end
-- ==== Proof.HostHead.lean ====
/-
  The host operations before the first region: from the edge list they build the source and destination index arrays
  (each edge row followed by the self-loop indices 0 … 49999), the degree count by a scatter-add of ones, its inverse
  square root, and the edge norm as the product of the two gathered factors. The reference performs the same operations
  on the same edge list, so each of the three arrays the later stages read is the reference's stage of the edge list.
-/
import proofs.«415556_j15367392985223_2_alg».proof.Proof.Gen.KernelIdeal.Frame
import proofs.«415556_j15367392985223_2_alg».proof.Proof.Gen.ReferenceIdeal.Read
import proofs.«415556_j15367392985223_2_alg».proof.Proof.Spec
import Idealize.ShloMosaic.Lib.StableHlo.Run

set_option maxRecDepth 16384

noncomputable section

namespace Cert.KernelIdeal.HostHead

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The source indices: the first edge row followed by 0 … 49999. -/
theorem W1_v5 (c : Dev nD) :
    W1 (F := Ideal) m ρ c (Proc.devRef .tc main_v5)
      = Cert.ReferenceIdeal.Read.val_main_v3 (F := Ideal) (m ((c.tc : Thread nD τ).loc main_arg9)) := by
  show StableHlo.after hostOps0 _ (Proc.devRef .tc main_v5) = _
  after_results
  rfl

/-- The destination indices: the second edge row followed by 0 … 49999. -/
theorem W1_v6 (c : Dev nD) :
    W1 (F := Ideal) m ρ c (Proc.devRef .tc main_v6)
      = Cert.ReferenceIdeal.Read.val_main_v6 (F := Ideal) (m ((c.tc : Thread nD τ).loc main_arg9)) := by
  show StableHlo.after hostOps0 _ (Proc.devRef .tc main_v6) = _
  after_results
  rfl

set_option maxHeartbeats 16000000 in
/-- The edge norm: the inverse square roots of the degrees at the two ends of each edge, multiplied. The index arrays
    are named first (the valuation after the seven operations that build them), so that the remaining operations are
    compared with the reference's over two opaque arrays. -/
theorem W1_v31 (c : Dev nD) :
    W1 (F := Ideal) m ρ c (Proc.devRef .tc main_v31)
      = Cert.ReferenceIdeal.Read.val_main_v31 (F := Ideal) (m ((c.tc : Thread nD τ).loc main_arg9)) := by
  show StableHlo.after (List.drop 7 hostOps0) (StableHlo.after (List.take 7 hostOps0) (W0 (F := Ideal) m ρ c)) (Proc.devRef .tc main_v31) = _
  have h5 : StableHlo.after (List.take 7 hostOps0) (W0 (F := Ideal) m ρ c) (Proc.devRef .tc main_v5)
      = Cert.ReferenceIdeal.Read.val_main_v3 (F := Ideal) (m ((c.tc : Thread nD τ).loc main_arg9)) := by
    simp only [hostOps0, List.take_succ_cons, List.take_zero]
    after_results
    rfl
  have h6 : StableHlo.after (List.take 7 hostOps0) (W0 (F := Ideal) m ρ c) (Proc.devRef .tc main_v6)
      = Cert.ReferenceIdeal.Read.val_main_v6 (F := Ideal) (m ((c.tc : Thread nD τ).loc main_arg9)) := by
    simp only [hostOps0, List.take_succ_cons, List.take_zero]
    after_results
    rfl
  generalize StableHlo.after (List.take 7 hostOps0) (W0 (F := Ideal) m ρ c) = V7 at h5 h6 ⊢
  simp only [hostOps0, List.drop_succ_cons, List.drop_zero]
  after_results_simp
  rw [h5, h6]
  simp only [Cert.ReferenceIdeal.Read.val_main_cst,
    Cert.ReferenceIdeal.Read.val_main_v7,
    Cert.ReferenceIdeal.Read.val_main_c,
    Cert.ReferenceIdeal.Read.val_main_v8,
    Cert.ReferenceIdeal.Read.val_main_v9,
    Cert.ReferenceIdeal.Read.val_main_c_0,
    Cert.ReferenceIdeal.Read.val_main_v10,
    Cert.ReferenceIdeal.Read.val_main_v11,
    Cert.ReferenceIdeal.Read.val_main_v12,
    Cert.ReferenceIdeal.Read.val_main_v13,
    Cert.ReferenceIdeal.Read.val_main_cst_1,
    Cert.ReferenceIdeal.Read.val_main_v14,
    Cert.ReferenceIdeal.Read.val_main_v15,
    Cert.ReferenceIdeal.Read.val_main_v16,
    Cert.ReferenceIdeal.Read.val_main_c_2,
    Cert.ReferenceIdeal.Read.val_main_v17,
    Cert.ReferenceIdeal.Read.val_main_v18,
    Cert.ReferenceIdeal.Read.val_main_c_3,
    Cert.ReferenceIdeal.Read.val_main_v19,
    Cert.ReferenceIdeal.Read.val_main_v20,
    Cert.ReferenceIdeal.Read.val_main_v21,
    Cert.ReferenceIdeal.Read.val_main_v22,
    Cert.ReferenceIdeal.Read.val_main_v23,
    Cert.ReferenceIdeal.Read.val_main_c_4,
    Cert.ReferenceIdeal.Read.val_main_v24,
    Cert.ReferenceIdeal.Read.val_main_v25,
    Cert.ReferenceIdeal.Read.val_main_c_5,
    Cert.ReferenceIdeal.Read.val_main_v26,
    Cert.ReferenceIdeal.Read.val_main_v27,
    Cert.ReferenceIdeal.Read.val_main_v28,
    Cert.ReferenceIdeal.Read.val_main_v29,
    Cert.ReferenceIdeal.Read.val_main_v30,
    Cert.ReferenceIdeal.Read.val_main_v31]
  generalize Cert.ReferenceIdeal.Read.val_main_v3 (F := Ideal) (m ((c.tc : Thread nD τ).loc main_arg9)) = src
  generalize Cert.ReferenceIdeal.Read.val_main_v6 (F := Ideal) (m ((c.tc : Thread nD τ).loc main_arg9)) = dst
  rfl

end Cert.KernelIdeal.HostHead

end
-- ==== Proof.HostAgg.lean ====
/-
  The first graph convolution's aggregation over the edges, on the host between the first two kernel regions.

  The kernel program takes the rows of the feature product h at the source indices with numpy's fill rule: it wraps
  a negative index v to v + 50000, gathers, and then keeps, row by row, the gathered row where the wrapped index w
  satisfies 0 ≤ w ≤ 49999 and puts the NaN word elsewhere. It scales each taken row by its edge's norm and adds the
  rows into zeros at the wrapped destination indices. The reference gathers with the same wrap and no range test, and
  multiplies in the other order, norm · h[src].

  When every source index lies in [−50000, 50000) each wrapped index lies in [0, 49999], so the range test holds on
  every row, the select is the gathered array, and the two aggregates differ only by the order of a product of
  extended reals, which commutes.
-/
import proofs.«415556_j15367392985223_2_alg».proof.Proof.Gen.KernelIdeal.Frame
import proofs.«415556_j15367392985223_2_alg».proof.Proof.Gen.ReferenceIdeal.Read
import proofs.«415556_j15367392985223_2_alg».proof.Proof.Spec
import proofs.«415556_j15367392985223_2_alg».proof.Proof.IndexFacts
import Idealize.ShloMosaic.Lib.StableHlo.Run
import Idealize.ShloMosaic.Lib.Pipeline.Value
import Idealize.ShloMosaic.Lib.ReduceAll
import Idealize.ShloMosaic.Lib.ValueIdx

set_option maxRecDepth 16384

noncomputable section

namespace Cert.KernelIdeal.HostAgg

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## numpy's index wrap and the fill-mode mask -/

/-- numpy's wrap of an index array into an axis of 50000 rows (v + 50000 where v < 0, else v), laid out as the
    column of start positions a gather or a scatter reads. -/
def wrapCol (a : IVec S1650000 32) : IVec S1650000x1 32 :=
  broadcastInDim S1650000x1 ![0] bcast_S1650000_S1650000x1_0
    (select (cmpi .slt a (broadcastInDim S1650000 ![] bcast_S_S1650000 (constantI S_ 32 0#32)))
      (addi a (broadcastInDim S1650000 ![] bcast_S_S1650000 (constantI S_ 32 50000#32))) a)

/-- The fill-mode mask of a take, row by row: the conjunction, over the one index column, of the two range tests
    0 ≤ w and w ≤ 49999 of the wrapped index w. -/
def inRange (a : IVec S1650000 32) : IVec S1650000 1 :=
  Host.reduce IntOp.andi
    (andi (cmpi .sge (wrapCol a) (broadcastInDim S1650000x1 ![] bcast_S_S1650000x1 (constantI S_ 32 0#32)))
      (cmpi .sle (wrapCol a)
        (broadcastInDim S1650000x1 ![0, 1] bcast_S1x1_S1650000x1_0_1
          (broadcastInDim S1x1 ![1] bcast_S1_S1x1_1 (constantI S1 32 49999#32)))))
    (constantI S_ 1 1#1) reducesTo_S1650000x1_S1650000_d1 h_S_

/-- A left fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- Every index within [−50000, 50000) wraps into [0, 49999]: the mask is 1 on every row. -/
theorem inRange_ones (a : IVec S1650000 32) (h : Cert.Spec.WithinWrap 50000 a) (i : S1650000.Idx) :
    inRange a i = 1#1 := by
  unfold inRange
  rw [Host.reduce_eq_foldl]
  exact foldl_andi_ones _ (fun j => Cert.IndexFacts.wrapped_in_range _ (h _)) _

/-- Under an all-ones mask broadcast over the columns, the masked select is the gathered array. -/
theorem fill_select {t : Shape} {α : Type} (a : IVec S1650000 32) (h : Cert.Spec.WithinWrap 50000 a)
    (dims : Fin S1650000.rank → Fin t.rank) (hb : S1650000.BroadcastsInDim t dims) (g nan : t.Idx → α) :
    select (broadcastInDim t dims hb (inRange a)) g nan = g :=
  Cert.IndexFacts.select_of_all_ones _ (fun j => inRange_ones a h _) g nan

/-- The product of two arrays of extended reals, entry by entry, commutes. -/
theorem mulf_comm {s : Shape} (a b : FVec Ideal s .f32) : mulf a b = mulf b a :=
  funext fun i => mul_comm (a i) (b i)

/-! ## The typed references' transports

A module-local function's operation moves each operand from its buffer's type to the tensor type it is stated at, and
its result back; at a literal reference the two types are the same, so each transport is the identity. -/

/-- A transport along an equation between a type and itself is the identity. -/
theorem cast_self {α : Type} (h : α = α) (a : α) : cast h a = a := by
  cases h
  exact rfl

/-! ## The first layer's aggregation -/

set_option maxHeartbeats 16000000 in
/-- What the take's operations leave in its result buffer, over any entry contents: the masked select of the gathered
    rows and the NaN word. -/
theorem take1 (V : Valuation τ sig (Elt Ideal)) :
    StableHlo.after (hostOps1 (F := Ideal)) V (Proc.devRef .tc main_v33)
      = select (broadcastInDim S1650000x64 ![0] bcast_S1650000_S1650000x64_0 (inRange (V (Proc.devRef .tc main_v5))))
          (Host.gather gather_S50000x64_S1650000x1_S1650000x64_1_0_n_n_0_1_164 (V (Proc.devRef .tc main_v32))
            (wrapCol (V (Proc.devRef .tc main_v5))))
          (broadcastInDim S1650000x64 ![] bcast_S_S1650000x64 (constant (F := Ideal) S_ .f32 0x7FC00000#32)) := by
  after_results_simp
  simp only [cast_cast]
  simp only [cast_self]
  unfold inRange wrapCol
  rfl

set_option maxHeartbeats 16000000 in
/-- The take writes neither the destination indices nor the edge norms. -/
theorem take1_v6 (V : Valuation τ sig (Elt Ideal)) :
    StableHlo.after (hostOps1 (F := Ideal)) V (Proc.devRef .tc main_v6) = V (Proc.devRef .tc main_v6) := by
  after_results_simp

set_option maxHeartbeats 16000000 in
theorem take1_v31 (V : Valuation τ sig (Elt Ideal)) :
    StableHlo.after (hostOps1 (F := Ideal)) V (Proc.devRef .tc main_v31) = V (Proc.devRef .tc main_v31) := by
  after_results_simp

set_option maxHeartbeats 16000000 in
/-- What the operations after the take leave in the aggregate's buffer, over any entry contents: the scatter-add, at
    the wrapped destinations, of the taken rows each scaled by its edge's norm, into zeros. -/
theorem agg1 (V : Valuation τ sig (Elt Ideal)) :
    StableHlo.after (hostOps1_1 (F := Ideal)) V (Proc.devRef .tc main_v44)
      = Host.scatterAdd scatter_S50000x64_S1650000x1_S1650000x64_1_0_0_1
          (broadcastInDim S50000x64 ![] bcast_S_S50000x64 (constant (F := Ideal) S_ .f32 0x00000000#32))
          (wrapCol (V (Proc.devRef .tc main_v6)))
          (mulf (V (Proc.devRef .tc main_v33))
            (broadcastInDim S1650000x64 ![0, 1] bcast_S1650000x1_S1650000x64_0_1
              (broadcastInDim S1650000x1 ![0] bcast_S1650000_S1650000x1_0 (V (Proc.devRef .tc main_v31))))) := by
  after_results_simp
  unfold wrapCol
  rfl

/-- The first layer's aggregate at the second region's entry is the reference's: the source indices are valid numpy
    indices, so the take's mask is all ones and the take is the bare gather; the product with the norm commutes. -/
theorem W4_v44 (c : Dev nD)
    (x0 : (⟨Cert.ReferenceIdeal.S50000x128, .f32⟩ : BufTy).Contents (Elt Ideal))
    (x2 : (⟨Cert.ReferenceIdeal.S128x64, .f32⟩ : BufTy).Contents (Elt Ideal))
    (x9 : (⟨Cert.ReferenceIdeal.S2x1600000, .i32⟩ : BufTy).Contents (Elt Ideal))
    (h32 : W2 (F := Ideal) m ρ c (Proc.devRef .tc main_v32) = Cert.ReferenceIdeal.Read.val_main_v32 (F := Ideal) x0 x2)
    (h5 : W2 (F := Ideal) m ρ c (Proc.devRef .tc main_v5) = Cert.ReferenceIdeal.Read.val_main_v3 (F := Ideal) x9)
    (h6 : W2 (F := Ideal) m ρ c (Proc.devRef .tc main_v6) = Cert.ReferenceIdeal.Read.val_main_v6 (F := Ideal) x9)
    (h31 : W2 (F := Ideal) m ρ c (Proc.devRef .tc main_v31) = Cert.ReferenceIdeal.Read.val_main_v31 (F := Ideal) x9)
    (hsrc : Cert.Spec.WithinWrap 50000 (Cert.ReferenceIdeal.Read.val_main_v3 (F := Ideal) x9)) :
    W4 (F := Ideal) m ρ c (Proc.devRef .tc main_v44) = Cert.ReferenceIdeal.Read.val_main_v50 (F := Ideal) x0 x2 x9 := by
  show StableHlo.after hostOps1_1 (StableHlo.after hostOps1 (W2 (F := Ideal) m ρ c)) (Proc.devRef .tc main_v44) = _
  rw [agg1, take1_v6, take1_v31, take1, h32, h5, h6, h31, fill_select _ hsrc, mulf_comm]
  unfold Cert.ReferenceIdeal.Read.val_main_v50 Cert.ReferenceIdeal.Read.val_main_v33 Cert.ReferenceIdeal.Read.val_main_cst_6
    Cert.ReferenceIdeal.Read.val_main_v49 Cert.ReferenceIdeal.Read.val_main_v48 Cert.ReferenceIdeal.Read.val_main_v45
    Cert.ReferenceIdeal.Read.val_main_v44 Cert.ReferenceIdeal.Read.val_main_c_9 Cert.ReferenceIdeal.Read.val_main_v47
    Cert.ReferenceIdeal.Read.val_main_v46 Cert.ReferenceIdeal.Read.val_main_c_10 Cert.ReferenceIdeal.Read.val_main_v43
    Cert.ReferenceIdeal.Read.val_main_v42 Cert.ReferenceIdeal.Read.val_main_v34 Cert.ReferenceIdeal.Read.val_main_v41
    Cert.ReferenceIdeal.Read.val_main_v40 Cert.ReferenceIdeal.Read.val_main_v39 Cert.ReferenceIdeal.Read.val_main_v36
    Cert.ReferenceIdeal.Read.val_main_v35 Cert.ReferenceIdeal.Read.val_main_c_7 Cert.ReferenceIdeal.Read.val_main_v38
    Cert.ReferenceIdeal.Read.val_main_v37 Cert.ReferenceIdeal.Read.val_main_c_8 wrapCol
  rfl

set_option maxHeartbeats 16000000 in
/-- The first layer's bias, reshaped to a row for the second region. -/
theorem W4_v45 (c : Dev nD) :
    W4 (F := Ideal) m ρ c (Proc.devRef .tc main_v45)
      = shapeCast S1x64 (W2 (F := Ideal) m ρ c (Proc.devRef .tc main_arg3)) shapeCasts_S64_S1x64 := by
  show StableHlo.after hostOps1_1 (StableHlo.after hostOps1 (W2 (F := Ideal) m ρ c)) (Proc.devRef .tc main_v45) = _
  after_results_simp
  rfl

end Cert.KernelIdeal.HostAgg

end
-- ==== Proof.HostAgg2.lean ====
/-
  The second layer's aggregation over the edges, which the kernel program does on the host between its regions: the
  rows of the second linear map's output gathered at the source indices (a gather in fill mode: numpy's wrap of
  negative indices, then a row of NaN wherever the wrapped index falls outside [0, 49999]), each row scaled by its edge
  weight, added into zeros at the wrapped destination rows; and the second bias kept as a 1 × 32 row.

  Under the precondition every source index is a valid numpy index into 50000 rows, so the range mask is 1 everywhere
  and the fill-mode gather is the bare gather the reference does. The reference multiplies weight × row where the kernel
  program multiplies row × weight: the same number on the extended reals. Everything else is the same operations on the
  same operands.
-/
import proofs.«415556_j15367392985223_2_alg».proof.Proof.Gen.KernelIdeal.Frame
import proofs.«415556_j15367392985223_2_alg».proof.Proof.Gen.ReferenceIdeal.Read
import proofs.«415556_j15367392985223_2_alg».proof.Proof.Spec
import proofs.«415556_j15367392985223_2_alg».proof.Proof.IndexFacts
import Idealize.ShloMosaic.Lib.StableHlo.Run
import Idealize.ShloMosaic.Lib.Pipeline.Value
import Idealize.ShloMosaic.Lib.ValueIdx
import Idealize.ShloMosaic.PureOps.Reduce
set_option maxRecDepth 16384

noncomputable section

namespace Cert.KernelIdeal.HostAgg2

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## The index arithmetic of a row gather in fill mode -/

/-- numpy's wrap of an index array into an axis of extent 50000: i + 50000 where i is negative, i elsewhere. -/
def wrap (a : IVec S1650000 32) : IVec S1650000 32 :=
  select (cmpi .slt a (broadcastInDim S1650000 ![] bcast_S_S1650000 (constantI S_ 32 0#32)))
    (addi a (broadcastInDim S1650000 ![] bcast_S_S1650000 (constantI S_ 32 50000#32))) a

/-- An index array as a column of one-entry index vectors. -/
def col (a : IVec S1650000 32) : IVec S1650000x1 32 :=
  broadcastInDim S1650000x1 ![0] bcast_S1650000_S1650000x1_0 a

/-- The row mask of the gather: 1 where the wrapped index lies in [0, 49999], spread over the 32 columns. -/
def inRange (a : IVec S1650000 32) : IVec S1650000x32 1 :=
  broadcastInDim S1650000x32 ![0] bcast_S1650000_S1650000x32_0
    (Host.reduce IntOp.andi
      (andi (cmpi .sge (col (wrap a)) (broadcastInDim S1650000x1 ![] bcast_S_S1650000x1 (constantI S_ 32 0#32)))
        (cmpi .sle (col (wrap a)) (broadcastInDim S1650000x1 ![0, 1] bcast_S1x1_S1650000x1_0_1
          (broadcastInDim S1x1 ![1] bcast_S1_S1x1_1 (constantI S1 32 49999#32)))))
      (constantI S_ 1 1#1) reducesTo_S1650000x1_S1650000_d1 h_S_)

/-- The rows of h at the wrapped indices, a row of NaN where the wrapped index is out of range. -/
def takeFill (h : FVec Ideal S50000x32 .f32) (a : IVec S1650000 32) : FVec Ideal S1650000x32 .f32 :=
  select (inRange a)
    (Host.gather gather_S50000x32_S1650000x1_S1650000x32_1_0_n_n_0_1_132 h (col (wrap a)))
    (broadcastInDim S1650000x32 ![] bcast_S_S1650000x32 (constant (F := Ideal) S_ .f32 0x7FC00000#32))

/-- A left fold by and over one-bit words that are all 1, from 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by and of an array of ones, from one, is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-- Where every index is a valid numpy index into 50000 rows the mask is 1 everywhere. -/
theorem inRange_ones (a : IVec S1650000 32) (ha : Cert.Spec.WithinWrap 50000 a) (j : S1650000x32.Idx) : inRange a j = 1#1 := by
  unfold inRange
  refine (broadcastInDim_apply _ bcast_S1650000_S1650000x32_0 _ j (ix1 ⟨(j 0).val, (j 0).isLt⟩)
    (fun b => by match b with | ⟨0, _⟩ => rfl)).trans ?_
  refine reduce_andi_ones _ _ _ _ (fun i => ?_) (fun _ => rfl) _
  have hc : col (wrap a) i = Scalar.select (IntOp.cmpi .slt (a (ix1 ⟨(i 0).val, (i 0).isLt⟩)) 0#32)
      (IntOp.addi (a (ix1 ⟨(i 0).val, (i 0).isLt⟩)) 50000#32) (a (ix1 ⟨(i 0).val, (i 0).isLt⟩)) :=
    broadcastInDim_apply _ bcast_S1650000_S1650000x1_0 (wrap a) i (ix1 ⟨(i 0).val, (i 0).isLt⟩)
      (fun b => by match b with | ⟨0, _⟩ => rfl)
  show IntOp.andi (IntOp.cmpi .sge (col (wrap a) i) 0#32) (IntOp.cmpi .sle (col (wrap a) i) 49999#32) = 1#1
  rw [hc]
  exact Cert.IndexFacts.wrapped_in_range (a (ix1 ⟨(i 0).val, (i 0).isLt⟩)) (ha _)

/-- So the gather in fill mode is the bare gather at the wrapped indices. -/
theorem takeFill_of_within (h : FVec Ideal S50000x32 .f32) (a : IVec S1650000 32) (ha : Cert.Spec.WithinWrap 50000 a) :
    takeFill h a = Host.gather gather_S50000x32_S1650000x1_S1650000x32_1_0_n_n_0_1_132 h (col (wrap a)) :=
  Cert.IndexFacts.select_of_all_ones _ (inRange_ones a ha) _ _

/-! ## The first stretch: the gather, and what it leaves alone -/

/-- A transport along an equation of a type with itself is the identity. -/
theorem cast_self {α : Sort _} (h : α = α) (a : α) : cast h a = a := by cases h; exact rfl

set_option maxHeartbeats 16000000 in
/-- The gathered rows the first stretch leaves, from any contents. -/
theorem take_v48 (V : Valuation τ sig (Elt Ideal)) :
    StableHlo.after hostOps3 V (Proc.devRef .tc main_v48)
      = takeFill (V (Proc.devRef .tc main_v47)) (V (Proc.devRef .tc main_v5)) := by
  after_results_simp
  simp only [cast_cast]
  simp only [cast_self]
  unfold takeFill inRange col wrap
  rfl

set_option maxHeartbeats 16000000 in
/-- The first stretch leaves the destination indices alone, -/
theorem take_v6 (V : Valuation τ sig (Elt Ideal)) :
    StableHlo.after hostOps3 V (Proc.devRef .tc main_v6) = V (Proc.devRef .tc main_v6) := by
  after_results_simp

set_option maxHeartbeats 16000000 in
/-- and the edge weights. -/
theorem take_v31 (V : Valuation τ sig (Elt Ideal)) :
    StableHlo.after hostOps3 V (Proc.devRef .tc main_v31) = V (Proc.devRef .tc main_v31) := by
  after_results_simp

/-- The second bias, reshaped to a 1 × 32 row by the second stretch, is the argument as the third region left it. -/
theorem W8_v60 (c : Dev nD) : W8 (F := Ideal) m ρ c (Proc.devRef .tc main_v60) = shapeCast S1x32 (W6 (F := Ideal) m ρ c (Proc.devRef .tc main_arg5)) shapeCasts_S32_S1x32 := by
  show StableHlo.after hostOps3_1 (StableHlo.after hostOps3 (W6 m ρ c)) (Proc.devRef .tc main_v60) = _
  generalize W6 (F := Ideal) m ρ c = V
  after_results
  rfl

/-! ## The second stretch: the weighted scatter-add -/

/-- On the extended reals the pointwise product of two arrays does not depend on the order of the factors. -/
theorem mulf_comm {s : Shape} (a b : FVec Ideal s .f32) : mulf a b = mulf b a :=
  funext fun i => mul_comm (a i) (b i)

set_option maxHeartbeats 16000000 in
/-- The aggregate the second stretch leaves, from any contents: the gathered rows, each scaled by its edge weight,
    added into zeros at the wrapped destination rows. -/
theorem agg_v59 (V : Valuation τ sig (Elt Ideal)) :
    StableHlo.after hostOps3_1 V (Proc.devRef .tc main_v59)
      = Host.scatterAdd scatter_S50000x32_S1650000x1_S1650000x32_1_0_0_1
          (broadcastInDim S50000x32 ![] bcast_S_S50000x32 (constant (F := Ideal) S_ .f32 0x00000000#32))
          (col (wrap (V (Proc.devRef .tc main_v6))))
          (mulf (V (Proc.devRef .tc main_v48) : FVec Ideal S1650000x32 .f32)
            (broadcastInDim S1650000x32 ![0, 1] bcast_S1650000x1_S1650000x32_0_1
              (broadcastInDim S1650000x1 ![0] bcast_S1650000_S1650000x1_0
                (V (Proc.devRef .tc main_v31) : FVec Ideal S1650000 .f32)))) := by
  after_results_simp
  unfold col wrap
  rfl

set_option maxHeartbeats 16000000 in
/-- The second layer's aggregation: both programs gather the same rows (the range mask of the fill-mode gather is all
    ones under the index precondition), scale them by the same weights (in the other order of the product), and add
    them into zeros at the same wrapped destination rows. -/
theorem W8_v59 (c : Dev nD)
    (x0 : (⟨Cert.ReferenceIdeal.S50000x128, .f32⟩ : BufTy).Contents (Elt Ideal)) (x2 : (⟨Cert.ReferenceIdeal.S128x64, .f32⟩ : BufTy).Contents (Elt Ideal))
    (x3 : (⟨Cert.ReferenceIdeal.S64, .f32⟩ : BufTy).Contents (Elt Ideal)) (x4 : (⟨Cert.ReferenceIdeal.S64x32, .f32⟩ : BufTy).Contents (Elt Ideal))
    (x9 : (⟨Cert.ReferenceIdeal.S2x1600000, .i32⟩ : BufTy).Contents (Elt Ideal))
    (h47 : W6 (F := Ideal) m ρ c (Proc.devRef .tc main_v47) = Cert.ReferenceIdeal.Read.val_main_v87 (F := Ideal) x0 x2 x3 x4 x9)
    (h5 : W6 (F := Ideal) m ρ c (Proc.devRef .tc main_v5) = Cert.ReferenceIdeal.Read.val_main_v58 (F := Ideal) x9)
    (h6 : W6 (F := Ideal) m ρ c (Proc.devRef .tc main_v6) = Cert.ReferenceIdeal.Read.val_main_v61 (F := Ideal) x9)
    (h31 : W6 (F := Ideal) m ρ c (Proc.devRef .tc main_v31) = Cert.ReferenceIdeal.Read.val_main_v86 (F := Ideal) x9)
    (hsrc : Cert.Spec.WithinWrap 50000 (Cert.ReferenceIdeal.Read.val_main_v58 (F := Ideal) x9)) :
    W8 (F := Ideal) m ρ c (Proc.devRef .tc main_v59) = Cert.ReferenceIdeal.Read.val_main_v105 (F := Ideal) x0 x2 x3 x4 x9 := by
  show StableHlo.after hostOps3_1 (StableHlo.after hostOps3 (W6 m ρ c)) (Proc.devRef .tc main_v59) = _
  rw [agg_v59, take_v6, take_v31, take_v48, h47, h5, h6, h31, takeFill_of_within _ _ hsrc, mulf_comm]
  clear hsrc h47 h5 h6 h31
  unfold Cert.ReferenceIdeal.Read.val_main_v105 Cert.ReferenceIdeal.Read.val_main_v88 Cert.ReferenceIdeal.Read.val_main_cst_19 Cert.ReferenceIdeal.Read.val_main_v104 Cert.ReferenceIdeal.Read.val_main_v103 Cert.ReferenceIdeal.Read.val_main_v100 Cert.ReferenceIdeal.Read.val_main_v99 Cert.ReferenceIdeal.Read.val_main_c_22 Cert.ReferenceIdeal.Read.val_main_v102 Cert.ReferenceIdeal.Read.val_main_v101 Cert.ReferenceIdeal.Read.val_main_c_23 Cert.ReferenceIdeal.Read.val_main_v98 Cert.ReferenceIdeal.Read.val_main_v97 Cert.ReferenceIdeal.Read.val_main_v89 Cert.ReferenceIdeal.Read.val_main_v96 Cert.ReferenceIdeal.Read.val_main_v95 Cert.ReferenceIdeal.Read.val_main_v94 Cert.ReferenceIdeal.Read.val_main_v91 Cert.ReferenceIdeal.Read.val_main_v90 Cert.ReferenceIdeal.Read.val_main_c_20 Cert.ReferenceIdeal.Read.val_main_v93 Cert.ReferenceIdeal.Read.val_main_v92 Cert.ReferenceIdeal.Read.val_main_c_21 col wrap
  generalize Cert.ReferenceIdeal.Read.val_main_v87 (F := Ideal) x0 x2 x3 x4 x9 = A47
  generalize Cert.ReferenceIdeal.Read.val_main_v58 (F := Ideal) x9 = A5
  generalize Cert.ReferenceIdeal.Read.val_main_v61 (F := Ideal) x9 = A6
  generalize Cert.ReferenceIdeal.Read.val_main_v86 (F := Ideal) x9 = A31
  rfl

end Cert.KernelIdeal.HostAgg2

end
-- ==== Proof.HostMean.lean ====
/-
  The host operations between the fourth and the fifth region: the mean, over each drug's incoming edges, of the
  protein features at the edges' sources, and the bipartite layer's bias as a row.

  The kernel program gathers the rows in fill mode: an index v is wrapped (v + 50000 if v < 0), the row is gathered, and
  it is kept where 0 ≤ wrapped ≤ 49999 and replaced by the NaN word elsewhere; its scatter-adds wrap a negative destination
  by + 5000. The reference gathers with the same wrap and no mask, and its segment sums take the destinations as
  they are. For sources within [−50000, 50000) the wrapped index lies in [0, 49999], so the mask is 1 in every row and the
  masked gather is the bare one; for non-negative destinations the wrap is the identity. What remains on both sides is
  the same operations on the same arrays: sum of gathered rows per destination, count of rows per destination, and the
  quotient by max(count, 1).
-/
import proofs.«415556_j15367392985223_2_alg».proof.Proof.Gen.KernelIdeal.Frame
import proofs.«415556_j15367392985223_2_alg».proof.Proof.Gen.ReferenceIdeal.Read
import proofs.«415556_j15367392985223_2_alg».proof.Proof.Spec
import proofs.«415556_j15367392985223_2_alg».proof.Proof.IndexFacts
import proofs.«415556_j15367392985223_2_alg».proof.Proof.RefRead
import Idealize.ShloMosaic.Lib.StableHlo.Run
import Idealize.ShloMosaic.Lib.ReduceAll
import Idealize.ShloMosaic.Lib.Pipeline.Value
import Idealize.ShloMosaic.Lib.ValueIdx

set_option maxRecDepth 16384

noncomputable section

namespace Cert.KernelIdeal.HostMean

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## A conjunction of ones is one -/

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = (1#1 : BitVec 1) from by decide]
    exact foldl_andi_ones f l fun n hn => h n (List.mem_cons_of_mem _ hn)

/-- A reduction by `and`, from an initial value of ones, of an array of ones is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x _ fun i _ => hx i

/-! ## The fill-mode take's index column and range mask, as functions of the index array -/

/-- The indices wrapped into an axis of extent 50000 (a negative index plus 50000), as a column. -/
def wrappedCol (x10 : IVec S200000 32) : IVec S200000x1 32 :=
  broadcastInDim S200000x1 ![0] bcast_S200000_S200000x1_0
    (select (cmpi .slt x10 (broadcastInDim S200000 ![] bcast_S_S200000 (constantI S_ 32 0#32)))
      (addi x10 (broadcastInDim S200000 ![] bcast_S_S200000 (constantI S_ 32 50000#32))) x10)

/-- The wrapped index at a row, as a word. -/
theorem wrappedCol_apply (x10 : IVec S200000 32) (j : S200000x1.Idx) :
    wrappedCol x10 j
      = Scalar.select (IntOp.cmpi .slt (x10 (ix1 ⟨(j 0).val, (j 0).isLt⟩)) 0#32)
          (IntOp.addi (x10 (ix1 ⟨(j 0).val, (j 0).isLt⟩)) 50000#32) (x10 (ix1 ⟨(j 0).val, (j 0).isLt⟩)) := by
  unfold wrappedCol
  refine (broadcastInDim_apply _ bcast_S200000_S200000x1_0 _ j (ix1 ⟨(j 0).val, (j 0).isLt⟩) (fun a => match a with
    | ⟨0, _⟩ => by show (j 0).val = if (200000 : Nat) = 1 then 0 else (j 0).val; rw [if_neg (by decide)])).trans ?_
  rfl

/-- The mask "0 ≤ wrapped index ≤ 49999", one bit a row, broadcast over the 32 columns. -/
def rangeMask (v : IVec S200000x1 32) : IVec S200000x32 1 :=
  broadcastInDim S200000x32 ![0] bcast_S200000_S200000x32_0
    (Host.reduce IntOp.andi
      (andi (cmpi .sge v (broadcastInDim S200000x1 ![] bcast_S_S200000x1 (constantI S_ 32 0#32)))
        (cmpi .sle v (broadcastInDim S200000x1 ![0, 1] bcast_S1x1_S200000x1_0_1
          (broadcastInDim S1x1 ![1] bcast_S1_S1x1_1 (constantI S1 32 49999#32)))))
      (constantI S_ 1 1#1) reducesTo_S200000x1_S200000_d1 h_S_)

/-- For indices within [−50000, 50000) the mask is 1 everywhere. -/
theorem rangeMask_ones (x10 : IVec S200000 32) (hs : WithinWrap 50000 x10) (i : S200000x32.Idx) :
    rangeMask (wrappedCol x10) i = 1#1 := by
  unfold rangeMask
  refine (broadcastInDim_apply _ bcast_S200000_S200000x32_0 _ i (ix1 ⟨(i 0).val, (i 0).isLt⟩) (fun a => match a with
    | ⟨0, _⟩ => by show (i 0).val = if (200000 : Nat) = 1 then 0 else (i 0).val; rw [if_neg (by decide)])).trans ?_
  refine reduce_andi_of_all _ _ _ _ (fun _ => rfl) (fun j => ?_) _
  show IntOp.andi (IntOp.cmpi .sge (wrappedCol x10 j) 0#32) (IntOp.cmpi .sle (wrappedCol x10 j) 49999#32) = 1#1
  rw [wrappedCol_apply]
  exact Cert.IndexFacts.wrapped_in_range _ (hs _)

/-! ## The take: under the precondition the masked gather is the bare gather -/

set_option maxHeartbeats 16000000 in
/-- After the take's operations its result holds the gather of the features at the wrapped indices. -/
theorem W10_v62 (c : Dev nD) (h : (⟨S50000x32, .f32⟩ : BufTy).Contents (Elt Ideal))
    (x10 : (⟨S200000, .i32⟩ : BufTy).Contents (Elt Ideal))
    (h61 : W9 (F := Ideal) m ρ c (Proc.devRef .tc main_v61) = h)
    (h10 : W9 (F := Ideal) m ρ c (Proc.devRef .tc main_arg10) = x10)
    (hs : WithinWrap 50000 x10) :
    W10 (F := Ideal) m ρ c (Proc.devRef .tc main_v62)
      = Host.gather gather_S50000x32_S200000x1_S200000x32_1_0_n_n_0_1_132 h (wrappedCol x10) := by
  show StableHlo.after hostOps4 _ (Proc.devRef .tc main_v62) = _
  after_results_simp
  rw [h61, h10]
  simp only [cast_eq]
  exact Cert.IndexFacts.select_of_all_ones (rangeMask (wrappedCol x10)) (rangeMask_ones x10 hs) _ _

/-! ## The mean aggregation -/

/-- A host stretch leaves a buffer none of its operations writes as it found it. -/
local macro "untouched_by " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

set_option maxHeartbeats 16000000 in
/-- The mean over each destination's incoming rows: the kernel program's masked take and wrapping scatters are, under
    the precondition, the reference's bare gather and segment sums of the same arrays. -/
theorem W11_v84 (c : Dev nD)
    (x0 : (⟨Cert.ReferenceIdeal.S50000x128, .f32⟩ : BufTy).Contents (Elt Ideal))
    (x2 : (⟨Cert.ReferenceIdeal.S128x64, .f32⟩ : BufTy).Contents (Elt Ideal))
    (x3 : (⟨Cert.ReferenceIdeal.S64, .f32⟩ : BufTy).Contents (Elt Ideal))
    (x4 : (⟨Cert.ReferenceIdeal.S64x32, .f32⟩ : BufTy).Contents (Elt Ideal))
    (x5 : (⟨Cert.ReferenceIdeal.S32, .f32⟩ : BufTy).Contents (Elt Ideal))
    (x9 : (⟨Cert.ReferenceIdeal.S2x1600000, .i32⟩ : BufTy).Contents (Elt Ideal))
    (x10 x11 : (⟨Cert.ReferenceIdeal.S200000, .i32⟩ : BufTy).Contents (Elt Ideal))
    (h61 : W9 (F := Ideal) m ρ c (Proc.devRef .tc main_v61)
      = Cert.ReferenceIdeal.Read.val_main_v108 (F := Ideal) x0 x2 x3 x4 x5 x9)
    (h10 : W9 (F := Ideal) m ρ c (Proc.devRef .tc main_arg10) = x10)
    (h11 : W9 (F := Ideal) m ρ c (Proc.devRef .tc main_arg11) = x11)
    (hs : Cert.Spec.WithinWrap 50000 x10) (hd : Cert.Spec.NonNeg x11) :
    W11 (F := Ideal) m ρ c (Proc.devRef .tc main_v84)
      = Cert.ReferenceIdeal.Read.val_main_v127 (F := Ideal) x0 x2 x3 x4 x5 x9 x10 x11 := by
  have h62 : StableHlo.after hostOps4 (W9 (F := Ideal) m ρ c) (Proc.devRef .tc main_v62)
      = Host.gather gather_S50000x32_S200000x1_S200000x32_1_0_n_n_0_1_132
          (Cert.ReferenceIdeal.Read.val_main_v108 (F := Ideal) x0 x2 x3 x4 x5 x9) (wrappedCol x10) :=
    W10_v62 m ρ c _ x10 h61 h10 hs
  have h11' : StableHlo.after hostOps4 (W9 (F := Ideal) m ρ c) (Proc.devRef .tc main_arg11) = x11 :=
    Eq.trans (by untouched_by hostOps4) h11
  show StableHlo.after hostOps4_1 (StableHlo.after hostOps4 (W9 (F := Ideal) m ρ c)) (Proc.devRef .tc main_v84) = _
  generalize StableHlo.after hostOps4 (W9 (F := Ideal) m ρ c) = V10 at h62 h11' ⊢
  after_results_simp
  rw [h62, h11', Cert.IndexFacts.wrap_array_of_nonneg (s := S200000) x11
      (broadcastInDim S200000 ![] bcast_S_S200000 (constantI S_ 32 0#32))
      (broadcastInDim S200000 ![] bcast_S_S200000 (constantI S_ 32 5000#32)) (fun _ => rfl) hd]
  simp only [Cert.ReferenceIdeal.Read.val_main_v127, Cert.ReferenceIdeal.Read.val_main_v126,
    Cert.ReferenceIdeal.Read.val_main_v125, Cert.ReferenceIdeal.Read.val_main_v124,
    Cert.ReferenceIdeal.Read.val_main_v123, Cert.ReferenceIdeal.Read.val_main_cst_29,
    Cert.ReferenceIdeal.Read.val_main_v122, Cert.ReferenceIdeal.Read.val_main_v121,
    Cert.ReferenceIdeal.Read.val_main_v120, Cert.ReferenceIdeal.Read.val_main_cst_28,
    Cert.ReferenceIdeal.Read.val_main_v119, Cert.ReferenceIdeal.Read.val_main_cst_27,
    Cert.ReferenceIdeal.Read.val_main_v118, Cert.ReferenceIdeal.Read.val_main_v117,
    Cert.ReferenceIdeal.Read.val_main_v116, Cert.ReferenceIdeal.Read.val_main_cst_26,
    Cert.ReferenceIdeal.Read.val_main_v115, Cert.ReferenceIdeal.Read.val_main_v114,
    Cert.ReferenceIdeal.Read.val_main_v113, Cert.ReferenceIdeal.Read.val_main_v112,
    Cert.ReferenceIdeal.Read.val_main_v111, Cert.ReferenceIdeal.Read.val_main_c_25,
    Cert.ReferenceIdeal.Read.val_main_v110, Cert.ReferenceIdeal.Read.val_main_v109,
    Cert.ReferenceIdeal.Read.val_main_c_24, wrappedCol]
  generalize Cert.ReferenceIdeal.Read.val_main_v108 (F := Ideal) x0 x2 x3 x4 x5 x9 = feat
  rfl

set_option maxHeartbeats 16000000 in
/-- The bipartite layer's bias as a 1 × 64 row. -/
theorem W11_v85 (c : Dev nD) :
    W11 (F := Ideal) m ρ c (Proc.devRef .tc main_v85)
      = shapeCast S1x64 (W9 (F := Ideal) m ρ c (Proc.devRef .tc main_arg7)) shapeCasts_S64_S1x64 := by
  have k : StableHlo.after hostOps4 (W9 (F := Ideal) m ρ c) (Proc.devRef .tc main_arg7)
      = W9 (F := Ideal) m ρ c (Proc.devRef .tc main_arg7) := by untouched_by hostOps4
  show StableHlo.after hostOps4_1 (StableHlo.after hostOps4 (W9 (F := Ideal) m ρ c)) (Proc.devRef .tc main_v85) = _
  generalize StableHlo.after hostOps4 (W9 (F := Ideal) m ρ c) = V10 at k ⊢
  after_results_simp
  rw [k]
  rfl

end Cert.KernelIdeal.HostMean

end
-- ==== Proof.StageMat.lean ====
/-
  The two matrix-product regions of the kernel program, each read as ONE whole-array function: every grid point multiplies a
  block of 5000 rows by the whole weight matrix, the blocks tile the rows, so the output array is the matrix product.
-/
import proofs.«415556_j15367392985223_2_alg».proof.Proof.Gen.KernelIdeal.Frame
import proofs.«415556_j15367392985223_2_alg».proof.Proof.Spec
import Idealize.ShloMosaic.Lib.Pipeline.Value
import Idealize.ShloMosaic.PureOps.Ideal.Laws
import Idealize.ShloMosaic.Lib.ValueLayout
set_option maxRecDepth 16384

noncomputable section

namespace Cert.KernelIdeal.StageMat

open Cert.KernelIdeal Cert.KernelIdeal.Gen Cert.Spec
open Idealize.ShloMosaic Idealize.ShloMosaic.TcCoe Idealize.ShloMosaic.ValueIdx Idealize.SL.Sem

/-- The zero offsets of a whole-buffer access, however they are spelt. -/
theorem hz : (![0, 0] : Fin 2 → Nat) = fun _ => 0 := funext fun a => by fin_cases a <;> rfl

/-! ## The first product: a block of 5000 rows times the whole 128 × 64 matrix

First the operand indices of the product at an output index (p, q) and a contraction index k, axis by axis: the left
operand is read at (p, k), the right one at (k, q). -/

theorem lhsA_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsA_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsA_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsA_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's product at row p and column q of its block: the sum over k of x(p, k) · w(k, q); the narrowing
    of the operands' format changes nothing on the extended reals, and the accumulator is zero. -/
theorem payA_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  refine (Ideal.matmul_constant_zero_apply dot_S5000x128_S128x64_S5000x64_1_0_0_1_n_n none _ _ (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhsA_0 _ _).trans hk
    | ⟨1, _⟩ => exact rhsA_1 _ _)
  rw [el, er]
  rfl

/-- One entry of a row block's product is the entry of the whole product at the row the block starts at plus the row
    inside the block: the left block is rows 5000 n … of its array, the right block the whole of its. -/
theorem blockA (X : S50000x128.Idx → EReal) (Wt : S128x64.Idx → EReal) (x0 : Vec Ideal S5000x128 .f32) (x1 : Vec Ideal S128x64 .f32)
    (n : Nat) (y : S5000x64.Idx) (i : S50000x64.Idx)
    (hx0 : ∀ (p : Fin 5000) (k : Fin 128) (i' : S50000x128.Idx), (i' 0).val = n * 5000 + p.val → (i' 1).val = k.val → x0 (ix2 p k) = X i')
    (hx1 : ∀ (k : Fin 128) (q : Fin 64), x1 (ix2 k q) = Wt (ix2 k q))
    (hi0 : (i 0).val = n * 5000 + (y 0).val) (hi1 : (i 1).val = (y 1).val) :
    k0_pay1 (F := Ideal) x0 x1 y = matProd (M := 50000) (K := 128) (N := 64) X Wt i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  have hs : s = q := Fin.ext hi1
  subst hs
  rw [payA_apply]
  show _ = ∑ k : Fin 128, X (ix2 r k) * Wt (ix2 k s)
  refine Finset.sum_congr rfl fun k _ => ?_
  rw [hx0 p k (ix2 r k) hi0 rfl, hx1 k s]

section RegionA
variable (V : (c : Dev nD) → (b : Ref sig .tc) → Buf (Elt Ideal) ((c : Thread nD τ).loc b))

/-- The two input arrays of the first product as the region finds them, each under its literal type. -/
abbrev xA (c : Dev nD) : S50000x128.Idx → EReal := V c main_arg0
abbrev wA (c : Dev nD) : S128x64.Idx → EReal := V c main_arg2

/-- The printed index maps over the ten grid points: the row blocks of the left operand and of the output are the
    point's number, every other block index is zero. -/
theorem idxA : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000 t … 5000 t + 4999 of its array. -/
theorem iblkA0_apply (c : Dev nD) (t : Fin cfg0.N) (p : Fin 5000) (k : Fin 128) (i : S50000x128.Idx)
    (hi0 : (i 0).val = t.val * 5000 + p.val) (hi1 : (i 1).val = k.val) :
    (iblk0 V c 0 t : Vec Ideal S5000x128 .f32) (ix2 p k) = xA V c i := by
  obtain ⟨e0, e1, -, -, -, -⟩ := idxA t
  unfold iblk0
  rw [View.read_apply]
  show V c main_arg0 _ = V c main_arg0 _
  congr 1
  funext a
  apply Fin.ext
  match a with
  | ⟨0, _⟩ => show win0_0.index t (0 : Fin 2) * 5000 + 1 * p.val = (i 0).val; omega
  | ⟨1, _⟩ => show win0_0.index t (1 : Fin 2) * 128 + 1 * k.val = (i 1).val; omega

/-- The right operand's block at every point is its whole array. -/
theorem iblkA1_apply (c : Dev nD) (t : Fin cfg0.N) (k : Fin 128) (q : Fin 64) :
    (iblk0 V c 1 t : Vec Ideal S128x64 .f32) (ix2 k q) = wA V c (ix2 k q) := by
  obtain ⟨-, -, e2, e3, -, -⟩ := idxA t
  unfold iblk0
  rw [View.read_apply]
  show V c main_arg2 _ = V c main_arg2 _
  congr 1
  funext a
  apply Fin.ext
  match a with
  | ⟨0, _⟩ => show win0_1.index t (0 : Fin 2) * 128 + 1 * k.val = k.val; omega
  | ⟨1, _⟩ => show win0_1.index t (1 : Fin 2) * 64 + 1 * q.val = q.val; omega

/-- What point t writes back is block t of the whole matrix product of the two arrays. -/
theorem flushedA_eq (c : Dev nD) (t : Fin cfg0.N) :
    (dat0 V c).flushed 2 t = ((cfg0.win 2).blk t).view.read (Elt Ideal)
      (matProd (M := 50000) (K := 128) (N := 64) (xA V c) (wA V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨-, -, -, -, e4, e5⟩ := idxA t
  funext j
  rw [View.read_apply]
  refine blockA (xA V c) (wA V c) (iblk0 V c 0 t) (iblk0 V c 1 t) t.val ((win0 2).xinj (grid0.coords t) j)
    (((cfg0.win 2).blk t).view.emb j) (fun p k i' h0 h1 => iblkA0_apply V c t p k i' h0 h1)
    (fun k q => iblkA1_apply V c t k q) ?_ ?_
  · show win0_2.index t (0 : Fin 2) * 5000 + 1 * (j 0).val = t.val * 5000 + (j 0).val; omega
  · show win0_2.index t (1 : Fin 2) * 64 + 1 * (j 1).val = (j 1).val; omega

/-- An index of the output array is in point t's block iff each coordinate is in the block's range on its axis. -/
theorem mem_blkA (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Row r of the output lies in the block of point r / 5000. -/
theorem coverA (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4, e5⟩ := idxA t
  refine ⟨t, flush0_2 t, ?_⟩
  rw [mem_blkA]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array when the region is left: the matrix product of the two arrays as the region found them. -/
theorem finalA (c : Dev nD) :
    (dat0 V c).arrAt 2 cfg0.N = matProd (M := 50000) (K := 128) (N := 64) (xA V c) (wA V c) :=
  (dat0 V c).arrAt_eq_of_cover 2 (matProd (M := 50000) (K := 128) (N := 64) (xA V c) (wA V c))
    (fun t _ => flushedA_eq V c t) coverA

end RegionA

variable (m : (ℓ : Loc nD τ sig) → Buf (Elt Ideal) ℓ) (ρ : Dev nD → PrngReg)

/-- The first linear map: when the first region is left, its output array is the matrix product of the node features
    and the first weight matrix as the region found them. -/
theorem W2_v32 (c : Dev nD) :
    W2 (F := Ideal) m ρ c (Proc.devRef .tc main_v32)
      = matProd (M := 50000) (K := 128) (N := 64) (W1 (F := Ideal) m ρ c (Proc.devRef .tc main_arg0)) (W1 (F := Ideal) m ρ c (Proc.devRef .tc main_arg2)) :=
  (W2_arr m ρ c 2).trans (finalA (V1 m ρ) c)

/-! ## The second product: a block of 5000 rows times the whole 64 × 32 matrix

The operand indices again, axis by axis. -/

theorem lhsB_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhsB_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhsB_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhsB_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The body's product at row p and column q of its block: the sum over k of x(p, k) · w(k, q); the cast of the left
    block to its own shape is the identity, the narrowing of the operands' format changes nothing on the extended
    reals, and the accumulator is zero. -/
theorem payB_apply (x0 : Vec Ideal S5000x64 .f32) (x1 : Vec Ideal S64x32 .f32) (p : Fin 5000) (q : Fin 32) :
    k2_pay1 (F := Ideal) x0 x1 (ix2 p q) = ∑ k : Fin 64, x0 (ix2 p k) * x1 (ix2 k q) := by
  unfold k2_pay1
  refine (Ideal.matmul_constant_zero_apply dot_S5000x64_S64x32_S5000x32_1_0_0_1_n_n none _ _ (ix2 p q)).trans ?_
  rw [← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p q) ((ValueIdx.contrEquiv1 dot_S5000x64_S64x32_S5000x32_1_0_0_1_n_n 64 rfl rfl).symm k) = ix2 p k := funext fun a => Fin.ext (by
    match a with
    | ⟨0, _⟩ => exact lhsB_0 _ _
    | ⟨1, _⟩ => exact (lhsB_1 _ _).trans hk)
  have er : dot_S5000x64_S64x32_S5000x32_1_0_0_1_n_n.rhsIdx (ix2 p q) ((ValueIdx.contrEquiv1 dot_S5000x64_S64x32_S5000x32_1_0_0_1_n_n 64 rfl rfl).symm k) = ix2 k q := funext fun a => Fin.ext (by
    match a with
    | ⟨0, _⟩ => exact (rhsB_0 _ _).trans hk
    | ⟨1, _⟩ => exact rhsB_1 _ _)
  rw [el, er]
  show shapeCast S5000x64 x0 shapeCasts_S5000x64_S5000x64 (ix2 p k) * x1 (ix2 k q) = _
  rw [shapeCast_self]

/-- One entry of a row block's product is the entry of the whole product at the row the block starts at plus the row
    inside the block: the left block is rows 5000 n … of its array, the right block the whole of its. -/
theorem blockB (X : S50000x64.Idx → EReal) (Wt : S64x32.Idx → EReal) (x0 : Vec Ideal S5000x64 .f32) (x1 : Vec Ideal S64x32 .f32)
    (n : Nat) (y : S5000x32.Idx) (i : S50000x32.Idx)
    (hx0 : ∀ (p : Fin 5000) (k : Fin 64) (i' : S50000x64.Idx), (i' 0).val = n * 5000 + p.val → (i' 1).val = k.val → x0 (ix2 p k) = X i')
    (hx1 : ∀ (k : Fin 64) (q : Fin 32), x1 (ix2 k q) = Wt (ix2 k q))
    (hi0 : (i 0).val = n * 5000 + (y 0).val) (hi1 : (i 1).val = (y 1).val) :
    k2_pay1 (F := Ideal) x0 x1 y = matProd (M := 50000) (K := 64) (N := 32) X Wt i := by
  obtain ⟨p, q, rfl⟩ : ∃ (p : Fin 5000) (q : Fin 32), y = ix2 p q := ⟨y 0, y 1, eq_ix2 y⟩
  obtain ⟨r, s, rfl⟩ : ∃ (r : Fin 50000) (s : Fin 32), i = ix2 r s := ⟨i 0, i 1, eq_ix2 i⟩
  have hs : s = q := Fin.ext hi1
  subst hs
  rw [payB_apply]
  show _ = ∑ k : Fin 64, X (ix2 r k) * Wt (ix2 k s)
  refine Finset.sum_congr rfl fun k _ => ?_
  rw [hx0 p k (ix2 r k) hi0 rfl, hx1 k s]

section RegionB
variable (V : (c : Dev nD) → (b : Ref sig .tc) → Buf (Elt Ideal) ((c : Thread nD τ).loc b))

/-- The two input arrays of the second product as the region finds them, each under its literal type. -/
abbrev xB (c : Dev nD) : S50000x64.Idx → EReal := V c main_v46
abbrev wB (c : Dev nD) : S64x32.Idx → EReal := V c main_arg4

/-- The printed index maps over the ten grid points: the row blocks of the left operand and of the output are the
    point's number, every other block index is zero. -/
theorem idxB : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 5000 t … 5000 t + 4999 of its array. -/
theorem iblkB0_apply (c : Dev nD) (t : Fin cfg2.N) (p : Fin 5000) (k : Fin 64) (i : S50000x64.Idx)
    (hi0 : (i 0).val = t.val * 5000 + p.val) (hi1 : (i 1).val = k.val) :
    (iblk2 V c 0 t : Vec Ideal S5000x64 .f32) (ix2 p k) = xB V c i := by
  obtain ⟨e0, e1, -, -, -, -⟩ := idxB t
  unfold iblk2
  rw [View.read_apply]
  show V c main_v46 _ = V c main_v46 _
  congr 1
  funext a
  apply Fin.ext
  match a with
  | ⟨0, _⟩ => show win2_0.index t (0 : Fin 2) * 5000 + 1 * p.val = (i 0).val; omega
  | ⟨1, _⟩ => show win2_0.index t (1 : Fin 2) * 64 + 1 * k.val = (i 1).val; omega

/-- The right operand's block at every point is its whole array. -/
theorem iblkB1_apply (c : Dev nD) (t : Fin cfg2.N) (k : Fin 64) (q : Fin 32) :
    (iblk2 V c 1 t : Vec Ideal S64x32 .f32) (ix2 k q) = wB V c (ix2 k q) := by
  obtain ⟨-, -, e2, e3, -, -⟩ := idxB t
  unfold iblk2
  rw [View.read_apply]
  show V c main_arg4 _ = V c main_arg4 _
  congr 1
  funext a
  apply Fin.ext
  match a with
  | ⟨0, _⟩ => show win2_1.index t (0 : Fin 2) * 64 + 1 * k.val = k.val; omega
  | ⟨1, _⟩ => show win2_1.index t (1 : Fin 2) * 32 + 1 * q.val = q.val; omega

/-- What point t writes back is block t of the whole matrix product of the two arrays. -/
theorem flushedB_eq (c : Dev nD) (t : Fin cfg2.N) :
    (dat2 V c).flushed 2 t = ((cfg2.win 2).blk t).view.read (Elt Ideal)
      (matProd (M := 50000) (K := 64) (N := 32) (xB V c) (wB V c)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x32) hz]
  obtain ⟨-, -, -, -, e4, e5⟩ := idxB t
  funext j
  rw [View.read_apply]
  refine blockB (xB V c) (wB V c) (iblk2 V c 0 t) (iblk2 V c 1 t) t.val ((win2 2).xinj (grid2.coords t) j)
    (((cfg2.win 2).blk t).view.emb j) (fun p k i' h0 h1 => iblkB0_apply V c t p k i' h0 h1)
    (fun k q => iblkB1_apply V c t k q) ?_ ?_
  · show win2_2.index t (0 : Fin 2) * 5000 + 1 * (j 0).val = t.val * 5000 + (j 0).val; omega
  · show win2_2.index t (1 : Fin 2) * 32 + 1 * (j 1).val = (j 1).val; omega

/-- An index of the output array is in point t's block iff each coordinate is in the block's range on its axis. -/
theorem mem_blkB (t : Fin cfg2.N) (i : S50000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v47).slice (win2_2.rect t)).set ↔ _
  rw [View.set_slice_whole, Rect.mem_set_unit]
  exact Iff.rfl

/-- Row r of the output lies in the block of point r / 5000. -/
theorem coverB (i : S50000x32.Idx) : ∃ t : Fin cfg2.N, (cfg2.win 2).flush t = true ∧ i ∈ ((cfg2.win 2).blk t).view.set := by
  have hi0 : (i 0).val < 50000 := (i 0).isLt
  have hi1 : (i 1).val < 32 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, e4, e5⟩ := idxB t
  refine ⟨t, flush2_2 t, ?_⟩
  rw [mem_blkB]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- The output array when the region is left: the matrix product of the two arrays as the region found them. -/
theorem finalB (c : Dev nD) :
    (dat2 V c).arrAt 2 cfg2.N = matProd (M := 50000) (K := 64) (N := 32) (xB V c) (wB V c) :=
  (dat2 V c).arrAt_eq_of_cover 2 (matProd (M := 50000) (K := 64) (N := 32) (xB V c) (wB V c))
    (fun t _ => flushedB_eq V c t) coverB

end RegionB

/-- The second linear map: the third region's output array is the matrix product of the first layer's activations
    and the second weight matrix as the region found them. -/
theorem W6_v47 (c : Dev nD) :
    W6 (F := Ideal) m ρ c (Proc.devRef .tc main_v47)
      = matProd (M := 50000) (K := 64) (N := 32) (W5 (F := Ideal) m ρ c (Proc.devRef .tc main_v46)) (W5 (F := Ideal) m ρ c (Proc.devRef .tc main_arg4)) :=
  (W6_arr m ρ c 2).trans (finalB (V5 m ρ) c)

end Cert.KernelIdeal.StageMat

end
-- ==== Proof.StageBias.lean ====
/-
  The two bias regions of the kernel program, each read as ONE whole-array function: every grid point adds the bias row to a
  block of 5000 rows (and, in the first layer, takes the positive part); the blocks tile the rows.
-/
import proofs.«415556_j15367392985223_2_alg».proof.Proof.Gen.KernelIdeal.Frame
import proofs.«415556_j15367392985223_2_alg».proof.Proof.Spec
import Idealize.ShloMosaic.Lib.Pipeline.Value
import Idealize.ShloMosaic.PureOps.Ideal.Laws
import Idealize.ShloMosaic.Lib.ValueLayout
set_option maxRecDepth 16384

noncomputable section

namespace Cert.KernelIdeal.StageBias

open Cert.KernelIdeal Cert.KernelIdeal.Gen Cert.Spec
open Idealize.ShloMosaic Idealize.ShloMosaic.TcCoe Idealize.ShloMosaic.ValueIdx Idealize.SL.Sem

variable (V : (c : Dev nD) → (b : Ref sig .tc) → Buf (Elt Ideal) ((c : Thread nD τ).loc b))
variable (m : (ℓ : Loc nD τ sig) → Buf (Elt Ideal) ℓ) (ρ : Dev nD → PrngReg)

/-- The whole-block rectangle's offsets are zero. -/
theorem zero_off : (![0, 0] : Fin 2 → Nat) = fun _ => 0 := funext fun a => by fin_cases a <;> rfl

/-! ## The first layer's bias region -/

/-- The body at an entry: the block's entry plus the bias row's entry in the same column, then the positive part. -/
theorem reluPay_apply (x0 : Vec Ideal S5000x64 .f32) (x1 : Vec Ideal S1x64 .f32) (p : Fin 5000) (q : Fin 64) :
    k1_pay1 (F := Ideal) x0 x1 (ix2 p q) = max (x0 (ix2 p q) + x1 (ix2 0 q)) 0 := by
  unfold k1_pay1
  rw [maximumf_apply, addf_apply, broadcast_apply, shapeCast_self, shapeCast_self, shapeCast_self,
    Ideal.ofBits_def, Ideal.ofBits_zero_f32,
    broadcastTo_apply x1 broadcasts_S1x64_S5000x64 (ix2 p q) (ix2 0 q)
      (fun a => by match a with | ⟨0, _⟩ => rfl | ⟨1, _⟩ => rfl)]

/-- The body on a block of the aggregate and on the bias row, at an entry of the block, is the whole-array function at
    the entry of the array the block's entry sits at. -/
theorem reluPay_block (x0 : Vec Ideal S5000x64 .f32) (x1 : Vec Ideal S1x64 .f32)
    (A : Vec Ideal S50000x64 .f32) (B : Vec Ideal S1x64 .f32) (y : S5000x64.Idx) (i : S50000x64.Idx)
    (h0 : x0 y = A i) (h1 : x1 (ix2 0 (y 1)) = B (ix2 0 (i 1))) :
    k1_pay1 (F := Ideal) x0 x1 y = addRowRelu (M := 50000) (N := 64) A B i := by
  obtain ⟨p, q, rfl⟩ : ∃ (p : Fin 5000) (q : Fin 64), y = ix2 p q := ⟨y 0, y 1, eq_ix2 y⟩
  rw [reluPay_apply, h0]
  show max (A i + x1 (ix2 0 q)) 0 = max (A i + B (ix2 0 (i 1))) 0
  rw [← h1]

/-- The printed index maps over the grid: the aggregate's and the output's blocks move down the rows with the point,
    the bias row stays. -/
theorem relu_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What a point writes back is its block of the whole-array function of the region's two input arrays. -/
theorem relu_flushed (c : Dev nD) (t : Fin cfg1.N) :
    (dat1 V c).flushed 2 t = ((cfg1.win 2).blk t).view.read (Elt Ideal)
      (addRowRelu (M := 50000) (N := 64) (V c main_v44) (V c main_v45)) := by
  show (cfg1.win 2).cut (grid1.coords t) ((dat1 V c).after 2 t) = _
  rw [after1_2]
  unfold out1_2
  rw [View.canon_unit_zero zero_off]
  simp only [View.ld_unit_zero (S := S5000x64) zero_off, View.ld_unit_zero (S := S1x64) zero_off]
  obtain ⟨e00, e01, e10, e11, e20, e21⟩ := relu_idx t
  funext j
  show k1_pay1 (F := Ideal) (iblk1 V c 0 t) (iblk1 V c 1 t) j
    = addRowRelu (M := 50000) (N := 64) (V c main_v44) (V c main_v45) (((cfg1.win 2).blk t).view.emb j)
  refine reluPay_block (iblk1 V c 0 t) (iblk1 V c 1 t) (V c main_v44) (V c main_v45) j (((cfg1.win 2).blk t).view.emb j) ?_ ?_
  · show V c main_v44 (((cfg1.win 0).blk t).view.emb j) = V c main_v44 (((cfg1.win 2).blk t).view.emb j)
    refine congrArg (V c main_v44) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  · show V c main_v45 (((cfg1.win 1).blk t).view.emb (ix2 0 (j 1))) = V c main_v45 (ix2 0 ((((cfg1.win 2).blk t).view.emb j) 1))
    refine congrArg (V c main_v45) (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega

/-- An entry of the output array is in a point's block iff each coordinate is in the block's range on its axis. -/
theorem relu_mem_blk (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v46).slice (win1_2.rect t)).set ↔ _
  rw [View.set_slice_whole, Rect.mem_set_unit]
  exact Iff.rfl

/-- The blocks tile the rows: row r is in the block of point r / 5000. -/
theorem relu_cover (i : S50000x64.Idx) :
    ∃ t : Fin cfg1.N, (cfg1.win 2).flush t = true ∧ i ∈ ((cfg1.win 2).blk t).view.set := by
  have hi0 : (i 0).val < 50000 := idx2_lt0 i
  have hi1 : (i 1).val < 64 := idx2_lt1 i
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, e20, e21⟩ := relu_idx t
  refine ⟨t, flush1_2 t, ?_⟩
  rw [relu_mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- So the region leaves the whole-array function of its two input arrays in its output array. -/
theorem relu_final (c : Dev nD) :
    (dat1 V c).arrAt 2 cfg1.N = addRowRelu (M := 50000) (N := 64) (V c main_v44) (V c main_v45) :=
  (dat1 V c).arrAt_eq_of_cover 2 (addRowRelu (M := 50000) (N := 64) (V c main_v44) (V c main_v45))
    (fun t _ => relu_flushed V c t) relu_cover

/-- The first layer's bias and positive part: the second region's output is max(aggregate + bias row, 0), entry by entry. -/
theorem W5_v46 (c : Dev nD) :
    W5 (F := Ideal) m ρ c (Proc.devRef .tc main_v46)
      = addRowRelu (M := 50000) (N := 64) (W4 (F := Ideal) m ρ c (Proc.devRef .tc main_v44)) (W4 (F := Ideal) m ρ c (Proc.devRef .tc main_v45)) :=
  (W5_arr m ρ c 2).trans (relu_final (V4 m ρ) c)

/-! ## The second layer's bias region -/

/-- The body at an entry: the block's entry plus the bias row's entry in the same column. -/
theorem biasPay_apply (x0 : Vec Ideal S5000x32 .f32) (x1 : Vec Ideal S1x32 .f32) (p : Fin 5000) (q : Fin 32) :
    k3_pay1 (F := Ideal) x0 x1 (ix2 p q) = x0 (ix2 p q) + x1 (ix2 0 q) := by
  unfold k3_pay1
  rw [addf_apply, shapeCast_self, shapeCast_self, shapeCast_self,
    broadcastTo_apply x1 broadcasts_S1x32_S5000x32 (ix2 p q) (ix2 0 q)
      (fun a => by match a with | ⟨0, _⟩ => rfl | ⟨1, _⟩ => rfl)]

/-- The body on a block of the aggregate and on the bias row, at an entry of the block, is the whole-array function at
    the entry of the array the block's entry sits at. -/
theorem biasPay_block (x0 : Vec Ideal S5000x32 .f32) (x1 : Vec Ideal S1x32 .f32)
    (A : Vec Ideal S50000x32 .f32) (B : Vec Ideal S1x32 .f32) (y : S5000x32.Idx) (i : S50000x32.Idx)
    (h0 : x0 y = A i) (h1 : x1 (ix2 0 (y 1)) = B (ix2 0 (i 1))) :
    k3_pay1 (F := Ideal) x0 x1 y = addRow (M := 50000) (N := 32) A B i := by
  obtain ⟨p, q, rfl⟩ : ∃ (p : Fin 5000) (q : Fin 32), y = ix2 p q := ⟨y 0, y 1, eq_ix2 y⟩
  rw [biasPay_apply, h0]
  show A i + x1 (ix2 0 q) = A i + B (ix2 0 (i 1))
  rw [← h1]

/-- The printed index maps over the grid: the aggregate's and the output's blocks move down the rows with the point,
    the bias row stays. -/
theorem bias_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What a point writes back is its block of the whole-array function of the region's two input arrays. -/
theorem bias_flushed (c : Dev nD) (t : Fin cfg3.N) :
    (dat3 V c).flushed 2 t = ((cfg3.win 2).blk t).view.read (Elt Ideal)
      (addRow (M := 50000) (N := 32) (V c main_v59) (V c main_v60)) := by
  show (cfg3.win 2).cut (grid3.coords t) ((dat3 V c).after 2 t) = _
  rw [after3_2]
  unfold out3_2
  rw [View.canon_unit_zero zero_off]
  simp only [View.ld_unit_zero (S := S5000x32) zero_off, View.ld_unit_zero (S := S1x32) zero_off]
  obtain ⟨e00, e01, e10, e11, e20, e21⟩ := bias_idx t
  funext j
  show k3_pay1 (F := Ideal) (iblk3 V c 0 t) (iblk3 V c 1 t) j
    = addRow (M := 50000) (N := 32) (V c main_v59) (V c main_v60) (((cfg3.win 2).blk t).view.emb j)
  refine biasPay_block (iblk3 V c 0 t) (iblk3 V c 1 t) (V c main_v59) (V c main_v60) j (((cfg3.win 2).blk t).view.emb j) ?_ ?_
  · show V c main_v59 (((cfg3.win 0).blk t).view.emb j) = V c main_v59 (((cfg3.win 2).blk t).view.emb j)
    refine congrArg (V c main_v59) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 32 + 1 * (j 1).val = win3_2.index t (1 : Fin 2) * 32 + 1 * (j 1).val; omega
  · show V c main_v60 (((cfg3.win 1).blk t).view.emb (ix2 0 (j 1))) = V c main_v60 (ix2 0 ((((cfg3.win 2).blk t).view.emb j) 1))
    refine congrArg (V c main_v60) (funext fun a => Fin.ext ?_)
    match a with
    | ⟨0, _⟩ => show win3_1.index t (0 : Fin 2) * 1 + 1 * 0 = 0; omega
    | ⟨1, _⟩ => show win3_1.index t (1 : Fin 2) * 32 + 1 * (j 1).val = win3_2.index t (1 : Fin 2) * 32 + 1 * (j 1).val; omega

/-- An entry of the output array is in a point's block iff each coordinate is in the block's range on its axis. -/
theorem bias_mem_blk (t : Fin cfg3.N) (i : S50000x32.Idx) :
    i ∈ ((cfg3.win 2).blk t).view.set ↔ ∀ a : Fin 2, win3_2.index t a * S5000x32.size a ≤ (i a).val
      ∧ (i a).val < win3_2.index t a * S5000x32.size a + S5000x32.size a := by
  show i ∈ ((View.whole main_v61).slice (win3_2.rect t)).set ↔ _
  rw [View.set_slice_whole, Rect.mem_set_unit]
  exact Iff.rfl

/-- The blocks tile the rows: row r is in the block of point r / 5000. -/
theorem bias_cover (i : S50000x32.Idx) :
    ∃ t : Fin cfg3.N, (cfg3.win 2).flush t = true ∧ i ∈ ((cfg3.win 2).blk t).view.set := by
  have hi0 : (i 0).val < 50000 := idx2_lt0 i
  have hi1 : (i 1).val < 32 := idx2_lt1 i
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, e20, e21⟩ := bias_idx t
  refine ⟨t, flush3_2 t, ?_⟩
  rw [bias_mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- So the region leaves the whole-array function of its two input arrays in its output array. -/
theorem bias_final (c : Dev nD) :
    (dat3 V c).arrAt 2 cfg3.N = addRow (M := 50000) (N := 32) (V c main_v59) (V c main_v60) :=
  (dat3 V c).arrAt_eq_of_cover 2 (addRow (M := 50000) (N := 32) (V c main_v59) (V c main_v60))
    (fun t _ => bias_flushed V c t) bias_cover

/-- The second layer's bias: the fourth region's output is aggregate + bias row, entry by entry. -/
theorem W9_v61 (c : Dev nD) :
    W9 (F := Ideal) m ρ c (Proc.devRef .tc main_v61)
      = addRow (M := 50000) (N := 32) (W8 (F := Ideal) m ρ c (Proc.devRef .tc main_v59)) (W8 (F := Ideal) m ρ c (Proc.devRef .tc main_v60)) :=
  (W9_arr m ρ c 2).trans (bias_final (V8 m ρ) c)

end Cert.KernelIdeal.StageBias

end
-- ==== Proof.StageCombine.lean ====
/-
  The last region of the kernel program read as ONE whole-array function: every grid point takes a block of 1000 rows of the
  neighbour means and of the drug features and forms (mean · Wl + bl) + x_drug · Wr; the blocks tile the rows.
-/
import proofs.«415556_j15367392985223_2_alg».proof.Proof.Gen.KernelIdeal.Frame
import proofs.«415556_j15367392985223_2_alg».proof.Proof.Spec
import Idealize.ShloMosaic.Lib.Pipeline.Value
import Idealize.ShloMosaic.PureOps.Ideal.Laws
import Idealize.ShloMosaic.Lib.ValueLayout
set_option maxRecDepth 16384

noncomputable section

namespace Cert.KernelIdeal.StageCombine

open Cert.KernelIdeal Cert.KernelIdeal.Gen Cert.Spec
open Idealize.ShloMosaic Idealize.ShloMosaic.TcCoe Idealize.ShloMosaic.ValueIdx Idealize.SL.Sem

/-! ## The two block products at an index

Each of the body's two matrix products contracts one axis: at row p and column q it is the sum over k of the left
operand at (p, k) times the right operand at (k, q); the narrowing of the operands changes nothing over the extended reals. -/

theorem lhsMean_0 (i : S1000x64.Idx) (q : dot_S1000x32_S32x64_S1000x64_1_0_0_1_n_n.contr.Idx) :
    (dot_S1000x32_S32x64_S1000x64_1_0_0_1_n_n.lhsIdx i q 0).val = (i 0).val := by
  unfold DotDims.lhsIdx
  rw [dif_neg (show ¬(0 : Fin S1000x32.rank) ∈ dot_S1000x32_S32x64_S1000x64_1_0_0_1_n_n.lhsBatch by decide), dif_pos (show (0 : Fin S1000x32.rank) ∈ dot_S1000x32_S32x64_S1000x64_1_0_0_1_n_n.lhsNonContracting by decide)]
  rfl
theorem lhsMean_1 (i : S1000x64.Idx) (q : dot_S1000x32_S32x64_S1000x64_1_0_0_1_n_n.contr.Idx) :
    (dot_S1000x32_S32x64_S1000x64_1_0_0_1_n_n.lhsIdx i q 1).val = (q ⟨0, by decide⟩).val :=
  dot_S1000x32_S32x64_S1000x64_1_0_0_1_n_n.lhsIdx_val_of_single rfl i q
theorem rhsMean_0 (i : S1000x64.Idx) (q : dot_S1000x32_S32x64_S1000x64_1_0_0_1_n_n.contr.Idx) :
    (dot_S1000x32_S32x64_S1000x64_1_0_0_1_n_n.rhsIdx i q 0).val = (q ⟨0, by decide⟩).val :=
  dot_S1000x32_S32x64_S1000x64_1_0_0_1_n_n.rhsIdx_val_of_single rfl i q
theorem rhsMean_1 (i : S1000x64.Idx) (q : dot_S1000x32_S32x64_S1000x64_1_0_0_1_n_n.contr.Idx) :
    (dot_S1000x32_S32x64_S1000x64_1_0_0_1_n_n.rhsIdx i q 1).val = (i 1).val := by
  unfold DotDims.rhsIdx
  rw [dif_neg (show ¬(1 : Fin S32x64.rank) ∈ dot_S1000x32_S32x64_S1000x64_1_0_0_1_n_n.rhsBatch by decide), dif_pos (show (1 : Fin S32x64.rank) ∈ dot_S1000x32_S32x64_S1000x64_1_0_0_1_n_n.rhsNonContracting by decide)]
  rfl

/-- The product of the block of means with the left weights, at (p, q). -/
theorem prodMean_apply (x : FVec Ideal S1000x32 .f32) (w : FVec Ideal S32x64 .f32) (p : Fin 1000) (q : Fin 64) :
    FloatOps.matmul dot_S1000x32_S32x64_S1000x64_1_0_0_1_n_n none (truncf .bf16 x bitsLt_bf16_f32) (truncf .bf16 w bitsLt_bf16_f32)
        (constant S1000x64 .f32 0x00000000#32) (ix2 p q)
      = ∑ k : Fin 32, x (ix2 p k) * w (ix2 k q) := by
  rw [Ideal.matmul_constant_zero_apply, ← Equiv.sum_comp (ValueIdx.contrEquiv1 dot_S1000x32_S32x64_S1000x64_1_0_0_1_n_n 32 rfl rfl).symm]
  refine Finset.sum_congr rfl fun k _ => ?_
  have hk := ValueIdx.contrEquiv1_symm_val dot_S1000x32_S32x64_S1000x64_1_0_0_1_n_n 32 rfl rfl k
  have el : dot_S1000x32_S32x64_S1000x64_1_0_0_1_n_n.lhsIdx (ix2 p q) ((ValueIdx.contrEquiv1 dot_S1000x32_S32x64_S1000x64_1_0_0_1_n_n 32 rfl rfl).symm k) = ix2 p k := funext fun a => Fin.ext (by
    match a with
    | ⟨0, _⟩ => exact lhsMean_0 _ _
    | ⟨1, _⟩ => exact (lhsMean_1 _ _).trans hk)
  have er : dot_S1000x32_S32x64_S1000x64_1_0_0_1_n_n.rhsIdx (ix2 p q) ((ValueIdx.contrEquiv1 dot_S1000x32_S32x64_S1000x64_1_0_0_1_n_n 32 rfl rfl).symm k) = ix2 k q := funext fun a => Fin.ext (by
    match a with
    | ⟨0, _⟩ => exact (rhsMean_0 _ _).trans hk
    | ⟨1, _⟩ => exact rhsMean_1 _ _)
  rw [el, er]
  rfl

theorem lhsDrug_0 (i : S1000x64.Idx) (q : dot_S1000x128_S128x64_S1000x64_1_0_0_1_n_n.contr.Idx) :
    (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem lhsDrug_1 (i : S1000x64.Idx) (q : dot_S1000x128_S128x64_S1000x64_1_0_0_1_n_n.contr.Idx) :
    (dot_S1000x128_S128x64_S1000x64_1_0_0_1_n_n.lhsIdx i q 1).val = (q ⟨0, by decide⟩).val :=
  dot_S1000x128_S128x64_S1000x64_1_0_0_1_n_n.lhsIdx_val_of_single rfl i q
theorem rhsDrug_0 (i : S1000x64.Idx) (q : dot_S1000x128_S128x64_S1000x64_1_0_0_1_n_n.contr.Idx) :
    (dot_S1000x128_S128x64_S1000x64_1_0_0_1_n_n.rhsIdx i q 0).val = (q ⟨0, by decide⟩).val :=
  dot_S1000x128_S128x64_S1000x64_1_0_0_1_n_n.rhsIdx_val_of_single rfl i q
theorem rhsDrug_1 (i : S1000x64.Idx) (q : dot_S1000x128_S128x64_S1000x64_1_0_0_1_n_n.contr.Idx) :
    (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- The product of the block of drug features with the right weights, at (p, q). -/
theorem prodDrug_apply (x : FVec Ideal S1000x128 .f32) (w : FVec Ideal S128x64 .f32) (p : Fin 1000) (q : Fin 64) :
    FloatOps.matmul dot_S1000x128_S128x64_S1000x64_1_0_0_1_n_n none (truncf .bf16 x bitsLt_bf16_f32) (truncf .bf16 w bitsLt_bf16_f32)
        (constant S1000x64 .f32 0x00000000#32) (ix2 p q)
      = ∑ k : Fin 128, x (ix2 p k) * w (ix2 k q) := by
  rw [Ideal.matmul_constant_zero_apply, ← Equiv.sum_comp (ValueIdx.contrEquiv1 dot_S1000x128_S128x64_S1000x64_1_0_0_1_n_n 128 rfl rfl).symm]
  refine Finset.sum_congr rfl fun k _ => ?_
  have hk := ValueIdx.contrEquiv1_symm_val dot_S1000x128_S128x64_S1000x64_1_0_0_1_n_n 128 rfl rfl k
  have el : dot_S1000x128_S128x64_S1000x64_1_0_0_1_n_n.lhsIdx (ix2 p q) ((ValueIdx.contrEquiv1 dot_S1000x128_S128x64_S1000x64_1_0_0_1_n_n 128 rfl rfl).symm k) = ix2 p k := funext fun a => Fin.ext (by
    match a with
    | ⟨0, _⟩ => exact lhsDrug_0 _ _
    | ⟨1, _⟩ => exact (lhsDrug_1 _ _).trans hk)
  have er : dot_S1000x128_S128x64_S1000x64_1_0_0_1_n_n.rhsIdx (ix2 p q) ((ValueIdx.contrEquiv1 dot_S1000x128_S128x64_S1000x64_1_0_0_1_n_n 128 rfl rfl).symm k) = ix2 k q := funext fun a => Fin.ext (by
    match a with
    | ⟨0, _⟩ => exact (rhsDrug_0 _ _).trans hk
    | ⟨1, _⟩ => exact rhsDrug_1 _ _)
  rw [el, er]
  rfl

/-- The bias row spread over the block's rows, at (p, q): the row's entry q. -/
theorem biasRow_apply (b : Vec Ideal S1x64 .f32) (p : Fin 1000) (q : Fin 64) :
    broadcastTo S1000x64 b broadcasts_S1x64_S1000x64 (ix2 p q) = b (ix2 (0 : Fin 1) q) :=
  broadcastTo_apply b broadcasts_S1x64_S1000x64 (ix2 p q) (ix2 (0 : Fin 1) q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-! ## The body's payload at an index -/

/-- What the body stores, at row p and column q of its block: (mean · Wl)(p, q) + bl(q) + (x_drug · Wr)(p, q). -/
theorem payload_apply (v0 : Vec Ideal S1000x32 .f32) (v3 : Vec Ideal S32x64 .f32) (v5 : Vec Ideal S1000x128 .f32)
    (v7 : Vec Ideal S128x64 .f32) (v10 : Vec Ideal S1x64 .f32) (p : Fin 1000) (q : Fin 64) :
    k4_pay1 (F := Ideal) v0 v3 v5 v7 v10 (ix2 p q)
      = (∑ k : Fin 32, v0 (ix2 p k) * v3 (ix2 k q)) + v10 (ix2 (0 : Fin 1) q) + ∑ k : Fin 128, v5 (ix2 p k) * v7 (ix2 k q) := by
  have e0 : shapeCast S1000x32 v0 shapeCasts_S1000x32_S1000x32 = v0 := shapeCast_self v0 _
  have e10 : shapeCast S1x64 (shapeCast S1x64 v10 shapeCasts_S1x64_S1x64) shapeCasts_S1x64_S1x64 = v10 :=
    (shapeCast_self _ _).trans (shapeCast_self v10 _)
  have hA := (prodMean_apply (shapeCast S1000x32 v0 shapeCasts_S1000x32_S1000x32) v3 p q).trans
    (congrArg (fun x : Vec Ideal S1000x32 .f32 => ∑ k : Fin 32, x (ix2 p k) * v3 (ix2 k q)) e0)
  have hB := prodDrug_apply v5 v7 p q
  have hb := (biasRow_apply (shapeCast S1x64 (shapeCast S1x64 v10 shapeCasts_S1x64_S1x64) shapeCasts_S1x64_S1x64) p q).trans
    (congrArg (fun x : Vec Ideal S1x64 .f32 => x (ix2 (0 : Fin 1) q)) e10)
  unfold k4_pay1
  exact congrArg₂ (· + ·) (congrArg₂ (· + ·) hA hb) hB

/-! ## One grid point: the block written back is a block of one whole-array function -/

theorem zeroOffsets : (![0, 0] : Fin 2 → Nat) = fun _ => 0 := funext fun a => by fin_cases a <;> rfl

/-- The body loads its five whole staging blocks and stores one value over its whole output block. -/
theorem out_eq {F : FTy → Type} [FloatOps F] (x0 : Vec F S1000x32 .f32) (x1 : Vec F S1000x128 .f32) (x2 : Vec F S32x64 .f32)
    (x3 : Vec F S1x64 .f32) (x4 : Vec F S128x64 .f32) :
    out4_5 x0 x1 x2 x3 x4 = k4_pay1 x0 x2 x1 x4 x3 := by
  unfold out4_5
  rw [View.canon_unit_zero zeroOffsets]
  simp only [View.ld_unit_zero (S := S1000x32) zeroOffsets, View.ld_unit_zero (S := S32x64) zeroOffsets,
    View.ld_unit_zero (S := S1000x128) zeroOffsets, View.ld_unit_zero (S := S128x64) zeroOffsets,
    View.ld_unit_zero (S := S1x64) zeroOffsets]

/-- Row r of block b of an array of 5000 rows cut into blocks of 1000. -/
abbrev rowAt (b : Nat) (hb : b < 5) (r : Fin 1000) : Fin 5000 := ⟨b * 1000 + r.val, by omega⟩

/-- If the two row-blocked operands are block b of two arrays and the three others are whole arrays, the payload at
    (p, q) is the combined layer of the arrays at row b · 1000 + p, column q. -/
theorem point_eq (A0 : S5000x32.Idx → EReal) (A1 : S5000x128.Idx → EReal) (A2 : S32x64.Idx → EReal) (A3 : S1x64.Idx → EReal)
    (A4 : S128x64.Idx → EReal)
    (x0 : Vec Ideal S1000x32 .f32) (x1 : Vec Ideal S1000x128 .f32) (x2 : Vec Ideal S32x64 .f32) (x3 : Vec Ideal S1x64 .f32)
    (x4 : Vec Ideal S128x64 .f32) (b : Nat) (hb : b < 5)
    (h0 : ∀ (p : Fin 1000) (k : Fin 32), x0 (ix2 p k) = A0 (ix2 (rowAt b hb p) k))
    (h1 : ∀ (p : Fin 1000) (k : Fin 128), x1 (ix2 p k) = A1 (ix2 (rowAt b hb p) k))
    (h2 : x2 = A2) (h3 : x3 = A3) (h4 : x4 = A4) (y : S1000x64.Idx) :
    k4_pay1 (F := Ideal) x0 x2 x1 x4 x3 y
      = combine (M := 5000) (K₁ := 32) (K₂ := 128) (N := 64) A0 A1 A2 A3 A4 (ix2 (rowAt b hb (y 0)) (y 1)) := by
  obtain ⟨p, q, rfl⟩ : ∃ (p : Fin 1000) (q : Fin 64), y = ix2 p q := ⟨y 0, y 1, eq_ix2 y⟩
  subst h2 h3 h4
  refine (payload_apply x0 x2 x1 x4 x3 p q).trans ?_
  unfold combine
  simp only [h0, h1]

/-! ## The windows' blocks as parts of their arrays -/

/-- The printed index maps over the five grid points: the three row-blocked windows (means, drug features, result)
    sit at block (t, 0), the three whole windows at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem point_lt (t : Fin cfg4.N) : t.val < 5 := by
  have h : cfg4.N = 5 := N_4
  have ht : t.val < cfg4.N := t.isLt
  omega

section Blocks

variable (V : (c : Dev nD) → (b : Ref sig .tc) → Buf (Elt Ideal) ((c : Thread nD τ).loc b))

/-- The arrays the region reads, as it finds them, each at its literal shape. -/
abbrev meanArr (c : Dev nD) : S5000x32.Idx → EReal := V c main_v84
abbrev drugArr (c : Dev nD) : S5000x128.Idx → EReal := V c main_arg1
abbrev wlArr (c : Dev nD) : S32x64.Idx → EReal := V c main_arg6
abbrev blArr (c : Dev nD) : S1x64.Idx → EReal := V c main_v85
abbrev wrArr (c : Dev nD) : S128x64.Idx → EReal := V c main_arg8

/-- The whole-array function the region's output ends holding. -/
abbrev whole (c : Dev nD) : S5000x64.Idx → EReal :=
  combine (M := 5000) (K₁ := 32) (K₂ := 128) (N := 64) (meanArr V c) (drugArr V c) (wlArr V c) (blArr V c) (wrArr V c)

/-- The block of means at point t is rows t · 1000 … of the array of means. -/
theorem meanBlk_apply (c : Dev nD) (t : Fin cfg4.N) (p : Fin 1000) (k : Fin 32) :
    (iblk4 V c 0 t : Vec Ideal S1000x32 .f32) (ix2 p k) = meanArr V c (ix2 (rowAt t.val (point_lt t) p) k) := by
  obtain ⟨e0, e1, -⟩ := idx_facts t
  unfold iblk4
  rw [View.read_apply]
  show V c main_v84 _ = V c main_v84 _
  congr 1
  funext a
  apply Fin.ext
  match a with
  | ⟨0, _⟩ => show win4_0.index t (0 : Fin 2) * 1000 + 1 * p.val = t.val * 1000 + p.val; rw [e0]; omega
  | ⟨1, _⟩ => show win4_0.index t (1 : Fin 2) * 32 + 1 * k.val = k.val; rw [e1]; omega

/-- The block of drug features at point t is rows t · 1000 … of the array of drug features. -/
theorem drugBlk_apply (c : Dev nD) (t : Fin cfg4.N) (p : Fin 1000) (k : Fin 128) :
    (iblk4 V c 1 t : Vec Ideal S1000x128 .f32) (ix2 p k) = drugArr V c (ix2 (rowAt t.val (point_lt t) p) k) := by
  obtain ⟨-, -, e0, e1, -⟩ := idx_facts t
  unfold iblk4
  rw [View.read_apply]
  show V c main_arg1 _ = V c main_arg1 _
  congr 1
  funext a
  apply Fin.ext
  match a with
  | ⟨0, _⟩ => show win4_1.index t (0 : Fin 2) * 1000 + 1 * p.val = t.val * 1000 + p.val; rw [e0]; omega
  | ⟨1, _⟩ => show win4_1.index t (1 : Fin 2) * 128 + 1 * k.val = k.val; rw [e1]; omega

/-- The left weights' window holds the whole array at every point. -/
theorem wlBlk_eq (c : Dev nD) (t : Fin cfg4.N) : (iblk4 V c 2 t : Vec Ideal S32x64 .f32) = wlArr V c := by
  obtain ⟨-, -, -, -, e0, e1, -⟩ := idx_facts t
  funext y
  unfold iblk4
  rw [View.read_apply]
  show V c main_arg6 _ = V c main_arg6 _
  congr 1
  funext a
  apply Fin.ext
  match a with
  | ⟨0, _⟩ => show win4_2.index t (0 : Fin 2) * 32 + 1 * (y 0).val = (y 0).val; rw [e0]; omega
  | ⟨1, _⟩ => show win4_2.index t (1 : Fin 2) * 64 + 1 * (y 1).val = (y 1).val; rw [e1]; omega

/-- The bias row's window holds the whole row at every point. -/
theorem blBlk_eq (c : Dev nD) (t : Fin cfg4.N) : (iblk4 V c 3 t : Vec Ideal S1x64 .f32) = blArr V c := by
  obtain ⟨-, -, -, -, -, -, e0, e1, -⟩ := idx_facts t
  funext y
  unfold iblk4
  rw [View.read_apply]
  show V c main_v85 _ = V c main_v85 _
  congr 1
  funext a
  apply Fin.ext
  match a with
  | ⟨0, _⟩ => show win4_3.index t (0 : Fin 2) * 1 + 1 * (y 0).val = (y 0).val; rw [e0]; omega
  | ⟨1, _⟩ => show win4_3.index t (1 : Fin 2) * 64 + 1 * (y 1).val = (y 1).val; rw [e1]; omega

/-- The right weights' window holds the whole array at every point. -/
theorem wrBlk_eq (c : Dev nD) (t : Fin cfg4.N) : (iblk4 V c 4 t : Vec Ideal S128x64 .f32) = wrArr V c := by
  obtain ⟨-, -, -, -, -, -, -, -, e0, e1, -⟩ := idx_facts t
  funext y
  unfold iblk4
  rw [View.read_apply]
  show V c main_arg8 _ = V c main_arg8 _
  congr 1
  funext a
  apply Fin.ext
  match a with
  | ⟨0, _⟩ => show win4_4.index t (0 : Fin 2) * 128 + 1 * (y 0).val = (y 0).val; rw [e0]; omega
  | ⟨1, _⟩ => show win4_4.index t (1 : Fin 2) * 64 + 1 * (y 1).val = (y 1).val; rw [e1]; omega

/-- What point t writes back is block t of the combined layer of the arrays as the region finds them. -/
theorem flushed_eq (c : Dev nD) (t : Fin cfg4.N) :
    (dat4 V c).flushed 5 t = ((cfg4.win 5).blk t).view.read (Elt Ideal) (whole V c) := by
  show (cfg4.win 5).cut (grid4.coords t) ((dat4 V c).after 5 t) = _
  rw [after4_5, out_eq (iblk4 V c 0 t) (iblk4 V c 1 t) (iblk4 V c 2 t) (iblk4 V c 3 t) (iblk4 V c 4 t)]
  obtain ⟨-, -, -, -, -, -, -, -, -, -, e0, e1⟩ := idx_facts t
  funext j
  show k4_pay1 (F := Ideal) (iblk4 V c 0 t) (iblk4 V c 2 t) (iblk4 V c 1 t) (iblk4 V c 4 t) (iblk4 V c 3 t) j
    = whole V c (((cfg4.win 5).blk t).view.emb j)
  refine (point_eq (meanArr V c) (drugArr V c) (wlArr V c) (blArr V c) (wrArr V c)
    (iblk4 V c 0 t) (iblk4 V c 1 t) (iblk4 V c 2 t) (iblk4 V c 3 t) (iblk4 V c 4 t) t.val (point_lt t)
    (meanBlk_apply V c t) (drugBlk_apply V c t) (wlBlk_eq V c t) (blBlk_eq V c t) (wrBlk_eq V c t) j).trans ?_
  refine congrArg (whole V c) ?_
  funext a
  apply Fin.ext
  match a with
  | ⟨0, _⟩ => show t.val * 1000 + (j 0).val = win4_5.index t (0 : Fin 2) * 1000 + 1 * (j 0).val; rw [e0]; omega
  | ⟨1, _⟩ => show (j 1).val = win4_5.index t (1 : Fin 2) * 64 + 1 * (j 1).val; rw [e1]; omega

/-- An index of the result array is in point t's block iff each coordinate is in the block's range on its axis. -/
theorem mem_blk (t : Fin cfg4.N) (i : S5000x64.Idx) :
    i ∈ ((cfg4.win 5).blk t).view.set ↔ ∀ a : Fin 2, win4_5.index t a * S1000x64.size a ≤ (i a).val
      ∧ (i a).val < win4_5.index t a * S1000x64.size a + S1000x64.size a := by
  show i ∈ ((View.whole main_v86).slice (win4_5.rect t)).set ↔ _
  rw [View.set_slice_whole, Rect.mem_set_unit]
  exact Iff.rfl

/-- Row r of the result is in the block of point r / 1000: the five blocks of 1000 rows tile the 5000 rows. -/
theorem cover (i : S5000x64.Idx) :
    ∃ t : Fin cfg4.N, (cfg4.win 5).flush t = true ∧ i ∈ ((cfg4.win 5).blk t).view.set := by
  have hi0 : (i 0).val < 5000 := idx2_lt0 i
  have hi1 : (i 1).val < 64 := idx2_lt1 i
  have hN : grid4.N = 5 := N_4
  have ht : (i 0).val / 1000 < cfg4.N := by show _ < grid4.N; rw [hN]; omega
  obtain ⟨-, -, -, -, -, -, -, -, -, -, e0, e1⟩ := idx_facts ⟨(i 0).val / 1000, ht⟩
  refine ⟨⟨(i 0).val / 1000, ht⟩, flush4_5 _, ?_⟩
  rw [mem_blk]
  intro a
  match a with
  | ⟨0, _⟩ =>
    show win4_5.index ⟨(i 0).val / 1000, ht⟩ (0 : Fin 2) * 1000 ≤ (i 0).val
      ∧ (i 0).val < win4_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win4_5.index ⟨(i 0).val / 1000, ht⟩ (1 : Fin 2) * 64 ≤ (i 1).val
      ∧ (i 1).val < win4_5.index ⟨(i 0).val / 1000, ht⟩ (1 : Fin 2) * 64 + 64
    rw [e1]; omega

/-- After the region the result array holds the combined layer of the arrays the region found, whatever they were. -/
theorem region_eq (c : Dev nD) : (dat4 V c).arrAt 5 cfg4.N = whole V c :=
  (dat4 V c).arrAt_eq_of_cover 5 (whole V c) (fun t _ => flushed_eq V c t) cover

end Blocks

variable (m : (ℓ : Loc nD τ sig) → Buf (Elt Ideal) ℓ) (ρ : Dev nD → PrngReg)

/-- The bipartite layer: the fifth region's output is (mean · Wl + bl) + x_drug · Wr, entry by entry. -/
theorem W12_v86 (c : Dev nD) :
    W12 (F := Ideal) m ρ c (Proc.devRef .tc main_v86)
      = combine (M := 5000) (K₁ := 32) (K₂ := 128) (N := 64) (W11 (F := Ideal) m ρ c (Proc.devRef .tc main_v84)) (W11 (F := Ideal) m ρ c (Proc.devRef .tc main_arg1))
          (W11 (F := Ideal) m ρ c (Proc.devRef .tc main_arg6)) (W11 (F := Ideal) m ρ c (Proc.devRef .tc main_v85)) (W11 (F := Ideal) m ρ c (Proc.devRef .tc main_arg8)) :=
  (W12_arr m ρ c 5).trans (region_eq (V11 m ρ) c)

end Cert.KernelIdeal.StageCombine

end
-- ==== Proof.Bridge.lean ====
/-
  The idealized kernel program's two results as functions of its arguments. The contents of the buffers are followed
  from the launch through the twelve segments of @main: a host stretch applies the same operations as the reference to
  arrays already identified with the reference's stages; a region's output is the matrix product, the bias (and positive
  part) or the bipartite combination of its input arrays, which is what the reference's dot_general / add / maximum
  compute index by index. Two places need the index ranges of the precondition: the fill-mode take equals the bare gather
  when every wrapped source index is in range, and wrapping a non-negative segment id changes nothing. At the end the
  first result is the reference's second-layer output and the second its bipartite layer's, of the same arguments.
-/
import proofs.«415556_j15367392985223_2_alg».proof.Proof.Gen.KernelIdeal.Frame
import proofs.«415556_j15367392985223_2_alg».proof.Proof.Gen.ReferenceIdeal.Read
import proofs.«415556_j15367392985223_2_alg».proof.Proof.Spec
import proofs.«415556_j15367392985223_2_alg».proof.Pre_finite_inputs
import proofs.«415556_j15367392985223_2_alg».proof.Proof.IndexFacts
import proofs.«415556_j15367392985223_2_alg».proof.Proof.RefRead
import proofs.«415556_j15367392985223_2_alg».proof.Proof.Carry
import proofs.«415556_j15367392985223_2_alg».proof.Proof.HostHead
import proofs.«415556_j15367392985223_2_alg».proof.Proof.HostAgg
import proofs.«415556_j15367392985223_2_alg».proof.Proof.HostAgg2
import proofs.«415556_j15367392985223_2_alg».proof.Proof.HostMean
import proofs.«415556_j15367392985223_2_alg».proof.Proof.StageMat
import proofs.«415556_j15367392985223_2_alg».proof.Proof.StageBias
import proofs.«415556_j15367392985223_2_alg».proof.Proof.StageCombine

set_option maxRecDepth 16384

noncomputable section

namespace Cert.KernelIdeal.Bridge

open Cert.KernelIdeal Cert.KernelIdeal.Gen Cert.Spec
open Idealize.ShloMosaic Idealize.ShloMosaic.TcCoe Idealize.ShloMosaic.ValueIdx Idealize.SL.Sem

variable [Cert.Pre_finite_inputs.Facts]
variable (m : (ℓ : Loc nD τ sig) → Buf (Elt Ideal) ℓ) (ρ : Dev nD → PrngReg)

/-! ## The arguments, the index arrays and the norm at the boundaries where a stage reads them -/

/-- No operation before the first region writes an argument. -/
theorem arg_at1 (c : Dev nD) (b : Ref sig .tc) (hb : b ∈ ([main_arg0, main_arg1, main_arg2, main_arg3, main_arg4, main_arg5, main_arg6, main_arg7, main_arg8, main_arg9, main_arg10, main_arg11] : List (Ref sig .tc))) :
    W1 (F := Ideal) m ρ c (Proc.devRef .tc b) = m ((c.tc : Thread nD τ).loc b) :=
  (Carry.keeps0 m ρ c b hb).trans rfl

/-- The first region writes only its output. -/
theorem arg_at2 (c : Dev nD) (b : Ref sig .tc) (hb : b ∈ ([main_arg0, main_arg1, main_arg2, main_arg3, main_arg4, main_arg5, main_arg6, main_arg7, main_arg8, main_arg9, main_arg10, main_arg11] : List (Ref sig .tc)))
    (hne : ∀ w, Pipeline.arrRef spec0 w ≠ b) :
    W2 (F := Ideal) m ρ c (Proc.devRef .tc b) = m ((c.tc : Thread nD τ).loc b) :=
  (W2_of_ne m ρ c b hne).trans (arg_at1 m ρ c b hb)

/-- Through the first layer's host stretch and its two regions. -/
theorem arg_at4 (c : Dev nD) (b : Ref sig .tc)
    (hb : b ∈ ([main_arg1, main_arg4, main_arg5, main_arg6, main_arg7, main_arg8, main_arg10, main_arg11] : List (Ref sig .tc)))
    (hb' : b ∈ ([main_arg0, main_arg1, main_arg2, main_arg3, main_arg4, main_arg5, main_arg6, main_arg7, main_arg8, main_arg9, main_arg10, main_arg11] : List (Ref sig .tc))) (hne : ∀ w, Pipeline.arrRef spec0 w ≠ b) :
    W4 (F := Ideal) m ρ c (Proc.devRef .tc b) = m ((c.tc : Thread nD τ).loc b) := by
  have h1 : b ∈ ([main_arg1, main_arg4, main_arg5, main_arg6, main_arg7, main_arg8, main_arg10, main_arg11, main_v5, main_v6, main_v31] : List (Ref sig .tc)) := by
    simp only [List.mem_cons, List.not_mem_nil, or_false] at hb ⊢
    rcases hb with h | h | h | h | h | h | h | h <;> simp [h]
  exact ((Carry.keeps1_1 m ρ c b h1).trans (Carry.keeps1 m ρ c b h1)).trans (arg_at2 m ρ c b hb' hne)

/-- Up to the second matrix product's entry: the first layer's bias region writes only its output. -/
theorem arg_at5 (c : Dev nD) (b : Ref sig .tc)
    (hb : b ∈ ([main_arg1, main_arg4, main_arg5, main_arg6, main_arg7, main_arg8, main_arg10, main_arg11] : List (Ref sig .tc))) (hb' : b ∈ ([main_arg0, main_arg1, main_arg2, main_arg3, main_arg4, main_arg5, main_arg6, main_arg7, main_arg8, main_arg9, main_arg10, main_arg11] : List (Ref sig .tc)))
    (hne0 : ∀ w, Pipeline.arrRef spec0 w ≠ b) (hne1 : ∀ w, Pipeline.arrRef spec1 w ≠ b) :
    W5 (F := Ideal) m ρ c (Proc.devRef .tc b) = m ((c.tc : Thread nD τ).loc b) :=
  (W5_of_ne m ρ c b hne1).trans (arg_at4 m ρ c b hb hb' hne0)

/-- Up to the second layer's host stretch. -/
theorem arg_at6 (c : Dev nD) (b : Ref sig .tc)
    (hb : b ∈ ([main_arg1, main_arg4, main_arg5, main_arg6, main_arg7, main_arg8, main_arg10, main_arg11] : List (Ref sig .tc))) (hb' : b ∈ ([main_arg0, main_arg1, main_arg2, main_arg3, main_arg4, main_arg5, main_arg6, main_arg7, main_arg8, main_arg9, main_arg10, main_arg11] : List (Ref sig .tc)))
    (hne0 : ∀ w, Pipeline.arrRef spec0 w ≠ b) (hne1 : ∀ w, Pipeline.arrRef spec1 w ≠ b) (hne2 : ∀ w, Pipeline.arrRef spec2 w ≠ b) :
    W6 (F := Ideal) m ρ c (Proc.devRef .tc b) = m ((c.tc : Thread nD τ).loc b) :=
  (W6_of_ne m ρ c b hne2).trans (arg_at5 m ρ c b hb hb' hne0 hne1)

/-- Up to the bipartite stretch. -/
theorem arg_at9 (c : Dev nD) (b : Ref sig .tc)
    (hb6 : b ∈ ([main_arg1, main_arg6, main_arg7, main_arg8, main_arg10, main_arg11] : List (Ref sig .tc))) (hb : b ∈ ([main_arg1, main_arg4, main_arg5, main_arg6, main_arg7, main_arg8, main_arg10, main_arg11] : List (Ref sig .tc))) (hb' : b ∈ ([main_arg0, main_arg1, main_arg2, main_arg3, main_arg4, main_arg5, main_arg6, main_arg7, main_arg8, main_arg9, main_arg10, main_arg11] : List (Ref sig .tc)))
    (hne0 : ∀ w, Pipeline.arrRef spec0 w ≠ b) (hne1 : ∀ w, Pipeline.arrRef spec1 w ≠ b) (hne2 : ∀ w, Pipeline.arrRef spec2 w ≠ b)
    (hne3 : ∀ w, Pipeline.arrRef spec3 w ≠ b) :
    W9 (F := Ideal) m ρ c (Proc.devRef .tc b) = m ((c.tc : Thread nD τ).loc b) :=
  (W9_of_ne m ρ c b hne3).trans (((Carry.keeps3_1 m ρ c b hb6).trans (Carry.keeps3 m ρ c b hb6)).trans
    (arg_at6 m ρ c b hb hb' hne0 hne1 hne2))

/-- Up to the last region's entry. -/
theorem arg_at11 (c : Dev nD) (b : Ref sig .tc)
    (hb4 : b ∈ ([main_arg1, main_arg6, main_arg8, main_v61] : List (Ref sig .tc)))
    (hb6 : b ∈ ([main_arg1, main_arg6, main_arg7, main_arg8, main_arg10, main_arg11] : List (Ref sig .tc))) (hb : b ∈ ([main_arg1, main_arg4, main_arg5, main_arg6, main_arg7, main_arg8, main_arg10, main_arg11] : List (Ref sig .tc))) (hb' : b ∈ ([main_arg0, main_arg1, main_arg2, main_arg3, main_arg4, main_arg5, main_arg6, main_arg7, main_arg8, main_arg9, main_arg10, main_arg11] : List (Ref sig .tc)))
    (hne0 : ∀ w, Pipeline.arrRef spec0 w ≠ b) (hne1 : ∀ w, Pipeline.arrRef spec1 w ≠ b) (hne2 : ∀ w, Pipeline.arrRef spec2 w ≠ b)
    (hne3 : ∀ w, Pipeline.arrRef spec3 w ≠ b) :
    W11 (F := Ideal) m ρ c (Proc.devRef .tc b) = m ((c.tc : Thread nD τ).loc b) :=
  ((Carry.keeps4_1 m ρ c b hb4).trans (Carry.keeps4 m ρ c b hb4)).trans (arg_at9 m ρ c b hb6 hb hb' hne0 hne1 hne2 hne3)

/-- The index arrays and the norm are left alone from the first region's exit to the second layer's host stretch. -/
theorem idx_at6 (c : Dev nD) (b : Ref sig .tc) (hb : b ∈ ([main_v5, main_v6, main_v31] : List (Ref sig .tc)))
    (hne1 : ∀ w, Pipeline.arrRef spec1 w ≠ b) (hne2 : ∀ w, Pipeline.arrRef spec2 w ≠ b) :
    W6 (F := Ideal) m ρ c (Proc.devRef .tc b) = W2 (F := Ideal) m ρ c (Proc.devRef .tc b) := by
  have h1 : b ∈ ([main_arg1, main_arg4, main_arg5, main_arg6, main_arg7, main_arg8, main_arg10, main_arg11, main_v5, main_v6, main_v31] : List (Ref sig .tc)) := by
    simp only [List.mem_cons, List.not_mem_nil, or_false] at hb ⊢
    rcases hb with h | h | h <;> simp [h]
  exact (W6_of_ne m ρ c b hne2).trans ((W5_of_ne m ρ c b hne1).trans ((Carry.keeps1_1 m ρ c b h1).trans (Carry.keeps1 m ρ c b h1)))

/-! ## The index ranges the precondition gives -/

/-- From the precondition: the source indices (the first edge row followed by 0 … 49999) and pd_src are valid indices into
    50000 rows, and pd_dst is non-negative. -/
theorem index_facts (c : Dev nD) (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = fun _ => 1#1) :
    WithinWrap 50000 (Cert.ReferenceIdeal.Read.val_main_v3 (F := Ideal) (m ((c.tc : Thread nD τ).loc main_arg9)))
      ∧ WithinWrap 50000 (m ((c.tc : Thread nD τ).loc main_arg10)) ∧ NonNeg (m ((c.tc : Thread nD τ).loc main_arg11)) := by
  obtain ⟨h1, h2, h3⟩ := Cert.IndexFacts.of_pre _ _ _ _ _ _ _ _ _ _ _ _ hpre
  exact ⟨Cert.IndexFacts.concat_within _ Cert.ReferenceIdeal.Facts₀.concatenates_S1600000_S50000_S1650000_d0 h1, h2, h3⟩

/-! ## The stages -/

/-- The first layer's activations, when the second region is left. -/
theorem layer1 (c : Dev nD)
    (hsrc : WithinWrap 50000 (Cert.ReferenceIdeal.Read.val_main_v3 (F := Ideal) (m ((c.tc : Thread nD τ).loc main_arg9)))) :
    W5 (F := Ideal) m ρ c (Proc.devRef .tc main_v46)
      = Cert.ReferenceIdeal.Read.val_main_v54 (F := Ideal) (m ((c.tc : Thread nD τ).loc main_arg0)) (m ((c.tc : Thread nD τ).loc main_arg2)) (m ((c.tc : Thread nD τ).loc main_arg3)) (m ((c.tc : Thread nD τ).loc main_arg9)) := by
  have s32 : W2 (F := Ideal) m ρ c (Proc.devRef .tc main_v32)
      = Cert.ReferenceIdeal.Read.val_main_v32 (F := Ideal) (m ((c.tc : Thread nD τ).loc main_arg0)) (m ((c.tc : Thread nD τ).loc main_arg2)) := by
    rw [StageMat.W2_v32 m ρ c, arg_at1 m ρ c main_arg0 (by decide), arg_at1 m ρ c main_arg2 (by decide)]
    exact (Cert.ReferenceIdeal.RefRead.v32_eq _ _).symm
  have s5 : W2 (F := Ideal) m ρ c (Proc.devRef .tc main_v5) = Cert.ReferenceIdeal.Read.val_main_v3 (F := Ideal) (m ((c.tc : Thread nD τ).loc main_arg9)) :=
    (W2_of_ne m ρ c main_v5 (by decide)).trans (HostHead.W1_v5 m ρ c)
  have s6 : W2 (F := Ideal) m ρ c (Proc.devRef .tc main_v6) = Cert.ReferenceIdeal.Read.val_main_v6 (F := Ideal) (m ((c.tc : Thread nD τ).loc main_arg9)) :=
    (W2_of_ne m ρ c main_v6 (by decide)).trans (HostHead.W1_v6 m ρ c)
  have s31 : W2 (F := Ideal) m ρ c (Proc.devRef .tc main_v31) = Cert.ReferenceIdeal.Read.val_main_v31 (F := Ideal) (m ((c.tc : Thread nD τ).loc main_arg9)) :=
    (W2_of_ne m ρ c main_v31 (by decide)).trans (HostHead.W1_v31 m ρ c)
  have s44 := HostAgg.W4_v44 m ρ c _ _ _ s32 s5 s6 s31 hsrc
  have s45 : W4 (F := Ideal) m ρ c (Proc.devRef .tc main_v45) = shapeCast S1x64 (m ((c.tc : Thread nD τ).loc main_arg3)) shapeCasts_S64_S1x64 := by
    rw [HostAgg.W4_v45 m ρ c, arg_at2 m ρ c main_arg3 (by decide) (by decide)]
  rw [StageBias.W5_v46 m ρ c, s44, s45]
  exact (Cert.ReferenceIdeal.RefRead.v54_eq _ _ _ _ _).symm

/-- The second layer's output, when the fourth region is left. -/
theorem layer2 (c : Dev nD)
    (hsrc : WithinWrap 50000 (Cert.ReferenceIdeal.Read.val_main_v3 (F := Ideal) (m ((c.tc : Thread nD τ).loc main_arg9)))) :
    W9 (F := Ideal) m ρ c (Proc.devRef .tc main_v61)
      = Cert.ReferenceIdeal.Read.val_main_v108 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) := by
  have s46 := layer1 m ρ c hsrc
  have a4 : W5 (F := Ideal) m ρ c (Proc.devRef .tc main_arg4) = (m ((c.tc : Thread nD τ).loc main_arg4)) :=
    arg_at5 m ρ c main_arg4 (by decide) (by decide) (by decide) (by decide)
  have s47 : W6 (F := Ideal) m ρ c (Proc.devRef .tc main_v47)
      = Cert.ReferenceIdeal.Read.val_main_v87 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg9)) := by
    rw [StageMat.W6_v47 m ρ c, s46, a4]
    exact (Cert.ReferenceIdeal.RefRead.v87_eq _ _ _ _ _).symm
  have s5 : W6 (F := Ideal) m ρ c (Proc.devRef .tc main_v5) = Cert.ReferenceIdeal.Read.val_main_v58 (F := Ideal) (m ((c.tc : Thread nD τ).loc main_arg9)) :=
    (idx_at6 m ρ c main_v5 (by decide) (by decide) (by decide)).trans
      (((W2_of_ne m ρ c main_v5 (by decide)).trans (HostHead.W1_v5 m ρ c)).trans (Cert.ReferenceIdeal.RefRead.v58_eq _).symm)
  have s6 : W6 (F := Ideal) m ρ c (Proc.devRef .tc main_v6) = Cert.ReferenceIdeal.Read.val_main_v61 (F := Ideal) (m ((c.tc : Thread nD τ).loc main_arg9)) :=
    (idx_at6 m ρ c main_v6 (by decide) (by decide) (by decide)).trans
      (((W2_of_ne m ρ c main_v6 (by decide)).trans (HostHead.W1_v6 m ρ c)).trans (Cert.ReferenceIdeal.RefRead.v61_eq _).symm)
  have s31 : W6 (F := Ideal) m ρ c (Proc.devRef .tc main_v31) = Cert.ReferenceIdeal.Read.val_main_v86 (F := Ideal) (m ((c.tc : Thread nD τ).loc main_arg9)) :=
    (idx_at6 m ρ c main_v31 (by decide) (by decide) (by decide)).trans
      (((W2_of_ne m ρ c main_v31 (by decide)).trans (HostHead.W1_v31 m ρ c)).trans (Cert.ReferenceIdeal.RefRead.v86_eq _).symm)
  have hsrc' : WithinWrap 50000 (Cert.ReferenceIdeal.Read.val_main_v58 (F := Ideal) (m ((c.tc : Thread nD τ).loc main_arg9))) := by
    rw [Cert.ReferenceIdeal.RefRead.v58_eq]; exact hsrc
  have s59 := HostAgg2.W8_v59 m ρ c _ _ _ _ _ s47 s5 s6 s31 hsrc'
  have a5 : W6 (F := Ideal) m ρ c (Proc.devRef .tc main_arg5) = (m ((c.tc : Thread nD τ).loc main_arg5)) :=
    arg_at6 m ρ c main_arg5 (by decide) (by decide) (by decide) (by decide) (by decide)
  have s60 : W8 (F := Ideal) m ρ c (Proc.devRef .tc main_v60) = shapeCast S1x32 (m ((c.tc : Thread nD τ).loc main_arg5)) shapeCasts_S32_S1x32 := by
    rw [HostAgg2.W8_v60 m ρ c, a5]
  rw [StageBias.W9_v61 m ρ c, s59, s60]
  exact (Cert.ReferenceIdeal.RefRead.v108_eq _ _ _ _ _ _ _).symm

/-- THE FIRST RESULT: the updated protein features are the reference's second-layer output of the same arguments. -/
theorem result0 (c : Dev nD) (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = fun _ => 1#1) :
    W12 (F := Ideal) m ρ c (Proc.devRef .tc main_v61)
      = Cert.ReferenceIdeal.Read.val_main_v108 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) := by
  obtain ⟨hsrc, -, -⟩ := index_facts m c hpre
  have k : W12 (F := Ideal) m ρ c (Proc.devRef .tc main_v61) = W9 (F := Ideal) m ρ c (Proc.devRef .tc main_v61) :=
    (W12_of_ne m ρ c main_v61 (by decide)).trans ((Carry.keeps4_1 m ρ c main_v61 (by decide)).trans (Carry.keeps4 m ρ c main_v61 (by decide)))
  exact k.trans (layer2 m ρ c hsrc)

/-- THE SECOND RESULT: the drug features are the reference's bipartite layer of the same arguments. -/
theorem result1 (c : Dev nD) (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = fun _ => 1#1) :
    W12 (F := Ideal) m ρ c (Proc.devRef .tc main_v86)
      = Cert.ReferenceIdeal.Read.val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  obtain ⟨hsrc, hs, hd⟩ := index_facts m c hpre
  have s61 := layer2 m ρ c hsrc
  have a10 : W9 (F := Ideal) m ρ c (Proc.devRef .tc main_arg10) = (m ((c.tc : Thread nD τ).loc main_arg10)) :=
    arg_at9 m ρ c main_arg10 (by decide) (by decide) (by decide) (by decide) (by decide) (by decide) (by decide)
  have a11 : W9 (F := Ideal) m ρ c (Proc.devRef .tc main_arg11) = (m ((c.tc : Thread nD τ).loc main_arg11)) :=
    arg_at9 m ρ c main_arg11 (by decide) (by decide) (by decide) (by decide) (by decide) (by decide) (by decide)
  have a7 : W9 (F := Ideal) m ρ c (Proc.devRef .tc main_arg7) = (m ((c.tc : Thread nD τ).loc main_arg7)) :=
    arg_at9 m ρ c main_arg7 (by decide) (by decide) (by decide) (by decide) (by decide) (by decide) (by decide)
  have s84 := HostMean.W11_v84 m ρ c _ _ _ _ _ _ _ _ s61 a10 a11 hs hd
  have s85 : W11 (F := Ideal) m ρ c (Proc.devRef .tc main_v85) = shapeCast S1x64 (m ((c.tc : Thread nD τ).loc main_arg7)) shapeCasts_S64_S1x64 := by
    rw [HostMean.W11_v85 m ρ c, a7]
  have a1 : W11 (F := Ideal) m ρ c (Proc.devRef .tc main_arg1) = (m ((c.tc : Thread nD τ).loc main_arg1)) :=
    arg_at11 m ρ c main_arg1 (by decide) (by decide) (by decide) (by decide) (by decide) (by decide) (by decide) (by decide)
  have a6 : W11 (F := Ideal) m ρ c (Proc.devRef .tc main_arg6) = (m ((c.tc : Thread nD τ).loc main_arg6)) :=
    arg_at11 m ρ c main_arg6 (by decide) (by decide) (by decide) (by decide) (by decide) (by decide) (by decide) (by decide)
  have a8 : W11 (F := Ideal) m ρ c (Proc.devRef .tc main_arg8) = (m ((c.tc : Thread nD τ).loc main_arg8)) :=
    arg_at11 m ρ c main_arg8 (by decide) (by decide) (by decide) (by decide) (by decide) (by decide) (by decide) (by decide)
  rw [StageCombine.W12_v86 m ρ c, s84, a1, a6, s85, a8]
  exact (Cert.ReferenceIdeal.RefRead.v133_eq _ _ _ _ _ _ _ _ _ _ _ _ _).symm

end Cert.KernelIdeal.Bridge

end
-- ==== Proof.Claims.lean ====
/-
  The five claims about the two programs, a two-layer graph convolution followed by a bipartite mean aggregation, one
  theorem each.

  Each program runs and leaves its twelve arguments as it found them (three claims). The kernel program as printed and its
  reading over the extended reals are the same text: no operation was rewritten, so there is nothing to preserve. And
  from memories that agree on the arguments, both programs, read over the extended reals with exact operations, end
  holding the same two arrays: the reference's two result functions of the kernel program's arguments. For the kernel
  program that is the equation between what its last segment leaves in its result arrays and those functions; for the
  reference it is its own run, with its arguments replaced by the kernel program's, to which they are equal.
-/
import proofs.«415556_j15367392985223_2_alg».proof.Defs
import proofs.«415556_j15367392985223_2_alg».proof.Proof.Gen.Kernel
import proofs.«415556_j15367392985223_2_alg».proof.Proof.Gen.Kernel.Frame
import proofs.«415556_j15367392985223_2_alg».proof.Proof.Gen.KernelIdeal
import proofs.«415556_j15367392985223_2_alg».proof.Proof.Gen.KernelIdeal.Frame
import proofs.«415556_j15367392985223_2_alg».proof.Proof.Gen.ReferenceIdeal
import proofs.«415556_j15367392985223_2_alg».proof.Proof.Gen.ReferenceIdeal.Run
import proofs.«415556_j15367392985223_2_alg».proof.Proof.Gen.ReferenceIdeal.Read
import proofs.«415556_j15367392985223_2_alg».proof.Proof.Gen.Pre_finite_inputs
import proofs.«415556_j15367392985223_2_alg».proof.Proof.KernelIdealRun
import proofs.«415556_j15367392985223_2_alg».proof.Proof.Bridge

set_option maxRecDepth 16384

noncomputable section

namespace Cert.Proof.Claims

open Idealize.ShloMosaic Idealize.ShloMosaic.TcCoe Idealize.SL.Sem

/-- The program as printed runs and leaves its twelve arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments as launched: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten between the printed program and its reading over the extended reals. -/
theorem preserves : Cert.preserves_Kernel_KernelIdeal := trivial

/-- From memories that agree on the arguments both programs run, each keeps its arguments, and both leave the same two
    arrays: the reference's two result functions of the kernel program's arguments. -/
theorem algebraic : Cert.algebraic_KernelIdeal_ReferenceIdeal := by
  intro m ρ m' ρ' hpre hagree
  refine ⟨fun c => Cert.ReferenceIdeal.Read.val_main_v108 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)),
    fun c => Cert.ReferenceIdeal.Read.val_main_v133 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Bridge.result0 m ρ c (hpre c)),
        (h c).2.1.trans (Cert.KernelIdeal.Bridge.result1 m ρ c (hpre c)), (h c).2.2⟩)
      (Cert.KernelIdeal.GenRun.run_results (F := Ideal) m ρ)
  · refine (θ_run Cert.ReferenceIdeal.defs _ _).mono (fun _ h c => ?_) (Cert.ReferenceIdeal.Value.run (F := Ideal) m' ρ')
    obtain ⟨a0, a1, a2, a3, a4, a5, a6, a7, a8, a9, a10, a11⟩ := hagree c
    refine ⟨(h c).1.trans ?_, (h c).2.1.trans ?_, (h c).2.2⟩
    · rw [Cert.ReferenceIdeal.Read.val_main_v108_eq, a0, a2, a3, a4, a5, a9]
    · rw [Cert.ReferenceIdeal.Read.val_main_v133_eq, a0, a1, a2, a3, a4, a5, a6, a7, a8, a9, a10, a11]

end Cert.Proof.Claims

end
-- ==== Proof.lean ====
/-
  A two-layer graph convolution followed by a bipartite mean aggregation: the two programs compute the same two arrays.

  The graph has 50000 nodes with 128 features each and 1600000 edges, to which a self-loop at every node is added. The
  degree of a node is the number of edges into it, and every edge is weighted by the product of the inverse square roots
  of the degrees of its two ends (the symmetric normalisation). The first layer applies a linear map 128 → 64 to the
  features, sums into every node the weighted rows of the sources of its edges, adds a bias and takes the positive part;
  the second layer does the same with a linear map 64 → 32 and its bias, without the positive part: that is the first
  result, 50000 × 32. Then, over a bipartite edge set of 200000 edges from these nodes into 5000 destination nodes, every
  destination takes the sum of its sources' second-layer rows divided by their number (by one where it has none); a linear
  map 32 → 64 of that mean with its bias, plus a linear map 128 → 64 of the destinations' own features, is the second
  result, 5000 × 64.

  The kernel program does the two layers' linear maps, their two bias steps, and the final combination (its two linear
  maps and its bias) in five regions tiled along the rows, and the aggregations over the edges between them on the host;
  the reference does everything on the host. Over the extended reals, with exact operations:
  * a matrix product computed tile by tile is the whole product, and a change of float format is the identity;
  * a bias row added block by block is the bias added to every row, and so with the positive part after it;
  * a take that fills the out-of-range positions equals the plain gather when every source index is a valid index into
    the 50000 rows (negative ones counted from the end), which the precondition says;
  * a non-negative segment id wrapped into its range is itself, and the precondition says the destinations' are
    non-negative;
  * a product of two factors commutes.
  Hence the two programs leave equal results, element by element, and each leaves its arguments unchanged.

  The five claims are proved one theorem each in the module of the claims; here they are put behind the witnesses of the
  side conditions that the programs and the precondition state.
-/
import proofs.«415556_j15367392985223_2_alg».proof.Defs
import proofs.«415556_j15367392985223_2_alg».proof.Proof.Gen.Kernel
import proofs.«415556_j15367392985223_2_alg».proof.Proof.Gen.KernelIdeal
import proofs.«415556_j15367392985223_2_alg».proof.Proof.Gen.ReferenceIdeal
import proofs.«415556_j15367392985223_2_alg».proof.Proof.Gen.Pre_finite_inputs
import proofs.«415556_j15367392985223_2_alg».proof.Proof.Claims
import Idealize.ShloMosaic.Adequacy
import Idealize.ShloMosaic.Init

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
